-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096x512 : Shape := ⟨2, ![4096, 512]⟩
abbrev S4096 : Shape := ⟨1, ![4096]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096x512 .f32) (main_arg5 : IVec S4096 32) (main_v13 : IVec S_ 1) (main_v16 : IVec S4096x512 1) : IVec S_ 1 :=
  let main_c_5 : IVec S_ 1 := constantI S_ 1 1#1
  let main_v17 : IVec S_ 1 := (fun x v => Host.reduce IntOp.andi x v reducesTo_S4096x512_S_d0_1 h_S_) main_v16 main_c_5
  let main_v18 : IVec S_ 1 := andi main_v13 main_v17
  let main_v19 : FVec F S4096x512 .f32 := Host.absf main_arg4
  let main_cst_6 : FVec F S_ .f32 := constant S_ .f32 0x7F800000#32
  let main_v20 : FVec F S4096x512 .f32 := broadcastInDim S4096x512 ![] bcast_S_S4096x512 main_cst_6
  let main_v21 : IVec S4096x512 1 := cmpf .olt main_v19 main_v20
  let main_c_7 : IVec S_ 1 := constantI S_ 1 1#1
  let main_v22 : IVec S_ 1 := (fun x v => Host.reduce IntOp.andi x v reducesTo_S4096x512_S_d0_1 h_S_) main_v21 main_c_7
  let main_v23 : IVec S_ 1 := andi main_v18 main_v22
  let main_c_8 : IVec S_ 32 := constantI S_ 32 0#32
  let main_v24 : IVec S4096 32 := broadcastInDim S4096 ![] bcast_S_S4096 main_c_8
  let main_v25 : IVec S4096 1 := cmpi .sge main_arg5 main_v24
  let main_c_9 : IVec S_ 1 := constantI S_ 1 1#1
  let main_v26 : IVec S_ 1 := (fun x v => Host.reduce IntOp.andi x v reducesTo_S4096_S_d0 h_S_) main_v25 main_c_9
  let main_v27 : IVec S_ 1 := andi main_v23 main_v26
  let main_c_10 : IVec S_ 32 := constantI S_ 32 1024#32
  let main_v28 : IVec S4096 32 := broadcastInDim S4096 ![] bcast_S_S4096 main_c_10
  let main_v29 : IVec S4096 1 := cmpi .slt main_arg5 main_v28
  let main_c_11 : IVec S_ 1 := constantI S_ 1 1#1
  let main_v30 : IVec S_ 1 := (fun x v => Host.reduce IntOp.andi x v reducesTo_S4096_S_d0 h_S_) main_v29 main_c_11
  let main_v31 : IVec S_ 1 := andi main_v27 main_v30
  main_v31

def fn {F : FTy → Type} [FloatOps F] (main_arg0 : FVec F S4096x1024 .f32) (main_arg1 : FVec F S4096x512 .f32) (main_arg2 : FVec F S4096x512 .f32) (main_arg3 : FVec F S4096x512 .f32) (main_arg4 : FVec F S4096x512 .f32) (main_arg5 : IVec S4096 32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S4096x512 .f32 := Host.absf main_arg2
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  let main_c_3 : IVec S_ 1 := constantI S_ 1 1#1
  let main_v12 : IVec S_ 1 := (fun x v => Host.reduce IntOp.andi x v reducesTo_S4096x512_S_d0_1 h_S_) main_v11 main_c_3
  let main_v13 : IVec S_ 1 := andi main_v8 main_v12
  let main_v14 : FVec F S4096x512 .f32 := Host.absf main_arg3
  let main_cst_4 : FVec F S_ .f32 := constant S_ .f32 0x7F800000#32
  let main_v15 : FVec F S4096x512 .f32 := broadcastInDim S4096x512 ![] bcast_S_S4096x512 main_cst_4
  let main_v16 : IVec S4096x512 1 := cmpf .olt main_v14 main_v15
  fn_part1 (F := F) main_arg4 main_arg5 main_v13 main_v16
-- ==== Kernel.lean ====
abbrev S4096x1024 : Shape := ⟨2, ![4096, 1024]⟩
abbrev S4096x512 : Shape := ⟨2, ![4096, 512]⟩
abbrev S4096 : Shape := ⟨1, ![4096]⟩
abbrev S4096x1 : Shape := ⟨2, ![4096, 1]⟩
abbrev S1x4096 : Shape := ⟨2, ![1, 4096]⟩
abbrev S512x1 : Shape := ⟨2, ![512, 1]⟩
abbrev S512x512 : Shape := ⟨2, ![512, 512]⟩
abbrev S512 : Shape := ⟨1, ![512]⟩
abbrev S1x512 : Shape := ⟨2, ![1, 512]⟩
abbrev S512x1024 : Shape := ⟨2, ![512, 1024]⟩
abbrev S1x1 : Shape := ⟨2, ![1, 1]⟩
abbrev S1x512x512 : Shape := ⟨3, ![1, 512, 512]⟩
abbrev S1 : Shape := ⟨1, ![1]⟩
abbrev S1x1x1 : Shape := ⟨3, ![1, 1, 1]⟩
abbrev S_ : Shape := ⟨0, ![]⟩

abbrev nBuf : Space → Nat
  | .hbm => 41
  | .vmem => 23
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S4096, .i32⟩
  | .hbm, ⟨6, _⟩ => ⟨S4096x1, .i32⟩
  | .hbm, ⟨7, _⟩ => ⟨S1x4096, .i32⟩
  | .hbm, ⟨8, _⟩ => ⟨S4096x1, .f32⟩
  | .hbm, ⟨9, _⟩ => ⟨S4096x1, .f32⟩
  | .hbm, ⟨10, _⟩ => ⟨S4096x1, .f32⟩
  | .hbm, ⟨11, _⟩ => ⟨S1x1, .f32⟩
  | .hbm, ⟨12, _⟩ => ⟨S1x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .local _ .vmem, ⟨0, _⟩ => ⟨S4096x512, .f32⟩
  | .local _ .vmem, ⟨1, _⟩ => ⟨S4096x1, .i32⟩
  | .local _ .vmem, ⟨2, _⟩ => ⟨S1x4096, .i32⟩
  | .local _ .vmem, ⟨3, _⟩ => ⟨S512x1, .f32⟩
  | .local _ .vmem, ⟨4, _⟩ => ⟨S512x1, .f32⟩
  | .local _ .vmem, ⟨5, _⟩ => ⟨S512x1, .f32⟩
  | .local _ .vmem, ⟨6, _⟩ => ⟨S512x1, .f32⟩
  | .local _ .vmem, ⟨7, _⟩ => ⟨S512x1024, .f32⟩
  | .local _ .vmem, ⟨8, _⟩ => ⟨S512x1024, .f32⟩
  | .local _ .vmem, ⟨9, _⟩ => ⟨S512x1, .i32⟩
  | .local _ .vmem, ⟨10, _⟩ => ⟨S512x1, .i32⟩
  | .local _ .vmem, ⟨11, _⟩ => ⟨S512x1, .f32⟩
  | .local _ .vmem, ⟨12, _⟩ => ⟨S512x1, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S1x1, .f32⟩
  | .local _ .vmem, ⟨20, _⟩ => ⟨S1x1, .f32⟩
  | .local _ .vmem, ⟨21, _⟩ => ⟨S1x1, .f32⟩
  | .local _ .vmem, ⟨22, _⟩ => ⟨S1x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_call0_cst : Ref sig .tc := ⟨.hbm, 17, rfl⟩
abbrev main_call0_v0 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_cst_3 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_4 : Ref sig .tc := ⟨.hbm, 32, rfl⟩
abbrev main_v17 : Ref sig .tc := ⟨.hbm, 33, rfl⟩
abbrev main_cst_5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_6 : Ref sig .tc := ⟨.hbm, 38, rfl⟩
abbrev main_v21 : Ref sig .tc := ⟨.hbm, 39, rfl⟩
abbrev main_v22 : Ref sig .tc := ⟨.hbm, 40, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg4_0 : Ref sig .tc := ⟨.vmem, 20, rfl⟩
abbrev cc2_scratch0 : Ref sig .tc := ⟨.vmem, 21, rfl⟩
abbrev cc2_scratch1 : Ref sig .tc := ⟨.vmem, 22, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18
abbrev cc2_sem3_0 : DmaSem sig := 19
abbrev cc2_sem4_0 : DmaSem sig := 20

abbrev nD : Nat := 1
abbrev τ : Topo := Topo.v7x

variable {F : FTy → Type} [FloatOps F]

abbrev grid0 : Pipeline.Grid := ⟨1, ![8], ![false]⟩

def k0_mult1 (i : grid0.Coords) : BitVec 32 :=
  let arg0 : BitVec 32 := BitVec.ofNat 32 (i 0).val
  let c512_i32 : BitVec 32 := 512#32
  let v0 : BitVec 32 := Scalar.muli arg0 c512_i32
  v0
def k0_off1 (i : grid0.Coords) : Fin 2 → Nat :=
  let arg0 : BitVec 32 := BitVec.ofNat 32 (i 0).val
  let c512_i32 : BitVec 32 := 512#32
  let v0 : BitVec 32 := Scalar.muli arg0 c512_i32
  let v1 : BitVec 32 := v0
  let v2 : Index := Scalar.indexCast v1
  let c0 : Index := 0#32
  ![v2.toNat, 0]
def k0_off2 (i : grid0.Coords) : Fin 2 → Nat :=
  let arg0 : BitVec 32 := BitVec.ofNat 32 (i 0).val
  let c512_i32 : BitVec 32 := 512#32
  let v0 : BitVec 32 := Scalar.muli arg0 c512_i32
  let v1 : BitVec 32 := v0
  let v4 : Index := Scalar.indexCast v1
  let c0_0 : Index := 0#32
  ![v4.toNat, 0]
def k0_mult2 : BitVec 32 :=
  let c0_i32 : BitVec 32 := 0#32
  let c512_i32_3 : BitVec 32 := 512#32
  let v13 : BitVec 32 := Scalar.muli c0_i32 c512_i32_3
  v13
def k0_off3 (c0_i32 : BitVec 32) : Fin 2 → Nat :=
  let c512_i32_3 : BitVec 32 := 512#32
  let v13 : BitVec 32 := Scalar.muli c0_i32 c512_i32_3
  let v14 : BitVec 32 := v13
  let v15 : Index := Scalar.indexCast v14
  let c0_4 : Index := 0#32
  ![v15.toNat, 0]
def k0_off4 (c0_i32 : BitVec 32) : Fin 2 → Nat :=
  let c0_5 : Index := 0#32
  let c512_i32_3 : BitVec 32 := 512#32
  let v13 : BitVec 32 := Scalar.muli c0_i32 c512_i32_3
  let v14 : BitVec 32 := v13
  let v17 : Index := Scalar.indexCast v14
  ![0, v17.toNat]
def k0_mult3 : BitVec 32 :=
  let c1_i32 : BitVec 32 := 1#32
  let c512_i32_14 : BitVec 32 := 512#32
  let v49 : BitVec 32 := Scalar.muli c1_i32 c512_i32_14
  v49
def k0_mult4 : BitVec 32 :=
  let c2_i32 : BitVec 32 := 2#32
  let c512_i32_25 : BitVec 32 := 512#32
  let v85 : BitVec 32 := Scalar.muli c2_i32 c512_i32_25
  v85
def k0_mult5 : BitVec 32 :=
  let c3_i32 : BitVec 32 := 3#32
  let c512_i32_36 : BitVec 32 := 512#32
  let v121 : BitVec 32 := Scalar.muli c3_i32 c512_i32_36
  v121
def k0_mult6 : BitVec 32 :=
  let c4_i32 : BitVec 32 := 4#32
  let c512_i32_47 : BitVec 32 := 512#32
  let v157 : BitVec 32 := Scalar.muli c4_i32 c512_i32_47
  v157
def k0_mult7 : BitVec 32 :=
  let c5_i32 : BitVec 32 := 5#32
  let c512_i32_58 : BitVec 32 := 512#32
  let v193 : BitVec 32 := Scalar.muli c5_i32 c512_i32_58
  v193
def k0_mult8 : BitVec 32 :=
  let c6_i32 : BitVec 32 := 6#32
  let c512_i32_69 : BitVec 32 := 512#32
  let v229 : BitVec 32 := Scalar.muli c6_i32 c512_i32_69
  v229
def k0_mult9 : BitVec 32 :=
  let c7_i32 : BitVec 32 := 7#32
  let c512_i32_80 : BitVec 32 := 512#32
  let v265 : BitVec 32 := Scalar.muli c7_i32 c512_i32_80
  v265
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4096x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4096x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![8], ![false]⟩

def k2_cond2 (i : grid2.Coords) : BitVec 1 :=
  let arg0 : BitVec 32 := BitVec.ofNat 32 (i 0).val
  let c7_i32 : BitVec 32 := 7#32
  let v31 : BitVec 1 := Scalar.cmpi .eq arg0 c7_i32
  let v32 : BitVec 32 := Scalar.extui v31
  let c0_i32_17 : BitVec 32 := 0#32
  let v33 : BitVec 1 := Scalar.cmpi .ne v32 c0_i32_17
  v33

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S512x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S512x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

class Facts₀ : Prop where
  shapeCasts_S4096_S4096x1 : S4096.ShapeCasts S4096x1
  shapeCasts_S4096x1_S1x4096 : S4096x1.ShapeCasts S1x4096
  h_S512x512 : 0 < S512x512.numel
  h_S512x1 : 0 < S512x1.numel
  shapeCasts_S512x1_S512x1 : S512x1.ShapeCasts S512x1
  reduces_S512x512_S512 : S512x512.Reduces [1] S512
  shapeCasts_S512_S512x1 : S512.ShapeCasts S512x1
  bitsLt_bf16_f32 : FTy.bits .bf16 < FTy.bits .f32
  h_S1x512 : 0 < S1x512.numel
  shapeCasts_S1x512_S1x512 : S1x512.ShapeCasts S1x512
  transposes_S512x1_p1_0_S1x512 : S512x1.Transposes [1, 0] S1x512
  transposes_S512x512_p1_0_S512x512 : S512x512.Transposes [1, 0] S512x512
  broadcasts_S512x1_S512x512 : S512x1.Broadcasts S512x512
  broadcasts_S1x512_S512x512 : S1x512.Broadcasts S512x512
  inb_S512x1_S512x1_0_0 : ∀ a, (![0, 0] : Fin 2 → Nat) a + S512x1.size a ≤ S512x1.size a
  inb_S512x1024_S512x1024_0_0 : ∀ a, (![0, 0] : Fin 2 → Nat) a + S512x1024.size a ≤ S512x1024.size a
  h_S512x1024 : 0 < S512x1024.numel
  reduces_S512x1024_S512 : S512x1024.Reduces [1] S512
  broadcasts_S512x1_S512x1024 : S512x1.Broadcasts S512x1024
  iota_S512x1024_d1_w32 : S512x1024.Iotas .tc 32 [1]
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S512x512_S512x512_0_0 : ∀ a, (![0, 0] : Fin 2 → Nat) a + S512x512.size a ≤ S512x512.size a
  shapeCasts_S512x512_S1x512x512 : S512x512.ShapeCasts S1x512x512
  reduces_S1x512x512_S1 : S1x512x512.Reduces [1, 2] S1
  shapeCasts_S1_S1x1x1 : S1.ShapeCasts S1x1x1
  inpos_S1x1x1_p0_0_0 : ∀ a, (![0, 0, 0] : Fin 3 → Nat) a < S1x1x1.size a
  bcast_S_S4096x1 : S_.BroadcastsInDim S4096x1 (![] : Fin 0 → Fin S4096x1.rank)
  reducesTo_S4096x1_S_d0_1 : S4096x1.ReducesTo [0, 1] S_
  h_S_ : 0 < S_.numel
  shapeCasts_S1x1_S_ : S1x1.ShapeCasts S_
  dot_S512x512_S512x512_S512x512_1_0_0_1_n_n_wf : DotDims.WF S512x512 S512x512 S512x512 [1] [0] [0] [1] [] []
  hrank0 : 0 < grid0.rank
  k0_mult1_dvd : ∀ i : grid0.Coords, 512 ∣ (k0_mult1 i).toNat
  k0_off1_inb : ∀ i : grid0.Coords, ∀ a, (k0_off1 i) a + S512x512.size a ≤ S4096x512.size a
  k0_off2_inb : ∀ i : grid0.Coords, ∀ a, (k0_off2 i) a + S512x1.size a ≤ S4096x1.size a
  k0_mult2_dvd : 512 ∣ k0_mult2.toNat
  k0_off3_inb : ∀ (r : Fin 8), ∀ a, (k0_off3 (BitVec.ofNat 32 r.val)) a + S512x512.size a ≤ S4096x512.size a
  k0_off4_inb : ∀ (r : Fin 8), ∀ a, (k0_off4 (BitVec.ofNat 32 r.val)) a + S1x512.size a ≤ S1x4096.size a
  k0_mult3_dvd : 512 ∣ k0_mult3.toNat
  k0_mult4_dvd : 512 ∣ k0_mult4.toNat
  k0_mult5_dvd : 512 ∣ k0_mult5.toNat
  k0_mult6_dvd : 512 ∣ k0_mult6.toNat
  k0_mult7_dvd : 512 ∣ k0_mult7.toNat
  k0_mult8_dvd : 512 ∣ k0_mult8.toNat
  k0_mult9_dvd : 512 ∣ k0_mult9.toNat
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S4096x512.size a
  hwx0_0 : ∀ i : grid0.Coords, EltTy.bits .f32 = 32 ∨ (Rect.block (s := S4096x512) S4096x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x1.size a ≤ S4096x1.size a
  hwx0_1 : ∀ i : grid0.Coords, EltTy.bits .i32 = 32 ∨ (Rect.block (s := S4096x1) S4096x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .i32 = 32 ∨ (Rect.block (s := S1x4096) S1x4096.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S4096x1.size a
  hwx0_3 : ∀ i : grid0.Coords, EltTy.bits .f32 = 32 ∨ (Rect.block (s := S4096x1) S512x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S4096x1.size a
  hwx0_4 : ∀ i : grid0.Coords, EltTy.bits .f32 = 32 ∨ (Rect.block (s := S4096x1) S512x1.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S4096x1024.size a
  hwx1_0 : ∀ i : grid1.Coords, EltTy.bits .f32 = 32 ∨ (Rect.block (s := S4096x1024) S512x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1.size a ≤ S4096x1.size a
  hwx1_1 : ∀ i : grid1.Coords, EltTy.bits .i32 = 32 ∨ (Rect.block (s := S4096x1) S512x1.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1.size a ≤ S4096x1.size a
  hwx1_2 : ∀ i : grid1.Coords, EltTy.bits .f32 = 32 ∨ (Rect.block (s := S4096x1) S512x1.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x512.size a ≤ S4096x512.size a
  hwx2_0 : ∀ i : grid2.Coords, EltTy.bits .f32 = 32 ∨ (Rect.block (s := S4096x512) S512x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x512.size a ≤ S4096x512.size a
  hwx2_1 : ∀ i : grid2.Coords, EltTy.bits .f32 = 32 ∨ (Rect.block (s := S4096x512) S512x512.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x512.size a ≤ S4096x512.size a
  hwx2_2 : ∀ i : grid2.Coords, EltTy.bits .f32 = 32 ∨ (Rect.block (s := S4096x512) S512x512.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1.size a ≤ S1x1.size a
  hwx2_3 : ∀ i : grid2.Coords, EltTy.bits .f32 = 32 ∨ (Rect.block (s := S1x1) S1x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_arg4) S4096x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2_0) S512x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_1) S512x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S512x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S512x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg1) S512x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S512x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg3) S512x512.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v4_0) S1x1.size cc2_transform_3 reads2_3 true true 1 stage2_3 sem2_3
    hrank2 hreads2_3 hinb2_3 nbuf2_3 (Memref.isWhole_whole _) hwx2_3 hstage2_3

abbrev win2_4 : Pipeline.Window sig grid2 :=
  Pipeline.Window.ofSpec (Memref.whole main_v4_1) S1x1.size cc2_transform_4 reads2_4 true true 1 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun i => !(k2_cond2 i == 1#1) | 4 => fun i => !(k2_cond2 i == 1#1) | ⟨_ + 5, h⟩ => absurd h (Nat.not_lt.2 (Nat.le_add_left _ _))

class Facts : Prop extends Facts₀ where

variable [Facts]
-- ==== ReferenceIdeal.lean ====
abbrev S4096x1024 : Shape := ⟨2, ![4096, 1024]⟩
abbrev S4096x512 : Shape := ⟨2, ![4096, 512]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S4096x4096 : Shape := ⟨2, ![4096, 4096]⟩
abbrev S512x4096 : Shape := ⟨2, ![512, 4096]⟩
abbrev S4096x1x1 : Shape := ⟨3, ![4096, 1, 1]⟩
abbrev S1 : Shape := ⟨1, ![1]⟩
abbrev S1x1x1 : Shape := ⟨3, ![1, 1, 1]⟩

abbrev nBuf : Space → Nat
  | .hbm => 114
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S4096, .i32⟩
  | .hbm, ⟨6, _⟩ => ⟨S4096x512, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S1x4096, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S512x4096, .f32⟩
  | .hbm, ⟨15, _⟩ => ⟨S4096x4096, .f32⟩
  | .hbm, ⟨16, _⟩ => ⟨S_, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S_, .f32⟩
  | .hbm, ⟨21, _⟩ => ⟨S_, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S4096x1, .i32⟩
  | .hbm, ⟨26, _⟩ => ⟨S1x4096, .i32⟩
  | .hbm, ⟨27, _⟩ => ⟨S4096x4096, .i32⟩
  | .hbm, ⟨28, _⟩ => ⟨S4096x4096, .i32⟩
  | .hbm, ⟨29, _⟩ => ⟨S4096x4096, .i1⟩
  | .hbm, ⟨30, _⟩ => ⟨S_, .f32⟩
  | .hbm, ⟨31, _⟩ => ⟨S_, .f32⟩
  | .hbm, ⟨32, _⟩ => ⟨S4096x4096, .f32⟩
  | .hbm, ⟨33, _⟩ => ⟨S4096x4096, .f32⟩
  | .hbm, ⟨34, _⟩ => ⟨S_, .f32⟩
  | .hbm, ⟨35, _⟩ => ⟨S4096, .f32⟩
  | .hbm, ⟨36, _⟩ => ⟨S_, .f32⟩
  | .hbm, ⟨37, _⟩ => ⟨S4096x4096, .f32⟩
  | .hbm, ⟨38, _⟩ => ⟨S4096x4096, .f32⟩
  | .hbm, ⟨39, _⟩ => ⟨S_, .f32⟩
  | .hbm, ⟨40, _⟩ => ⟨S4096, .f32⟩
  | .hbm, ⟨41, _⟩ => ⟨S4096, .f32⟩
  | .hbm, ⟨42, _⟩ => ⟨S_, .f32⟩
  | .hbm, ⟨43, _⟩ => ⟨S4096, .f32⟩
  | .hbm, ⟨44, _⟩ => ⟨S4096, .f32⟩
  | .hbm, ⟨45, _⟩ => ⟨S_, .f32⟩
  | .hbm, ⟨46, _⟩ => ⟨S4096, .f32⟩
  | .hbm, ⟨47, _⟩ => ⟨S4096, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S4096, .f32⟩
  | .hbm, ⟨54, _⟩ => ⟨S_, .f32⟩
  | .hbm, ⟨55, _⟩ => ⟨S4096, .f32⟩
  | .hbm, ⟨56, _⟩ => ⟨S4096, .f32⟩
  | .hbm, ⟨57, _⟩ => ⟨S4096x1, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S_, .f32⟩
  | .hbm, ⟨62, _⟩ => ⟨S4096, .f32⟩
  | .hbm, ⟨63, _⟩ => ⟨S4096x1, .f32⟩
  | .hbm, ⟨64, _⟩ => ⟨S4096x1, .f32⟩
  | .hbm, ⟨65, _⟩ => ⟨S4096x1024, .f32⟩
  | .hbm, ⟨66, _⟩ => ⟨S4096x1024, .f32⟩
  | .hbm, ⟨67, _⟩ => ⟨S4096x1, .i32⟩
  | .hbm, ⟨68, _⟩ => ⟨S_, .i32⟩
  | .hbm, ⟨69, _⟩ => ⟨S4096x1, .i32⟩
  | .hbm, ⟨70, _⟩ => ⟨S4096x1, .i1⟩
  | .hbm, ⟨71, _⟩ => ⟨S_, .i32⟩
  | .hbm, ⟨72, _⟩ => ⟨S4096x1, .i32⟩
  | .hbm, ⟨73, _⟩ => ⟨S4096x1, .i32⟩
  | .hbm, ⟨74, _⟩ => ⟨S4096x1, .i32⟩
  | .hbm, ⟨75, _⟩ => ⟨S4096x1x1, .i32⟩
  | .hbm, ⟨76, _⟩ => ⟨S1, .i32⟩
  | .hbm, ⟨77, _⟩ => ⟨S_, .i32⟩
  | .hbm, ⟨78, _⟩ => ⟨S4096x1x1, .i32⟩
  | .hbm, ⟨79, _⟩ => ⟨S4096x1x1, .i1⟩
  | .hbm, ⟨80, _⟩ => ⟨S1x1x1, .i32⟩
  | .hbm, ⟨81, _⟩ => ⟨S4096x1x1, .i32⟩
  | .hbm, ⟨82, _⟩ => ⟨S4096x1x1, .i1⟩
  | .hbm, ⟨83, _⟩ => ⟨S4096x1x1, .i1⟩
  | .hbm, ⟨84, _⟩ => ⟨S_, .i1⟩
  | .hbm, ⟨85, _⟩ => ⟨S4096x1, .i1⟩
  | .hbm, ⟨86, _⟩ => ⟨S4096x1, .f32⟩
  | .hbm, ⟨87, _⟩ => ⟨S_, .f32⟩
  | .hbm, ⟨88, _⟩ => ⟨S4096x1, .f32⟩
  | .hbm, ⟨89, _⟩ => ⟨S4096x1, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S4096x512, .f32⟩
  | .hbm, ⟨96, _⟩ => ⟨S4096x512, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S4096x512, .f32⟩
  | .hbm, ⟨101, _⟩ => ⟨S4096x512, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S_, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_call0_v0 : Ref sig .tc := ⟨.hbm, 21, rfl⟩
abbrev main_call0_v1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_call1_v0 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_cst_4 : Ref sig .tc := ⟨.hbm, 36, rfl⟩
abbrev main_call2_v0 : Ref sig .tc := ⟨.hbm, 37, rfl⟩
abbrev main_v22 : Ref sig .tc := ⟨.hbm, 38, rfl⟩
abbrev main_cst_5 : Ref sig .tc := ⟨.hbm, 39, rfl⟩
abbrev main_v23 : Ref sig .tc := ⟨.hbm, 40, rfl⟩
abbrev main_v24 : Ref sig .tc := ⟨.hbm, 41, rfl⟩
abbrev main_cst_6 : Ref sig .tc := ⟨.hbm, 42, rfl⟩
abbrev main_v25 : Ref sig .tc := ⟨.hbm, 43, rfl⟩
abbrev main_v26 : Ref sig .tc := ⟨.hbm, 44, rfl⟩
abbrev main_call3_cst : Ref sig .tc := ⟨.hbm, 45, rfl⟩
abbrev main_call3_v0 : Ref sig .tc := ⟨.hbm, 46, rfl⟩
abbrev main_v27 : Ref sig .tc := ⟨.hbm, 47, rfl⟩
abbrev main_cst_7 : Ref sig .tc := ⟨.hbm, 48, rfl⟩
abbrev main_v28 : Ref sig .tc := ⟨.hbm, 49, rfl⟩
abbrev main_cst_8 : Ref sig .tc := ⟨.hbm, 50, rfl⟩
abbrev main_v29 : Ref sig .tc := ⟨.hbm, 51, rfl⟩
abbrev main_call4_cst : Ref sig .tc := ⟨.hbm, 52, rfl⟩
abbrev main_call4_v0 : Ref sig .tc := ⟨.hbm, 53, rfl⟩
abbrev main_call4_cst_0 : Ref sig .tc := ⟨.hbm, 54, rfl⟩
abbrev main_call4_v1 : Ref sig .tc := ⟨.hbm, 55, rfl⟩
abbrev main_call4_v2 : Ref sig .tc := ⟨.hbm, 56, rfl⟩
abbrev main_call4_v3 : Ref sig .tc := ⟨.hbm, 57, rfl⟩
abbrev main_call4_v4 : Ref sig .tc := ⟨.hbm, 58, rfl⟩
abbrev main_call4_v5 : Ref sig .tc := ⟨.hbm, 59, rfl⟩
abbrev main_call4_v6 : Ref sig .tc := ⟨.hbm, 60, rfl⟩
abbrev main_call4_cst_1 : Ref sig .tc := ⟨.hbm, 61, rfl⟩
abbrev main_call4_v7 : Ref sig .tc := ⟨.hbm, 62, rfl⟩
abbrev main_call4_v8 : Ref sig .tc := ⟨.hbm, 63, rfl⟩
abbrev main_call4_v9 : Ref sig .tc := ⟨.hbm, 64, rfl⟩
abbrev main_call4_v10 : Ref sig .tc := ⟨.hbm, 65, rfl⟩
abbrev main_v30 : Ref sig .tc := ⟨.hbm, 66, rfl⟩
abbrev main_v31 : Ref sig .tc := ⟨.hbm, 67, rfl⟩
abbrev main_call5_c : Ref sig .tc := ⟨.hbm, 68, rfl⟩
abbrev main_call5_v0 : Ref sig .tc := ⟨.hbm, 69, rfl⟩
abbrev main_call5_v1 : Ref sig .tc := ⟨.hbm, 70, rfl⟩
abbrev main_call5_c_0 : Ref sig .tc := ⟨.hbm, 71, rfl⟩
abbrev main_call5_v2 : Ref sig .tc := ⟨.hbm, 72, rfl⟩
abbrev main_call5_v3 : Ref sig .tc := ⟨.hbm, 73, rfl⟩
abbrev main_call5_v4 : Ref sig .tc := ⟨.hbm, 74, rfl⟩
abbrev main_call5_v5 : Ref sig .tc := ⟨.hbm, 75, rfl⟩
abbrev main_call5_c_1 : Ref sig .tc := ⟨.hbm, 76, rfl⟩
abbrev main_call5_c_2 : Ref sig .tc := ⟨.hbm, 77, rfl⟩
abbrev main_call5_v6 : Ref sig .tc := ⟨.hbm, 78, rfl⟩
abbrev main_call5_v7 : Ref sig .tc := ⟨.hbm, 79, rfl⟩
abbrev main_call5_v8 : Ref sig .tc := ⟨.hbm, 80, rfl⟩
abbrev main_call5_v9 : Ref sig .tc := ⟨.hbm, 81, rfl⟩
abbrev main_call5_v10 : Ref sig .tc := ⟨.hbm, 82, rfl⟩
abbrev main_call5_v11 : Ref sig .tc := ⟨.hbm, 83, rfl⟩
abbrev main_call5_c_3 : Ref sig .tc := ⟨.hbm, 84, rfl⟩
abbrev main_call5_v12 : Ref sig .tc := ⟨.hbm, 85, rfl⟩
abbrev main_call5_v13 : Ref sig .tc := ⟨.hbm, 86, rfl⟩
abbrev main_call5_cst : Ref sig .tc := ⟨.hbm, 87, rfl⟩
abbrev main_call5_v14 : Ref sig .tc := ⟨.hbm, 88, rfl⟩
abbrev main_v32 : Ref sig .tc := ⟨.hbm, 89, rfl⟩
abbrev main_cst_9 : Ref sig .tc := ⟨.hbm, 90, rfl⟩
abbrev main_v33 : Ref sig .tc := ⟨.hbm, 91, rfl⟩
abbrev main_cst_10 : Ref sig .tc := ⟨.hbm, 92, rfl⟩
abbrev main_v34 : Ref sig .tc := ⟨.hbm, 93, rfl⟩
abbrev main_v35 : Ref sig .tc := ⟨.hbm, 94, rfl⟩
abbrev main_v36 : Ref sig .tc := ⟨.hbm, 95, rfl⟩
abbrev main_v37 : Ref sig .tc := ⟨.hbm, 96, rfl⟩
abbrev main_cst_11 : Ref sig .tc := ⟨.hbm, 97, rfl⟩
abbrev main_v38 : Ref sig .tc := ⟨.hbm, 98, rfl⟩
abbrev main_v39 : Ref sig .tc := ⟨.hbm, 99, rfl⟩
abbrev main_v40 : Ref sig .tc := ⟨.hbm, 100, rfl⟩
abbrev main_v41 : Ref sig .tc := ⟨.hbm, 101, rfl⟩
abbrev main_cst_12 : Ref sig .tc := ⟨.hbm, 102, rfl⟩
abbrev main_v42 : Ref sig .tc := ⟨.hbm, 103, rfl⟩
abbrev main_v43 : Ref sig .tc := ⟨.hbm, 104, rfl⟩
abbrev main_cst_13 : Ref sig .tc := ⟨.hbm, 105, rfl⟩
abbrev main_v44 : Ref sig .tc := ⟨.hbm, 106, rfl⟩
abbrev main_cst_14 : Ref sig .tc := ⟨.hbm, 107, rfl⟩
abbrev main_v45 : Ref sig .tc := ⟨.hbm, 108, rfl⟩
abbrev main_v46 : Ref sig .tc := ⟨.hbm, 109, rfl⟩
abbrev main_v47 : Ref sig .tc := ⟨.hbm, 110, rfl⟩
abbrev main_cst_15 : Ref sig .tc := ⟨.hbm, 111, rfl⟩
abbrev main_v48 : Ref sig .tc := ⟨.hbm, 112, rfl⟩
abbrev main_v49 : Ref sig .tc := ⟨.hbm, 113, rfl⟩

abbrev nD : Nat := 1
abbrev τ : Topo := Topo.v7x

variable {F : FTy → Type} [FloatOps F]

class Facts₀ : Prop where
  reducesTo_S4096x512_S4096_d1 : S4096x512.ReducesTo [1] S4096
  h_S_ : 0 < S_.numel
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  transposes_S4096x512_S512x4096_1_0 : S4096x512.Transposes [1, 0] S512x4096
  bcast_S_S4096x4096 : S_.BroadcastsInDim S4096x4096 (![] : Fin 0 → Fin S4096x4096.rank)
  reducesTo_S4096x4096_S4096_d1 : S4096x4096.ReducesTo [1] S4096
  bcast_S_S4096 : S_.BroadcastsInDim S4096 (![] : Fin 0 → Fin S4096.rank)
  reducesTo_S4096_S_d0 : S4096.ReducesTo [0] S_
  reducesTo_S4096x1024_S4096_d1 : S4096x1024.ReducesTo [1] S4096
  bcast_S4096x1_S4096x1024_0_1 : S4096x1.BroadcastsInDim S4096x1024 (![0, 1] : Fin 2 → Fin S4096x1024.rank)
  bcast_S_S4096x1 : S_.BroadcastsInDim S4096x1 (![] : Fin 0 → Fin S4096x1.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  reducesTo_S4096x1_S_d0_1 : S4096x1.ReducesTo [0, 1] S_
  reducesTo_S4096x512_S_d0_1 : S4096x512.ReducesTo [0, 1] S_
  dot_S4096x512_S512x4096_S4096x4096_1_0_0_1_n_n_wf : DotDims.WF S4096x512 S512x4096 S4096x4096 [1] [0] [0] [1] [] []
  gather_S4096x1024_S4096x1x1_S4096x1_n_1_0_0_1_2_11_wf : GatherDims.WF S4096x1024 S4096x1x1 S4096x1 [] [1] [0] [1] [0] 2 ![1, 1]

variable [Facts₀]

def dot_S4096x512_S512x4096_S4096x4096_1_0_0_1_n_n : DotDims S4096x512 S512x4096 S4096x4096 where
  lhsContracting := [1]
  rhsContracting := [0]
  lhsNonContracting := [0]
  rhsNonContracting := [1]
  lhsBatch := []
  rhsBatch := []
  wf := dot_S4096x512_S512x4096_S4096x4096_1_0_0_1_n_n_wf
def gather_S4096x1024_S4096x1x1_S4096x1_n_1_0_0_1_2_11 : GatherDims S4096x1024 S4096x1x1 S4096x1 where
  offsetDims := []
  collapsedSliceDims := [1]
  operandBatchingDims := [0]
  startIndicesBatchingDims := [0]
  startIndexMap := [1]
  indexVectorDim := 2
  sliceSizes := ![1, 1]
  wf := gather_S4096x1024_S4096x1x1_S4096x1_n_1_0_0_1_2_11_wf

class Facts : Prop extends Facts₀ where

variable [Facts]
-- ==== Proof.KReg0.lean ====
import proofs.«428835_j7438883356860_1_alg».proof.Proof.Gen.Kernel.Launch
import proofs.«428835_j7438883356860_1_alg».proof.Proof.Gen.Kernel.Skeleton
import proofs.«428835_j7438883356860_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-! Region 0 of the program: the tiled pairwise-distance pass. For each of the eight query tiles it leaves, per query
    row, the largest distance to a key with the same label and the smallest distance to a key with a different label.
    This module gives the two results as functions of the tile's coordinate and of the three input blocks, proves the
    body's triple against them, and discharges the pipeline's body obligation at an arbitrary entry memory `V`. -/

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Region 0: the pairwise-distance kernel with hardest-positive / hardest-negative mining

For the query tile `i` (rows `[512·i, 512·i+512)` of the features and of the labels) the body walks the eight key
tiles `j = 0..7` (rows `[512·j, 512·j+512)` of the features, the same columns of the labels laid out as a row) and
keeps, per query row, the running maximum of the distances to equally labelled keys and the running minimum of the
distances to differently labelled keys. Both are functions of `i` and of the three whole input blocks. -/

section Chain

variable (i : grid0.Coords) (x0 : Vec F S4096x512 .f32) (x1 : Vec F S4096x1 .i32) (x2 : Vec F S1x4096 .i32)

/-- The query tile: rows `[512·i, 512·i+512)` of the features. -/
def qTile : Vec F S512x512 .f32 :=
  View.ld x0 (Rect.unit (s := S4096x512) (k0_off1 i) S512x512.size (k0_off1_inb i))
/-- The query rows' labels, as a column. -/
def qLab : Vec F S512x1 .i32 :=
  View.ld x1 (Rect.unit (s := S4096x1) (k0_off2 i) S512x1.size (k0_off2_inb i))
/-- Key tile `j`: rows `[512·j, 512·j+512)` of the features. -/
def kTile (j : Fin 8) : Vec F S512x512 .f32 :=
  View.ld x0 (Rect.unit (s := S4096x512) (k0_off3 (BitVec.ofNat 32 j.val)) S512x512.size (k0_off3_inb j))
/-- Key tile `j`'s labels, as a row. -/
def kLab (j : Fin 8) : Vec F S1x512 .i32 :=
  View.ld x2 (Rect.unit (s := S1x4096) (k0_off4 (BitVec.ofNat 32 j.val)) S1x512.size (k0_off4_inb j))

/-- The query labels as integers, the query rows' squared norms, and the query tile rounded to bf16. -/
def qLabI : IVec S512x1 32 := k0_pay5 (qLab i x1)
def qSq : FVec F S512x1 .f32 := k0_pay6 (qTile i x0)
def qB : FVec F S512x512 .bf16 := k0_pay7 (qTile i x0)

/-- The running maximum over equally labelled keys after key tiles 0 and 1, -/
def mx1 : FVec F S512x1 .f32 :=
  k0_pay16 (qLabI i x1) (qSq i x0) (qB i x0) (k0_pay8 (F := F))
    (k0_pay12 (qTile i x0) (qLab i x1) (kTile x0 0) (kLab x2 0)) (kTile x0 1) (kLab x2 1)
/-- and the running minimum over differently labelled keys. -/
def mn1 : FVec F S512x1 .f32 :=
  k0_pay17 (qLabI i x1) (qSq i x0) (qB i x0) (k0_pay9 (F := F))
    (k0_pay13 (qTile i x0) (qLab i x1) (kTile x0 0) (kLab x2 0)) (kTile x0 1) (kLab x2 1)
/-- After key tile 2. -/
def mx2 : FVec F S512x1 .f32 := k0_pay20 (qLabI i x1) (qSq i x0) (qB i x0) (mx1 i x0 x1 x2) (kTile x0 2) (kLab x2 2)
def mn2 : FVec F S512x1 .f32 := k0_pay21 (qLabI i x1) (qSq i x0) (qB i x0) (mn1 i x0 x1 x2) (kTile x0 2) (kLab x2 2)
/-- After key tile 3. -/
def mx3 : FVec F S512x1 .f32 :=
  k0_pay26 (qLabI i x1) (qSq i x0) (qB i x0) (mx2 i x0 x1 x2) (kTile x0 3) (k0_pay22 (kLab x2 3)) (k0_pay23 (kTile x0 3))
def mn3 : FVec F S512x1 .f32 :=
  k0_pay27 (qLabI i x1) (qSq i x0) (qB i x0) (mn2 i x0 x1 x2) (kTile x0 3) (k0_pay22 (kLab x2 3)) (k0_pay23 (kTile x0 3))
/-- After key tile 4 (the clamp's lower bound `1e-12` is passed to the payload as a scalar). -/
def mx4 : FVec F S512x1 .f32 :=
  k0_pay32 (qLabI i x1) (mx3 i x0 x1 x2) (k0_pay28 (kLab x2 4)) (k0_pay29 (qSq i x0) (qB i x0) (kTile x0 4))
    (Scalar.ofBits .f32 0x2B8CBCCC#32)
def mn4 : FVec F S512x1 .f32 :=
  k0_pay33 (qLabI i x1) (mn3 i x0 x1 x2) (k0_pay28 (kLab x2 4)) (k0_pay29 (qSq i x0) (qB i x0) (kTile x0 4))
    (Scalar.ofBits .f32 0x2B8CBCCC#32)
/-- After key tiles 5 and 6. -/
def mx6 : FVec F S512x1 .f32 :=
  k0_pay40 (qLabI i x1) (qSq i x0) (qB i x0) (mx4 i x0 x1 x2)
    (k0_pay36 (qLabI i x1) (qSq i x0) (qB i x0) (kTile x0 5) (kLab x2 5)) (kTile x0 6) (kLab x2 6)
def mn6 : FVec F S512x1 .f32 :=
  k0_pay41 (qLabI i x1) (qSq i x0) (qB i x0) (mn4 i x0 x1 x2)
    (k0_pay37 (qLabI i x1) (qSq i x0) (qB i x0) (kTile x0 5) (kLab x2 5)) (kTile x0 6) (kLab x2 6)
/-- After the last key tile: the hardest positive distance per query row, -/
def mx7 : FVec F S512x1 .f32 := k0_pay3 (qLabI i x1) (qSq i x0) (qB i x0) (mx6 i x0 x1 x2) (kTile x0 7) (kLab x2 7)
/-- and the hardest negative distance. -/
def mn7 : FVec F S512x1 .f32 := k0_pay4 (qLabI i x1) (qSq i x0) (qB i x0) (mn6 i x0 x1 x2) (kTile x0 7) (kLab x2 7)

/-- The whole-buffer rectangle the two results are stored through. -/
abbrev rOut : Rect S512x1 := Rect.unit (s := S512x1) ![0, 0] S512x1.size inb_S512x1_S512x1_0_0

/-- What the body leaves in window 3's staging buffer: its one store, a whole-buffer piece. -/
def out0_3 : Vec F S512x1 .f32 := View.canon [⟨rOut, mx7 i x0 x1 x2⟩]
/-- What the body leaves in window 4's staging buffer. -/
def out0_4 : Vec F S512x1 .f32 := View.canon [⟨rOut, mn7 i x0 x1 x2⟩]

/-- The store's rectangle is the whole buffer, so it covers it. -/
theorem coverOut (p0 : Vec F S512x1 .f32) (y : S512x1.Idx) :
    ∃ pc ∈ ([⟨rOut, p0⟩] : List (View.Piece (Elt F) S512x1 .f32)), y ∈ pc.1.set :=
  View.cover_of_tiled [⟨rOut, p0⟩] S512x1.size (by rfl) y

/-- The two results as payload terms: one whole-buffer store leaves its payload. -/
theorem out0_3_eq : out0_3 i x0 x1 x2 = mx7 i x0 x1 x2 := by
  unfold out0_3; exact View.canon_unit_zero (S := S512x1) (by funext a; fin_cases a <;> rfl) _ _
theorem out0_4_eq : out0_4 i x0 x1 x2 = mn7 i x0 x1 x2 := by
  unfold out0_4; exact View.canon_unit_zero (S := S512x1) (by funext a; fin_cases a <;> rfl) _ _

end Chain

/-! ## The body's triple -/

set_option maxHeartbeats 4000000 in
/-- The kernel body at grid coordinate `i` on whole staging memrefs, the three inputs' at read contents `x0 x1 x2` and
    the two outputs' at anything, runs to the continuation holding the inputs' as they were and the outputs' at
    `out0_3` / `out0_4` of the coordinate and the inputs. -/
theorem sound_kernel0 (c : Dev nD) (E : Set ℕ) (i : grid0.Coords)
    (arg1 : Memref sig .tc .vmem S4096x512 .f32) (harg1 : arg1.IsWhole)
    (arg2 : Memref sig .tc .vmem S4096x1 .i32) (harg2 : arg2.IsWhole)
    (arg3 : Memref sig .tc .vmem S1x4096 .i32) (harg3 : arg3.IsWhole)
    (arg4 : Memref sig .tc .vmem S512x1 .f32) (harg4 : arg4.IsWhole)
    (arg5 : Memref sig .tc .vmem S512x1 .f32) (harg5 : arg5.IsWhole)
    (x0 : Vec F S4096x512 .f32) (x1 : Vec F S4096x1 .i32) (x2 : Vec F S1x4096 .i32) (K : PUnit → sProp 𝕄) :
    iprop(owns (c : Thread nD τ) arg1 fullShare x0 ∗ owns (c : Thread nD τ) arg2 fullShare x1
        ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1
            ∗ owns (c : Thread nD τ) arg3 fullShare x2
            ∗ owns (c : Thread nD τ) arg4 fullShare (out0_3 i x0 x1 x2)
            ∗ owns (c : Thread nD τ) arg5 fullShare (out0_4 i x0 x1 x2)) -∗ K ⟨⟩))
      ⊢ wp frame (wpE (defs₀ (F := F)) Variants.none c none) E
          (cc0__dist_kernel i arg1 harg1 arg2 harg2 arg3 harg3 arg4 harg4 arg5 harg5) K := by
  simp only [cc0__dist_kernel_eq_skeleton]; unfold cc0__dist_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (coverOut _)
  iexists _; isplitr
  swap; · iexact H4
  ipureintro
  exact View.read_writes_eq_canon _ _ _ (coverOut _)

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point although it is fetched at the first
    point only: its block index never moves (the index map is constant), so what the first fetch put there is every
    later point's block, for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The pipeline's proof data -/

/-- The proof data of pipeline 0 on core `c`: the arrays as the region finds them (`V`); after the body at point `t`
    each input's buffer at its block, and the two outputs' at the hardest positive / hardest negative distances of the
    point's query tile against all keys; the invariant is the scoped buffers the region does not stage through and the random-number register, untouched;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (grid0.coords t) (iblk0 V c 0 t) (iblk0 V c 1 t) (iblk0 V c 2 t)
    | ⟨4, _⟩ => out0_4 (grid0.coords t) (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (grid0.coords t) (iblk0 V c 0 t) (iblk0 V c 1 t) (iblk0 V c 2 t) := by dsimp only [dat0]
theorem after0_4 (c : Dev nD) (t : Fin cfg0.N) :
    (dat0 V c).after 4 t = out0_4 (grid0.coords t) (iblk0 V c 0 t) (iblk0 V c 1 t) (iblk0 V c 2 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so the triple applies at the point's coordinate;
    the invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation at every point: the windows' conjunction opened, then the body at that point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.KReg1.lean ====
/-
  The second kernel region: cross-entropy rows. At grid point t the pipeline hands the body the logits block
  (rows 512·t … 512·t+511, all 1024 classes) and the label block of the same rows, and the body stores one (512, 1)
  block: for each row the logarithm of the sum of exp(logit − row maximum), plus the row maximum, minus the sum over
  the classes of (logit where the class index equals the row's label, else zero). Both inputs are fetched at every
  point and left in place; the output block is stored whole, so what the region leaves is one function of the two
  input blocks, the same at every point. Stated at the contents V the region is entered from.
-/
import proofs.«428835_j7438883356860_1_alg».proof.Proof.Gen.Kernel.Launch
import proofs.«428835_j7438883356860_1_alg».proof.Proof.Gen.Kernel.Skeleton
import proofs.«428835_j7438883356860_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The logits window's staging buffer holds its block at every point, for any proof data over V's arrays whose body
    leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Likewise the label window's. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole (512, 1024) block, the whole (512, 1) block. -/
abbrev r1_x : Rect S512x1024 := Rect.unit (s := S512x1024) ![0, 0] S512x1024.size inb_S512x1024_S512x1024_0_0
abbrev r1_c : Rect S512x1 := Rect.unit (s := S512x1) ![0, 0] S512x1.size inb_S512x1_S512x1_0_0

/-- What the body leaves in the output's staging buffer: one whole-block store of the row losses of the two input blocks. -/
def out1_2 (x0 : Vec F S512x1024 .f32) (x1 : Vec F S512x1 .i32) : Vec F S512x1 .f32 :=
  View.canon [⟨r1_c, k1_pay1 (View.ld x0 r1_x) (View.ld x1 r1_c)⟩]

/-- The one store covers the block. -/
theorem cover1_2 (p0 : Vec F S512x1 .f32) (y : S512x1.Idx) :
    ∃ pc ∈ ([⟨r1_c, p0⟩] : List (View.Piece (Elt F) S512x1 .f32)), y ∈ pc.1.set :=
  View.cover_of_tiled [⟨r1_c, p0⟩] S512x1.size (by rfl) y

set_option maxHeartbeats 1000000 in
/-- The body on whole staging memrefs — the inputs' at contents x0, x1, the output's at anything — runs to the
    continuation holding the inputs' as they were and the output's at out1_2 of them. -/
theorem sound_kernel1 (c : Dev nD) (E : Set ℕ) (i : grid1.Coords) (arg1 : Memref sig .tc .vmem S512x1024 .f32) (harg1 : arg1.IsWhole)
    (arg2 : Memref sig .tc .vmem S512x1 .i32) (harg2 : arg2.IsWhole) (arg3 : Memref sig .tc .vmem S512x1 .f32) (harg3 : arg3.IsWhole)
    (x0 : Vec F S512x1024 .f32) (x1 : Vec F S512x1 .i32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__ce_kernel i arg1 harg1 arg2 harg2 arg3 harg3) K := by
  simp only [cc1__ce_kernel_eq_skeleton]; unfold cc1__ce_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The region's proof data on core c: the arrays as the region finds them; after the body at point t each input's
    buffer at its block and the output's at out1_2 of the two blocks; the invariant the scoped rest and the generator
    register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.KReg2.lean ====
/-
  The third kernel region: two sums of squared differences, accumulated over the grid. At grid point t the region
  hands the body rows 512·t … 512·t+511 (all 512 columns) of three arrays a, b, d. Two one-element cells, private
  to the kernel, carry the running totals from point to point: the first point sets both to zero, every point adds
  the sum over its block of (d − a)² to the first cell and of (d − b)² to the second, and the last point copies
  the two cells into the two one-element output blocks, which are written back once, after that point. So the
  cells after point n are a recursion over n — the point's block sums added onto what point n − 1 left, onto zero
  at n = 0 — and each output array ends at its cell's contents after the last point. Stated at the contents V the
  region is entered from, for any float type.
-/
import proofs.«428835_j7438883356860_1_alg».proof.Proof.Gen.Kernel.Launch
import proofs.«428835_j7438883356860_1_alg».proof.Proof.Gen.Kernel.Skeleton
import proofs.«428835_j7438883356860_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 2: the two squared-distance accumulators

At grid point t the pipeline hands the body three (512, 512) blocks, rows 512·t … 512·t+511 of the three side
feature arrays. Two (1, 1) scratch cells accumulate, over the eight points, the sum of squares of (third − first)
and of (third − second): the first point zeroes both cells, every point adds its block's sum of squares onto what
the cell held, and the last point copies the two cells into the two (1, 1) output blocks, which are written back
once, after that point. Stated at the contents V the region is entered from. -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, for any proof data over V's arrays whose body
    leaves the block in place: the window is fetched at every point, uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's two conditions, in closed form over the grid -/

/-- "This is the first point": the condition under which the body zeroes the two cells. -/
abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val = 0 :=
  (by decide +kernel : ∀ t : Fin grid2.N, cond2_0 (grid2.coords t) ↔ t.val = 0)

/-- "This is the last point": the condition under which the body copies the cells into the outputs. -/
abbrev cond2_1 (i : grid2.Coords) : Prop := k2_cond2 i = 1#1
theorem hcond2_1 : ∀ t : Fin cfg2.N, cond2_1 (grid2.coords t) ↔ t.val = 7 :=
  (by decide +kernel : ∀ t : Fin grid2.N, cond2_1 (grid2.coords t) ↔ t.val = 7)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- Off the last point the outputs are idle and not written back; at it they are live. -/
theorem idleAt2_3 : ∀ t : Fin cfg2.N, ¬cond2_1 (grid2.coords t) → cfg2.idle 3 (grid2.coords t) = true := by decide +kernel
theorem noFlush2_3 : ∀ t : Fin cfg2.N, ¬cond2_1 (grid2.coords t) → (cfg2.win 3).flush t = false := by decide +kernel
theorem liveAt2_3 : ∀ t : Fin cfg2.N, cond2_1 (grid2.coords t) → cfg2.idle 3 (grid2.coords t) = false := by decide +kernel
theorem idleAt2_4 : ∀ t : Fin cfg2.N, ¬cond2_1 (grid2.coords t) → cfg2.idle 4 (grid2.coords t) = true := by decide +kernel
theorem noFlush2_4 : ∀ t : Fin cfg2.N, ¬cond2_1 (grid2.coords t) → (cfg2.win 4).flush t = false := by decide +kernel
theorem liveAt2_4 : ∀ t : Fin cfg2.N, cond2_1 (grid2.coords t) → cfg2.idle 4 (grid2.coords t) = false := by decide +kernel

/-! ## The memrefs the body is called with -/

abbrev ms2_0 (t : Fin cfg2.N) : Memref sig .tc .vmem S512x512 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x512 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S512x512 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x1 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x1 .f32 := win2_4.stage (cfg2.slots t 4)
abbrev hs2_4 (t : Fin cfg2.N) : (ms2_4 t).IsWhole := hstage2_4 ((cfg2.slots t 4).cast nbuf2_4)
/-- The two accumulator cells: whole scoped buffers of the kernel's own. -/
abbrev scM2_0 : Memref sig .tc .vmem S1x1 .f32 := Memref.whole cc2_scratch0
abbrev scM2_1 : Memref sig .tc .vmem S1x1 .f32 := Memref.whole cc2_scratch1

/-! ## The class invariant, with the two cells set apart -/

/-- What the invariant holds besides the two cells: the other two regions' staging buffers at some contents each, and
    the generator register at some state. -/
def rest2 (c : Dev nD) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg3_1), ((c : Thread nD τ).loc cc0_stg3_1) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg4_1), ((c : Thread nD τ).loc cc0_stg4_1) ↦{fullShare} f)
      ∗ (∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg1_1), ((c : Thread nD τ).loc cc1_stg1_1) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg2_1), ((c : Thread nD τ).loc cc1_stg2_1) ↦{fullShare} f)
      ∗ (∃ r, prngReg c r))

/-- The class invariant is the rest with each cell at some contents, -/
theorem PhiA2_open (c : Dev nD) :
    (Pipeline.ΦA spec2 c : sProp 𝕄) ⊢ iprop(rest2 (F := F) c ∗ (∃ d, owns (c : Thread nD τ) scM2_0 fullShare d) ∗ (∃ d, owns (c : Thread nD τ) scM2_1 fullShare d)) := by
  unfold Pipeline.ΦA rest2; rw [scopedRest2_eq]; simp only [scM2_0, scM2_1, owns_whole]
  iintro ⟨⟨H0, H1, H2, H3, H4, H5, H6, H7, H8, H9, H10, H11, H12, HS0, HS1⟩, Hg⟩
  isplitr [HS0 HS1]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact Hg
  isplitl [HS0]; · iexact HS0
  iexact HS1

/-- and back. -/
theorem PhiA2_close (c : Dev nD) :
    iprop(rest2 (F := F) c ∗ (∃ d, owns (c : Thread nD τ) scM2_0 fullShare d) ∗ (∃ d, owns (c : Thread nD τ) scM2_1 fullShare d)) ⊢ (Pipeline.ΦA spec2 c : sProp 𝕄) := by
  unfold Pipeline.ΦA rest2; rw [scopedRest2_eq]; simp only [scM2_0, scM2_1, owns_whole]
  iintro ⟨⟨H0, H1, H2, H3, H4, H5, H6, H7, H8, H9, H10, H11, H12, Hg⟩, HS0, HS1⟩
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [HS0]; · iexact HS0
    iexact HS1
  iexact Hg

/-! ## The body's triple, case by case -/

theorem hz2 : (![0, 0] : Fin 2 → Nat) = fun _ => 0 := funext fun a => by fin_cases a <;> rfl

set_option maxHeartbeats 1000000 in
/-- AT THE FIRST POINT (zeroing taken, copy-out not taken). On whole memrefs — the three input blocks at x0, x1, x2,
    the two idle outputs at whatever they hold, the two cells at anything — the body runs to the continuation with
    the inputs and outputs as they were and each cell at its block's sum of squares added onto the zero it was just
    set to. -/
theorem kernelRun2_A (c : Dev nD) (i : grid2.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : cond2_0 i) (hc1 : ¬cond2_1 i)
    (x0 x1 x2 : Vec F S512x512 .f32) (xi3 xi4 : Vec F S1x1 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4
            ∗ owns (c : Thread nD τ) arg6 fullShare (k2_pay3 x2 x0 (k2_pay1 (F := F))) ∗ owns (c : Thread nD τ) arg7 fullShare (k2_pay4 x2 x1 (k2_pay2 (F := F)))) -∗ K ⟨⟩))
      ⊢ wp frame (wpE (defs₀ (F := F)) Variants.none c none) E (cc2__frob_kernel i arg1 harg1 arg2 harg2 arg3 harg3 arg4 harg4 arg5 harg5 arg6 harg6 arg7 harg7) K := by
  simp only [cc2__frob_kernel_eq_skeleton]; unfold cc2__frob_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
  obtain rfl := harg1.eq_unread hf0; obtain rfl := harg2.eq_unread hf1; obtain rfl := harg3.eq_unread hf2
  obtain rfl := harg4.eq_unread hf3; obtain rfl := harg5.eq_unread hf4
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [HS0]
  · iexists _; isplitr
    swap; · iexact HS0
    ipureintro
    try sl_unfold_words
    rw [View.read_writes_eq_canon _ _ _ (fun y => ⟨_, List.mem_cons_self, View.mem_set_unit_zero (S := S1x1) hz2 inb_S1x1_S1x1_0_0 y⟩),
      View.canon_cons_unit_zero hz2]
    simp only [View.readAt_eq_ld, Memref.IsWhole.read_unread, View.ld_unit_zero (S := S512x512) hz2,
      View.ld_unit_zero (S := S1x1) hz2, View.readCov_unit_zero (S := S1x1) _ hz2]
  iexists _; isplitr
  swap; · iexact HS1
  ipureintro
  try sl_unfold_words
  rw [View.read_writes_eq_canon _ _ _ (fun y => ⟨_, List.mem_cons_self, View.mem_set_unit_zero (S := S1x1) hz2 inb_S1x1_S1x1_0_0 y⟩),
    View.canon_cons_unit_zero hz2]
  simp only [View.readAt_eq_ld, Memref.IsWhole.read_unread, View.ld_unit_zero (S := S512x512) hz2,
    View.ld_unit_zero (S := S1x1) hz2, View.readCov_unit_zero (S := S1x1) _ hz2]

set_option maxHeartbeats 1000000 in
/-- AT A MIDDLE POINT (neither taken). The cells at xs0, xs1, what the point before left: each ends at its block's
    sum of squares added onto that. -/
theorem kernelRun2_B (c : Dev nD) (i : grid2.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬cond2_0 i) (hc1 : ¬cond2_1 i)
    (x0 x1 x2 : Vec F S512x512 .f32) (xi3 xi4 xs0 xs1 : Vec F S1x1 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4
        ∗ owns (c : Thread nD τ) arg6 fullShare xs0 ∗ owns (c : Thread nD τ) arg7 fullShare xs1
        ∗ (iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4
            ∗ owns (c : Thread nD τ) arg6 fullShare (k2_pay3 x2 x0 xs0) ∗ owns (c : Thread nD τ) arg7 fullShare (k2_pay4 x2 x1 xs1)) -∗ K ⟨⟩))
      ⊢ wp frame (wpE (defs₀ (F := F)) Variants.none c none) E (cc2__frob_kernel i arg1 harg1 arg2 harg2 arg3 harg3 arg4 harg4 arg5 harg5 arg6 harg6 arg7 harg7) K := by
  simp only [cc2__frob_kernel_eq_skeleton]; unfold cc2__frob_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
  obtain rfl := harg1.eq_unread hf0; obtain rfl := harg2.eq_unread hf1; obtain rfl := harg3.eq_unread hf2
  obtain rfl := harg4.eq_unread hf3; obtain rfl := harg5.eq_unread hf4
  obtain rfl := harg6.eq_unread hfs0; obtain rfl := harg7.eq_unread hfs1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [HS0]
  · iexists _; isplitr
    swap; · iexact HS0
    ipureintro
    try sl_unfold_words
    rw [View.read_writes_eq_canon _ _ _ (fun y => ⟨_, List.mem_cons_self, View.mem_set_unit_zero (S := S1x1) hz2 inb_S1x1_S1x1_0_0 y⟩),
      View.canon_cons_unit_zero hz2]
    simp only [View.readAt_eq_ld, Memref.IsWhole.read_unread, View.ld_unit_zero (S := S512x512) hz2,
      View.ld_unit_zero (S := S1x1) hz2, View.readCov_unit_zero (S := S1x1) _ hz2]
  iexists _; isplitr
  swap; · iexact HS1
  ipureintro
  try sl_unfold_words
  rw [View.read_writes_eq_canon _ _ _ (fun y => ⟨_, List.mem_cons_self, View.mem_set_unit_zero (S := S1x1) hz2 inb_S1x1_S1x1_0_0 y⟩),
    View.canon_cons_unit_zero hz2]
  simp only [View.readAt_eq_ld, Memref.IsWhole.read_unread, View.ld_unit_zero (S := S512x512) hz2,
    View.ld_unit_zero (S := S1x1) hz2, View.readCov_unit_zero (S := S1x1) _ hz2]

set_option maxHeartbeats 4000000 in
/-- AT THE LAST POINT (zeroing not taken, copy-out taken). The cells at xs0, xs1, the outputs at anything: each cell
    ends at its block's sum of squares added onto what it held, and each output at its cell's contents. -/
theorem kernelRun2_C (c : Dev nD) (i : grid2.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬cond2_0 i) (hc1 : cond2_1 i)
    (x0 x1 x2 : Vec F S512x512 .f32) (xs0 xs1 : Vec F S1x1 .f32) (E : Set ℕ) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
        ∗ owns (c : Thread nD τ) arg6 fullShare xs0 ∗ owns (c : Thread nD τ) arg7 fullShare xs1
        ∗ (iprop(owns (c : Thread nD τ) arg1 fullShare x0 ∗ owns (c : Thread nD τ) arg2 fullShare x1 ∗ owns (c : Thread nD τ) arg3 fullShare x2 ∗ owns (c : Thread nD τ) arg4 fullShare (k2_pay3 x2 x0 xs0) ∗ owns (c : Thread nD τ) arg5 fullShare (k2_pay4 x2 x1 xs1)
            ∗ owns (c : Thread nD τ) arg6 fullShare (k2_pay3 x2 x0 xs0) ∗ owns (c : Thread nD τ) arg7 fullShare (k2_pay4 x2 x1 xs1)) -∗ K ⟨⟩))
      ⊢ wp frame (wpE (defs₀ (F := F)) Variants.none c none) E (cc2__frob_kernel i arg1 harg1 arg2 harg2 arg3 harg3 arg4 harg4 arg5 harg5 arg6 harg6 arg7 harg7) K := by
  simp only [cc2__frob_kernel_eq_skeleton]; unfold cc2__frob_kernel_skel
  simp only [k2_part1_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hk⟩
  obtain rfl := harg1.eq_unread hf0; obtain rfl := harg2.eq_unread hf1; obtain rfl := harg3.eq_unread hf2
  obtain rfl := harg6.eq_unread hfs0; obtain rfl := harg7.eq_unread hfs1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    try sl_unfold_words
    rw [View.read_writes_eq_canon _ _ _ (fun y => ⟨_, List.mem_cons_self, View.mem_set_unit_zero (S := S1x1) hz2 inb_S1x1_S1x1_0_0 y⟩),
      View.canon_cons_unit_zero hz2]
    simp only [View.readAt_eq_ld, Memref.IsWhole.read_unread, View.ld_unit_zero (S := S512x512) hz2,
      View.ld_unit_zero (S := S1x1) hz2, View.readCov_unit_zero (S := S1x1) _ hz2]
  isplitl [H4]
  · iexists _; isplitr
    swap; · iexact H4
    ipureintro
    try sl_unfold_words
    rw [View.read_writes_eq_canon _ _ _ (fun y => ⟨_, List.mem_cons_self, View.mem_set_unit_zero (S := S1x1) hz2 inb_S1x1_S1x1_0_0 y⟩),
      View.canon_cons_unit_zero hz2]
    simp only [View.readAt_eq_ld, Memref.IsWhole.read_unread, View.ld_unit_zero (S := S512x512) hz2,
      View.ld_unit_zero (S := S1x1) hz2, View.readCov_unit_zero (S := S1x1) _ hz2]
  isplitl [HS0]
  · iexists _; isplitr
    swap; · iexact HS0
    ipureintro
    try sl_unfold_words
    rw [View.read_writes_eq_canon _ _ _ (fun y => ⟨_, List.mem_cons_self, View.mem_set_unit_zero (S := S1x1) hz2 inb_S1x1_S1x1_0_0 y⟩),
      View.canon_cons_unit_zero hz2]
    simp only [View.readAt_eq_ld, Memref.IsWhole.read_unread, View.ld_unit_zero (S := S512x512) hz2,
      View.ld_unit_zero (S := S1x1) hz2, View.readCov_unit_zero (S := S1x1) _ hz2]
  iexists _; isplitr
  swap; · iexact HS1
  ipureintro
  try sl_unfold_words
  rw [View.read_writes_eq_canon _ _ _ (fun y => ⟨_, List.mem_cons_self, View.mem_set_unit_zero (S := S1x1) hz2 inb_S1x1_S1x1_0_0 y⟩),
    View.canon_cons_unit_zero hz2]
  simp only [View.readAt_eq_ld, Memref.IsWhole.read_unread, View.ld_unit_zero (S := S512x512) hz2,
    View.ld_unit_zero (S := S1x1) hz2, View.readCov_unit_zero (S := S1x1) _ hz2]

/-! ## What the two cells hold after each point -/

/-- THE ACCUMULATION. After point 0 each cell holds its block's sum of squares added onto the zero the point set it
    to; after point n + 1, added onto what point n left. First component: the cell fed by (third − first); second:
    the cell fed by (third − second). -/
def scrAt2 (c : Dev nD) : (n : ℕ) → n < cfg2.N → Vec F S1x1 .f32 × Vec F S1x1 .f32
  | 0, hn => (k2_pay3 (iblk2 V c 2 ⟨0, hn⟩) (iblk2 V c 0 ⟨0, hn⟩) (k2_pay1 (F := F)),
      k2_pay4 (iblk2 V c 2 ⟨0, hn⟩) (iblk2 V c 1 ⟨0, hn⟩) (k2_pay2 (F := F)))
  | n + 1, hn => (k2_pay3 (iblk2 V c 2 ⟨n + 1, hn⟩) (iblk2 V c 0 ⟨n + 1, hn⟩) (scrAt2 c n (Nat.lt_of_succ_lt hn)).1,
      k2_pay4 (iblk2 V c 2 ⟨n + 1, hn⟩) (iblk2 V c 1 ⟨n + 1, hn⟩) (scrAt2 c n (Nat.lt_of_succ_lt hn)).2)

theorem scrAt2_zero (c : Dev nD) (hn : 0 < cfg2.N) :
    scrAt2 V c 0 hn = (k2_pay3 (iblk2 V c 2 ⟨0, hn⟩) (iblk2 V c 0 ⟨0, hn⟩) (k2_pay1 (F := F)),
      k2_pay4 (iblk2 V c 2 ⟨0, hn⟩) (iblk2 V c 1 ⟨0, hn⟩) (k2_pay2 (F := F))) := rfl

theorem scrAt2_succ (c : Dev nD) (n : ℕ) (hn : n + 1 < cfg2.N) :
    scrAt2 V c (n + 1) hn = (k2_pay3 (iblk2 V c 2 ⟨n + 1, hn⟩) (iblk2 V c 0 ⟨n + 1, hn⟩) (scrAt2 V c n (Nat.lt_of_succ_lt hn)).1,
      k2_pay4 (iblk2 V c 2 ⟨n + 1, hn⟩) (iblk2 V c 1 ⟨n + 1, hn⟩) (scrAt2 V c n (Nat.lt_of_succ_lt hn)).2) := rfl

/-- At the first point: over the zeros. -/
theorem scrAt2_first (c : Dev nD) (t : Fin cfg2.N) (h0 : t.val = 0) :
    scrAt2 V c t.val t.isLt = (k2_pay3 (iblk2 V c 2 t) (iblk2 V c 0 t) (k2_pay1 (F := F)),
      k2_pay4 (iblk2 V c 2 t) (iblk2 V c 1 t) (k2_pay2 (F := F))) := by
  obtain ⟨n, hn⟩ := t
  cases n with
  | zero => rfl
  | succ n => exact absurd h0 (Nat.succ_ne_zero n)

/-- At any later point: over what the point before left. -/
theorem scrAt2_later (c : Dev nD) (t : Fin cfg2.N) (h0 : t.val ≠ 0) :
    scrAt2 V c t.val t.isLt
      = (k2_pay3 (iblk2 V c 2 t) (iblk2 V c 0 t) (scrAt2 V c (t.val - 1) (Nat.lt_of_le_of_lt (Nat.sub_le _ _) t.isLt)).1,
        k2_pay4 (iblk2 V c 2 t) (iblk2 V c 1 t) (scrAt2 V c (t.val - 1) (Nat.lt_of_le_of_lt (Nat.sub_le _ _) t.isLt)).2) := by
  obtain ⟨n, hn⟩ := t
  cases n with
  | zero => exact absurd rfl h0
  | succ n => rfl

/-! ## The region's invariant -/

/-- Before the first point the class's invariant (each cell at anything); before point n + 1 the rest with each cell
    at what point n left in it. -/
def PhiS2 (c : Dev nD) : (n : ℕ) → n ≤ cfg2.N → sProp 𝕄
  | 0, _ => Pipeline.ΦA spec2 c
  | n + 1, hn => iprop(rest2 (F := F) c ∗ owns (c : Thread nD τ) scM2_0 fullShare (scrAt2 V c n hn).1
      ∗ owns (c : Thread nD τ) scM2_1 fullShare (scrAt2 V c n hn).2)

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(rest2 (F := F) c ∗ owns (c : Thread nD τ) scM2_0 fullShare (scrAt2 V c n hn).1
      ∗ owns (c : Thread nD τ) scM2_1 fullShare (scrAt2 V c n hn).2) := rfl

theorem PhiS2_pos (c : Dev nD) (n : ℕ) (h : n ≤ cfg2.N) (hz : n ≠ 0) :
    PhiS2 V c n h = iprop(rest2 (F := F) c ∗ owns (c : Thread nD τ) scM2_0 fullShare (scrAt2 V c (n - 1) (by omega)).1
      ∗ owns (c : Thread nD τ) scM2_1 fullShare (scrAt2 V c (n - 1) (by omega)).2) := by
  cases n with
  | zero => exact absurd rfl hz
  | succ n => rfl

/-! ## The pipeline's proof data -/

/-- The proof data of pipeline 2 on core c: the arrays as the region finds them; after the body at point t each
    input's buffer at its block and each output's at its cell's contents after that point (consulted at the last
    point only: elsewhere the outputs are idle and not written back); the invariant above; nothing owed; full
    shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (scrAt2 V c t.val t.isLt).1
    | ⟨4, _⟩ => (scrAt2 V c t.val t.isLt).2
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
/-- Each output's staging buffer after point t holds its cell's contents after that point (what the pipeline writes
    back after the last point). -/
theorem after2_3 (c : Dev nD) (t : Fin cfg2.N) : (dat2 V c).after 3 t = (scrAt2 V c t.val t.isLt).1 := by dsimp only [dat2]
theorem after2_4 (c : Dev nD) (t : Fin cfg2.N) : (dat2 V c).after 4 t = (scrAt2 V c t.val t.isLt).2 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4800000 in
/-- The body at any point. The inputs' memrefs hold their blocks; the point is the first, a middle one or the last,
    and the matching triple applies; the invariant hands the body the two cells (at anything at the first point, else
    at what the point before left) and takes them back at this point's contents; off the last point the outputs go
    back as they came. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
      unfold Dat.leavesExact; rw [liveAt2_0 t], after2_0]
  rw [show (dat2 V c).leavesExact 1 t = owns (c : Thread nD τ) (ms2_1 t) fullShare ((dat2 V c).after 1 t) from by
      unfold Dat.leavesExact; rw [liveAt2_1 t], after2_1]
  rw [show (dat2 V c).leavesExact 2 t = owns (c : Thread nD τ) (ms2_2 t) fullShare ((dat2 V c).after 2 t) from by
      unfold Dat.leavesExact; rw [liveAt2_2 t], after2_2]
  have hN : t.val < 8 := lt_of_lt_of_eq t.isLt (show cfg2.N = 8 from N_2)
  by_cases h0 : t.val = 0
  · have hc0 : cond2_0 (grid2.coords t) := (hcond2_0 t).mpr h0
    have hc1 : ¬cond2_1 (grid2.coords t) := fun h => by have := (hcond2_1 t).mp h; omega
    rw [Dat.leavesExact_idle (dat2 V c) 3 t (idleAt2_3 t hc1) (noFlush2_3 t hc1),
      Dat.leavesExact_idle (dat2 V c) 4 t (idleAt2_4 t hc1) (noFlush2_4 t hc1)]
    rw [scrAt2_first V c t h0]; dsimp only
    rw [PhiS2_castSucc V c t, PhiS2_zero V c _ _ h0]
    iintro ⟨HΦ, Ho, ⟨%d0, H0⟩, ⟨%d1, H1⟩, ⟨%d2, H2⟩, ⟨%d3, H3⟩, ⟨%d4, H4⟩⟩
    ihave HΦ' := (PhiA2_open (F := F) c) $$ HΦ
    icases HΦ' with ⟨Hr, HS0, HS1⟩
    iapply (kernelRun2_A c (grid2.coords t) _ _ _ _ _ _ _ _ _ _ _ _ _ _ hc0 hc1 (iblk2 V c 0 t) (iblk2 V c 1 t) (iblk2 V c 2 t) _ _ Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iintro ⟨H0, H1, H2, H3, H4, HS0, HS1⟩
    isplitl [Hr HS0 HS1]
    · isplitl [Hr]; · iexact Hr
      isplitl [HS0]; · iexact HS0
      iexact HS1
    isplitl [Ho]; · iexact Ho
    isplitl [H0]; · iexact H0
    isplitl [H1]; · iexact H1
    isplitl [H2]; · iexact H2
    isplitl [H3]; · iexists _; iexact H3
    iexists _; iexact H4
  · by_cases h7 : t.val = 7
    · have hc0 : ¬cond2_0 (grid2.coords t) := fun h => h0 ((hcond2_0 t).mp h)
      have hc1 : cond2_1 (grid2.coords t) := (hcond2_1 t).mpr h7
      rw [show (dat2 V c).leavesExact 3 t = owns (c : Thread nD τ) (ms2_3 t) fullShare ((dat2 V c).after 3 t) from by
          unfold Dat.leavesExact; rw [liveAt2_3 t hc1], after2_3]
      rw [show (dat2 V c).leavesExact 4 t = owns (c : Thread nD τ) (ms2_4 t) fullShare ((dat2 V c).after 4 t) from by
          unfold Dat.leavesExact; rw [liveAt2_4 t hc1], after2_4]
      rw [scrAt2_later V c t h0]; dsimp only
      rw [PhiS2_castSucc V c t, PhiS2_pos V c _ _ h0]
      iintro ⟨⟨Hr, HS0, HS1⟩, Ho, ⟨%d0, H0⟩, ⟨%d1, H1⟩, ⟨%d2, H2⟩, ⟨%d3, H3⟩, ⟨%d4, H4⟩⟩
      iapply (kernelRun2_C c (grid2.coords t) _ _ _ _ _ _ _ _ _ _ _ _ _ _ hc0 hc1 (iblk2 V c 0 t) (iblk2 V c 1 t) (iblk2 V c 2 t) _ _ Set.univ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, H3, H4, HS0, HS1⟩
      isplitl [Hr HS0 HS1]
      · isplitl [Hr]; · iexact Hr
        isplitl [HS0]; · iexact HS0
        iexact HS1
      isplitl [Ho]; · iexact Ho
      isplitl [H0]; · iexact H0
      isplitl [H1]; · iexact H1
      isplitl [H2]; · iexact H2
      isplitl [H3]; · iexact H3
      iexact H4
    · have hc0 : ¬cond2_0 (grid2.coords t) := fun h => h0 ((hcond2_0 t).mp h)
      have hc1 : ¬cond2_1 (grid2.coords t) := fun h => h7 ((hcond2_1 t).mp h)
      rw [Dat.leavesExact_idle (dat2 V c) 3 t (idleAt2_3 t hc1) (noFlush2_3 t hc1),
        Dat.leavesExact_idle (dat2 V c) 4 t (idleAt2_4 t hc1) (noFlush2_4 t hc1)]
      rw [scrAt2_later V c t h0]; dsimp only
      rw [PhiS2_castSucc V c t, PhiS2_pos V c _ _ h0]
      iintro ⟨⟨Hr, HS0, HS1⟩, Ho, ⟨%d0, H0⟩, ⟨%d1, H1⟩, ⟨%d2, H2⟩, ⟨%d3, H3⟩, ⟨%d4, H4⟩⟩
      iapply (kernelRun2_B c (grid2.coords t) _ _ _ _ _ _ _ _ _ _ _ _ _ _ hc0 hc1 (iblk2 V c 0 t) (iblk2 V c 1 t) (iblk2 V c 2 t) _ _ _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [Hr HS0 HS1]
      · isplitl [Hr]; · iexact Hr
        isplitl [HS0]; · iexact HS0
        iexact HS1
      isplitl [Ho]; · iexact Ho
      isplitl [H0]; · iexact H0
      isplitl [H1]; · iexact H1
      isplitl [H2]; · iexact H2
      isplitl [H3]; · iexists _; iexact H3
      iexists _; iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]

/-- After the last point the invariant gives the class's back: the cells' named contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 8 := N_2; omega)]
  iintro ⟨Hr, HS0, HS1⟩
  iapply (PhiA2_close (F := F) c)
  isplitl [Hr]; · iexact Hr
  isplitl [HS0]; · iexists _; iexact HS0
  iexists _; iexact HS1

end Cert.Kernel.Fr

end
-- ==== Proof.KRun.lean ====
/-
  The whole run of the kernel's program: two host reshapes of the labels, the three kernel regions (distances and hard
  mining; cross-entropy rows; the two sums of squared differences), then the host arithmetic that forms the loss.
  Between two items every unscoped buffer of the core is held whole at known contents: the launch memory, then each
  host stretch applied to it, then, after a region, that region's arrays at what its pipeline leaves (the inputs as
  entered, each output's write-backs folded) and every other buffer as before. The run ends with every unscoped buffer
  at the last of these contents, from which both the frame (the arguments end as launched) and the value of the
  result are read.
-/
import proofs.«428835_j7438883356860_1_alg».proof.Proof.KReg0
import proofs.«428835_j7438883356860_1_alg».proof.Proof.KReg1
import proofs.«428835_j7438883356860_1_alg».proof.Proof.KReg2
import Idealize.ShloMosaic.Lib.Pipeline.Regions

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core c's buffers at launch. -/
abbrev W0 : Dev nD → Valuation τ sig (Elt F) := fun c b => m (c, b)
/-- After the two reshapes of the labels (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b

/-- At region 0's exit: its arrays at what the pipeline leaves (the inputs as entered, each output's write-backs
    folded), every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At region 1's exit: its arrays at what the pipeline leaves (the inputs as entered, each output's write-backs
    folded), every other buffer as entered. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
/-- The same read at the TensorCore's references. -/
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- At region 2's exit: its arrays at what the pipeline leaves (the inputs as entered, each output's write-backs
    folded), every other buffer as entered. -/
def W4 (c : Dev nD) : Valuation τ sig (Elt F) :=
  Pipeline.withArrays spec2 c (W3 m c) fun w => (dat2 (V3 m) c).arrAt w cfg2.N
theorem W4_arr (c : Dev nD) (w : Fin cfg2.W) :
    W4 m c (Proc.devRef .tc (Pipeline.arrRef spec2 w)) = (dat2 (V3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
/-- The same read at the TensorCore's references. -/
abbrev V4 : (c : Dev nD) → (b : Ref sig .tc) → Buf (Elt F) ((c : Thread nD τ).loc b) := fun c b => W4 m c b
theorem hF2 (c : Dev nD) (w : Fin cfg2.W) : (dat2 (V3 m) c).arrAt w cfg2.N = V4 m c (Pipeline.arrRef spec2 w) :=
  (W4_arr m c w).symm
theorem hrest2 (c : Dev nD) : ∀ b, b ∉ Finset.univ.image (Pipeline.arrRef spec2) → V4 m c b = V3 m c b :=
  fun b hb => W4_of_ne m c b fun w e => hb (Finset.mem_image.mpr ⟨w, Finset.mem_univ _, e⟩)

/-- After the three host stretches that form the loss. -/
abbrev W5 : Dev nD → Valuation τ sig (Elt F) := fun c => StableHlo.after hostOps3 (W4 m c)
abbrev W6 : Dev nD → Valuation τ sig (Elt F) := fun c => StableHlo.after hostOps3_1 (W5 m c)
abbrev W7 : Dev nD → Valuation τ sig (Elt F) := fun c => StableHlo.after hostOps3_2 (W6 m c)

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
  | ⟨2, _⟩ => fun c => dat2 (V3 m) c
abbrev 𝒱₀ : Variants := Variants.none
abbrev L : GSem nD τ sig → Finset Unit := fun _ => ∅
abbrev lv : GSem nD τ sig → Unit → ℕ := fun _ _ => 0
/-- What rides beside the buffers through every item: the generator register at some state and the core's dues, at nothing. -/
abbrev R (c : Dev nD) : sProp 𝕄 := iprop((∃ r, prngReg c r) ∗ ∃ W, owes (c : Thread nD τ) (0 : CellTallies nD τ sig Unit) W)
/-- A host stretch as a segment over the unscoped references from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
theorem hostOps3_1_fresh : (hostOps3_1 : List (HloOp τ sig (Elt F))).Forall fun op => op.fresh = ∅ := by
  simp only [List.Forall]; repeat' constructor
theorem hostOps3_2_fresh : (hostOps3_2 : List (HloOp τ sig (Elt F))).Forall fun op => op.fresh = ∅ := by
  simp only [List.Forall]; repeat' constructor
/-- The last thread state without the dues: every unscoped buffer at the last contents, the generator register at some state. -/
abbrev Tₙ (c : Dev nD) : sProp 𝕄 := iprop(StableHlo.held (c : Thread nD τ) (Pipeline.ucRefs τ sig) (W7 m c) ∗ ∃ r, prngReg c r)

/-! ## The regions as segments -/

set_option backward.isDefEq.respectTransparency.types false in
/-- Region 0 over the thread state: entered from every unscoped buffer at `W1`, left at `W2`. Its arrays are
    split out of the unscoped buffers and put back at their exit contents; the generator register goes into the
    region's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`. Its arrays are
    split out of the unscoped buffers and put back at their exit contents; the generator register goes into the
    region's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W3`, left at `W4`. Its arrays are
    split out of the unscoped buffers and put back at their exit contents; the generator register goes into the
    region's invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec2 c (V3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 := hin2 (V3 m) c
    unfold Pipeline.ΦA at h1
    rw [show (pdats m 2 c).Φ 0 = (dat2 (V3 m) c).Φ 0 from rfl]
    iintro ⟨Hp, -, Hr⟩
    iapply h1
    isplitl [Hr]; · iexact Hr
    iexact Hp
  hout c := by
    have h1 := hout2 (V3 m) c
    unfold Pipeline.ΦA at h1
    rw [Pipeline.ownSems0_none, show (pdats m 2 c).Φ (Fin.last _) = (dat2 (V3 m) c).Φ (Fin.last cfg2.N) from rfl]
    refine h1.trans ?_
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V3 m c) (V4 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .region (reg1 m),
    .region (reg2 m),
    .host (hseg hostOps3 hostOps3_sub hostOps3_fresh (W4 m)),
    .host (hseg hostOps3_1 hostOps3_1_sub hostOps3_1_fresh (W5 m)),
    .host (hseg hostOps3_2 hostOps3_2_sub hostOps3_2_fresh (W6 m)) ]

set_option backward.isDefEq.respectTransparency.types false in
/-- Every weakly fair execution of @main from memory m with zero counters terminates, nothing faulting, with every
    unscoped buffer of every core at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          Prog.lift (.customCall (Pipeline.entry 0) ()),
          Prog.lift (.customCall (Pipeline.entry 1) ()),
          Prog.lift (.customCall (Pipeline.entry 2) ()),
          StableHlo.seq hostOps3,
          StableHlo.seq hostOps3_1,
          StableHlo.seq hostOps3_2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun c => (show iprop(StableHlo.held (c : Thread nD τ) (Pipeline.ucRefs τ sig) (W7 m c) ∗ R c)
          ⊢ iprop(Tₙ m c ∗ ∃ W, owes (c : Thread nD τ) (0 : CellTallies nD τ sig Unit) W) from by
      iintro ⟨Hh, Hp, HO⟩
      isplitl [Hh Hp]
      · isplitl [Hh]; · iexact Hh
        iexact Hp
      iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Kernel.Fr

end
-- ==== Proof.KWalk.lean ====
/-
  Reading the contents at the boundaries: an argument array is written by no host operation and by no region (a region
  reads it through an input window, whose array the pipeline never changes, or does not touch it), so at every boundary
  it holds its launch contents; the label column and row are the host's two reshapes of the labels; and what a region
  leaves in an output array is carried unchanged to the end, no later item writing it. Hence the frame.
-/
import proofs.«428835_j7438883356860_1_alg».proof.Proof.KRun
import proofs.«428835_j7438883356860_1_alg».proof.Proof.Gen.Kernel.Regions

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The arguments end as launched -/

/-- `main_arg0` is written by no host operation and by no region: it ends as launched. -/
theorem W7_main_arg0 (c : Dev nD) : W7 m c (Proc.devRef .tc main_arg0) = m ((c : Thread nD τ).loc main_arg0) :=
  (StableHlo.after_of_writes_sub hostOps3_2 _ hostOps3_2_writes (by decide)).trans <|
  (StableHlo.after_of_writes_sub hostOps3_1 _ hostOps3_1_writes (by decide)).trans <|
  (StableHlo.after_of_writes_sub hostOps3 _ hostOps3_writes (by decide)).trans <|
  (W4_of_ne m c main_arg0 (by decide)).trans <| ((W3_arr m c 0).trans (((dat1 (V2 m) c).arrAt_in 0 rfl _).trans (A_eq1 (V2 m) c 0))).trans <| (W2_of_ne m c main_arg0 (by decide)).trans <|
  (StableHlo.after_of_writes_sub hostOps0 _ hostOps0_writes (by decide)).trans rfl

/-- `main_arg1` is written by no host operation and by no region: it ends as launched. -/
theorem W7_main_arg1 (c : Dev nD) : W7 m c (Proc.devRef .tc main_arg1) = m ((c : Thread nD τ).loc main_arg1) :=
  (StableHlo.after_of_writes_sub hostOps3_2 _ hostOps3_2_writes (by decide)).trans <|
  (StableHlo.after_of_writes_sub hostOps3_1 _ hostOps3_1_writes (by decide)).trans <|
  (StableHlo.after_of_writes_sub hostOps3 _ hostOps3_writes (by decide)).trans <|
  ((W4_arr m c 0).trans (((dat2 (V3 m) c).arrAt_in 0 rfl _).trans (A_eq2 (V3 m) c 0))).trans <| (W3_of_ne m c main_arg1 (by decide)).trans <| (W2_of_ne m c main_arg1 (by decide)).trans <|
  (StableHlo.after_of_writes_sub hostOps0 _ hostOps0_writes (by decide)).trans rfl

/-- `main_arg2` is written by no host operation and by no region: it ends as launched. -/
theorem W7_main_arg2 (c : Dev nD) : W7 m c (Proc.devRef .tc main_arg2) = m ((c : Thread nD τ).loc main_arg2) :=
  (StableHlo.after_of_writes_sub hostOps3_2 _ hostOps3_2_writes (by decide)).trans <|
  (StableHlo.after_of_writes_sub hostOps3_1 _ hostOps3_1_writes (by decide)).trans <|
  (StableHlo.after_of_writes_sub hostOps3 _ hostOps3_writes (by decide)).trans <|
  ((W4_arr m c 1).trans (((dat2 (V3 m) c).arrAt_in 1 rfl _).trans (A_eq2 (V3 m) c 1))).trans <| (W3_of_ne m c main_arg2 (by decide)).trans <| (W2_of_ne m c main_arg2 (by decide)).trans <|
  (StableHlo.after_of_writes_sub hostOps0 _ hostOps0_writes (by decide)).trans rfl

/-- `main_arg3` is written by no host operation and by no region: it ends as launched. -/
theorem W7_main_arg3 (c : Dev nD) : W7 m c (Proc.devRef .tc main_arg3) = m ((c : Thread nD τ).loc main_arg3) :=
  (StableHlo.after_of_writes_sub hostOps3_2 _ hostOps3_2_writes (by decide)).trans <|
  (StableHlo.after_of_writes_sub hostOps3_1 _ hostOps3_1_writes (by decide)).trans <|
  (StableHlo.after_of_writes_sub hostOps3 _ hostOps3_writes (by decide)).trans <|
  ((W4_arr m c 2).trans (((dat2 (V3 m) c).arrAt_in 2 rfl _).trans (A_eq2 (V3 m) c 2))).trans <| (W3_of_ne m c main_arg3 (by decide)).trans <| (W2_of_ne m c main_arg3 (by decide)).trans <|
  (StableHlo.after_of_writes_sub hostOps0 _ hostOps0_writes (by decide)).trans rfl

/-- `main_arg4` is written by no host operation and by no region: it ends as launched. -/
theorem W7_main_arg4 (c : Dev nD) : W7 m c (Proc.devRef .tc main_arg4) = m ((c : Thread nD τ).loc main_arg4) :=
  (StableHlo.after_of_writes_sub hostOps3_2 _ hostOps3_2_writes (by decide)).trans <|
  (StableHlo.after_of_writes_sub hostOps3_1 _ hostOps3_1_writes (by decide)).trans <|
  (StableHlo.after_of_writes_sub hostOps3 _ hostOps3_writes (by decide)).trans <|
  (W4_of_ne m c main_arg4 (by decide)).trans <| (W3_of_ne m c main_arg4 (by decide)).trans <| ((W2_arr m c 0).trans (((dat0 (V1 m) c).arrAt_in 0 rfl _).trans (A_eq0 (V1 m) c 0))).trans <|
  (StableHlo.after_of_writes_sub hostOps0 _ hostOps0_writes (by decide)).trans rfl

/-- `main_arg5` is written by no host operation and by no region: it ends as launched. -/
theorem W7_main_arg5 (c : Dev nD) : W7 m c (Proc.devRef .tc main_arg5) = m ((c : Thread nD τ).loc main_arg5) :=
  (StableHlo.after_of_writes_sub hostOps3_2 _ hostOps3_2_writes (by decide)).trans <|
  (StableHlo.after_of_writes_sub hostOps3_1 _ hostOps3_1_writes (by decide)).trans <|
  (StableHlo.after_of_writes_sub hostOps3 _ hostOps3_writes (by decide)).trans <|
  (W4_of_ne m c main_arg5 (by decide)).trans <| (W3_of_ne m c main_arg5 (by decide)).trans <| (W2_of_ne m c main_arg5 (by decide)).trans <|
  (StableHlo.after_of_writes_sub hostOps0 _ hostOps0_writes (by decide)).trans rfl

/-- The frame: every weakly fair execution terminates, nothing faulting, with every argument array as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W7_main_arg0 m c),
     (h c _ (mem_uc main_arg1 (by decide))).trans (W7_main_arg1 m c),
     (h c _ (mem_uc main_arg2 (by decide))).trans (W7_main_arg2 m c),
     (h c _ (mem_uc main_arg3 (by decide))).trans (W7_main_arg3 m c),
     (h c _ (mem_uc main_arg4 (by decide))).trans (W7_main_arg4 m c),
     (h c _ (mem_uc main_arg5 (by decide))).trans (W7_main_arg5 m c)⟩) (run_all m ρ)

/-! ## What each region is entered with -/

theorem V1_main_arg4 (c : Dev nD) : V1 m c main_arg4 = m ((c : Thread nD τ).loc main_arg4) :=
   (StableHlo.after_of_writes_sub hostOps0 _ hostOps0_writes (by decide)).trans rfl
theorem V2_main_arg0 (c : Dev nD) : V2 m c main_arg0 = m ((c : Thread nD τ).loc main_arg0) :=
  (W2_of_ne m c main_arg0 (by decide)).trans <| (StableHlo.after_of_writes_sub hostOps0 _ hostOps0_writes (by decide)).trans rfl
theorem V3_main_arg1 (c : Dev nD) : V3 m c main_arg1 = m ((c : Thread nD τ).loc main_arg1) :=
  (W3_of_ne m c main_arg1 (by decide)).trans <| (W2_of_ne m c main_arg1 (by decide)).trans <| (StableHlo.after_of_writes_sub hostOps0 _ hostOps0_writes (by decide)).trans rfl
theorem V3_main_arg2 (c : Dev nD) : V3 m c main_arg2 = m ((c : Thread nD τ).loc main_arg2) :=
  (W3_of_ne m c main_arg2 (by decide)).trans <| (W2_of_ne m c main_arg2 (by decide)).trans <| (StableHlo.after_of_writes_sub hostOps0 _ hostOps0_writes (by decide)).trans rfl
theorem V3_main_arg3 (c : Dev nD) : V3 m c main_arg3 = m ((c : Thread nD τ).loc main_arg3) :=
  (W3_of_ne m c main_arg3 (by decide)).trans <| (W2_of_ne m c main_arg3 (by decide)).trans <| (StableHlo.after_of_writes_sub hostOps0 _ hostOps0_writes (by decide)).trans rfl
/-- The label column as the cross-entropy region finds it is the one the first region was entered with. -/
theorem V2_main_v0 (c : Dev nD) : V2 m c main_v0 = V1 m c main_v0 :=
  (W2_arr m c 1).trans (((dat0 (V1 m) c).arrAt_in 1 rfl _).trans (A_eq0 (V1 m) c 1))

/-! ## What each region leaves reaches the end of the regions -/

theorem W4_main_v2_0 (c : Dev nD) : W4 m c (Proc.devRef .tc main_v2_0) = (dat0 (V1 m) c).arrAt 3 cfg0.N :=
  (W4_of_ne m c main_v2_0 (by decide)).trans <| (W3_of_ne m c main_v2_0 (by decide)).trans (W2_arr m c 3)
theorem W4_main_v2_1 (c : Dev nD) : W4 m c (Proc.devRef .tc main_v2_1) = (dat0 (V1 m) c).arrAt 4 cfg0.N :=
  (W4_of_ne m c main_v2_1 (by decide)).trans <| (W3_of_ne m c main_v2_1 (by decide)).trans (W2_arr m c 4)
theorem W4_main_v3 (c : Dev nD) : W4 m c (Proc.devRef .tc main_v3) = (dat1 (V2 m) c).arrAt 2 cfg1.N :=
  (W4_of_ne m c main_v3 (by decide)).trans (W3_arr m c 2)
theorem W4_main_v4_0 (c : Dev nD) : W4 m c (Proc.devRef .tc main_v4_0) = (dat2 (V3 m) c).arrAt 3 cfg2.N := W4_arr m c 3
theorem W4_main_v4_1 (c : Dev nD) : W4 m c (Proc.devRef .tc main_v4_1) = (dat2 (V3 m) c).arrAt 4 cfg2.N := W4_arr m c 4

end Cert.Kernel.Fr

end
-- ==== Proof.Reg0.lean ====
import proofs.«428835_j7438883356860_1_alg».proof.Proof.Gen.KernelIdeal.Launch
import proofs.«428835_j7438883356860_1_alg».proof.Proof.Gen.KernelIdeal.Skeleton
import proofs.«428835_j7438883356860_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-! Region 0 of the program: the tiled pairwise-distance pass. For each of the eight query tiles it leaves, per query
    row, the largest distance to a key with the same label and the smallest distance to a key with a different label.
    This module gives the two results as functions of the tile's coordinate and of the three input blocks, proves the
    body's triple against them, and discharges the pipeline's body obligation at an arbitrary entry memory `V`. -/

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 0: the pairwise-distance kernel with hardest-positive / hardest-negative mining

For the query tile `i` (rows `[512·i, 512·i+512)` of the features and of the labels) the body walks the eight key
tiles `j = 0..7` (rows `[512·j, 512·j+512)` of the features, the same columns of the labels laid out as a row) and
keeps, per query row, the running maximum of the distances to equally labelled keys and the running minimum of the
distances to differently labelled keys. Both are functions of `i` and of the three whole input blocks. -/

section Chain

variable (i : grid0.Coords) (x0 : Vec F S4096x512 .f32) (x1 : Vec F S4096x1 .i32) (x2 : Vec F S1x4096 .i32)

/-- The query tile: rows `[512·i, 512·i+512)` of the features. -/
def qTile : Vec F S512x512 .f32 :=
  View.ld x0 (Rect.unit (s := S4096x512) (k0_off1 i) S512x512.size (k0_off1_inb i))
/-- The query rows' labels, as a column. -/
def qLab : Vec F S512x1 .i32 :=
  View.ld x1 (Rect.unit (s := S4096x1) (k0_off2 i) S512x1.size (k0_off2_inb i))
/-- Key tile `j`: rows `[512·j, 512·j+512)` of the features. -/
def kTile (j : Fin 8) : Vec F S512x512 .f32 :=
  View.ld x0 (Rect.unit (s := S4096x512) (k0_off3 (BitVec.ofNat 32 j.val)) S512x512.size (k0_off3_inb j))
/-- Key tile `j`'s labels, as a row. -/
def kLab (j : Fin 8) : Vec F S1x512 .i32 :=
  View.ld x2 (Rect.unit (s := S1x4096) (k0_off4 (BitVec.ofNat 32 j.val)) S1x512.size (k0_off4_inb j))

/-- The query labels as integers, the query rows' squared norms, and the query tile rounded to bf16. -/
def qLabI : IVec S512x1 32 := k0_pay5 (qLab i x1)
def qSq : FVec F S512x1 .f32 := k0_pay6 (qTile i x0)
def qB : FVec F S512x512 .bf16 := k0_pay7 (qTile i x0)

/-- The running maximum over equally labelled keys after key tiles 0 and 1, -/
def mx1 : FVec F S512x1 .f32 :=
  k0_pay16 (qLabI i x1) (qSq i x0) (qB i x0) (k0_pay8 (F := F))
    (k0_pay12 (qTile i x0) (qLab i x1) (kTile x0 0) (kLab x2 0)) (kTile x0 1) (kLab x2 1)
/-- and the running minimum over differently labelled keys. -/
def mn1 : FVec F S512x1 .f32 :=
  k0_pay17 (qLabI i x1) (qSq i x0) (qB i x0) (k0_pay9 (F := F))
    (k0_pay13 (qTile i x0) (qLab i x1) (kTile x0 0) (kLab x2 0)) (kTile x0 1) (kLab x2 1)
/-- After key tile 2. -/
def mx2 : FVec F S512x1 .f32 := k0_pay20 (qLabI i x1) (qSq i x0) (qB i x0) (mx1 i x0 x1 x2) (kTile x0 2) (kLab x2 2)
def mn2 : FVec F S512x1 .f32 := k0_pay21 (qLabI i x1) (qSq i x0) (qB i x0) (mn1 i x0 x1 x2) (kTile x0 2) (kLab x2 2)
/-- After key tile 3. -/
def mx3 : FVec F S512x1 .f32 :=
  k0_pay26 (qLabI i x1) (qSq i x0) (qB i x0) (mx2 i x0 x1 x2) (kTile x0 3) (k0_pay22 (kLab x2 3)) (k0_pay23 (kTile x0 3))
def mn3 : FVec F S512x1 .f32 :=
  k0_pay27 (qLabI i x1) (qSq i x0) (qB i x0) (mn2 i x0 x1 x2) (kTile x0 3) (k0_pay22 (kLab x2 3)) (k0_pay23 (kTile x0 3))
/-- After key tile 4 (the clamp's lower bound `1e-12` is passed to the payload as a scalar). -/
def mx4 : FVec F S512x1 .f32 :=
  k0_pay32 (qLabI i x1) (mx3 i x0 x1 x2) (k0_pay28 (kLab x2 4)) (k0_pay29 (qSq i x0) (qB i x0) (kTile x0 4))
    (Scalar.ofBits .f32 0x2B8CBCCC#32)
def mn4 : FVec F S512x1 .f32 :=
  k0_pay33 (qLabI i x1) (mn3 i x0 x1 x2) (k0_pay28 (kLab x2 4)) (k0_pay29 (qSq i x0) (qB i x0) (kTile x0 4))
    (Scalar.ofBits .f32 0x2B8CBCCC#32)
/-- After key tiles 5 and 6. -/
def mx6 : FVec F S512x1 .f32 :=
  k0_pay40 (qLabI i x1) (qSq i x0) (qB i x0) (mx4 i x0 x1 x2)
    (k0_pay36 (qLabI i x1) (qSq i x0) (qB i x0) (kTile x0 5) (kLab x2 5)) (kTile x0 6) (kLab x2 6)
def mn6 : FVec F S512x1 .f32 :=
  k0_pay41 (qLabI i x1) (qSq i x0) (qB i x0) (mn4 i x0 x1 x2)
    (k0_pay37 (qLabI i x1) (qSq i x0) (qB i x0) (kTile x0 5) (kLab x2 5)) (kTile x0 6) (kLab x2 6)
/-- After the last key tile: the hardest positive distance per query row, -/
def mx7 : FVec F S512x1 .f32 := k0_pay3 (qLabI i x1) (qSq i x0) (qB i x0) (mx6 i x0 x1 x2) (kTile x0 7) (kLab x2 7)
/-- and the hardest negative distance. -/
def mn7 : FVec F S512x1 .f32 := k0_pay4 (qLabI i x1) (qSq i x0) (qB i x0) (mn6 i x0 x1 x2) (kTile x0 7) (kLab x2 7)

/-- The whole-buffer rectangle the two results are stored through. -/
abbrev rOut : Rect S512x1 := Rect.unit (s := S512x1) ![0, 0] S512x1.size inb_S512x1_S512x1_0_0

/-- What the body leaves in window 3's staging buffer: its one store, a whole-buffer piece. -/
def out0_3 : Vec F S512x1 .f32 := View.canon [⟨rOut, mx7 i x0 x1 x2⟩]
/-- What the body leaves in window 4's staging buffer. -/
def out0_4 : Vec F S512x1 .f32 := View.canon [⟨rOut, mn7 i x0 x1 x2⟩]

/-- The store's rectangle is the whole buffer, so it covers it. -/
theorem coverOut (p0 : Vec F S512x1 .f32) (y : S512x1.Idx) :
    ∃ pc ∈ ([⟨rOut, p0⟩] : List (View.Piece (Elt F) S512x1 .f32)), y ∈ pc.1.set :=
  View.cover_of_tiled [⟨rOut, p0⟩] S512x1.size (by rfl) y

/-- The two results as payload terms: one whole-buffer store leaves its payload. -/
theorem out0_3_eq : out0_3 i x0 x1 x2 = mx7 i x0 x1 x2 := by
  unfold out0_3; exact View.canon_unit_zero (S := S512x1) (by funext a; fin_cases a <;> rfl) _ _
theorem out0_4_eq : out0_4 i x0 x1 x2 = mn7 i x0 x1 x2 := by
  unfold out0_4; exact View.canon_unit_zero (S := S512x1) (by funext a; fin_cases a <;> rfl) _ _

end Chain

/-! ## The body's triple -/

set_option maxHeartbeats 4000000 in
/-- The kernel body at grid coordinate `i` on whole staging memrefs, the three inputs' at read contents `x0 x1 x2` and
    the two outputs' at anything, runs to the continuation holding the inputs' as they were and the outputs' at
    `out0_3` / `out0_4` of the coordinate and the inputs. -/
theorem sound_kernel0 (c : Dev nD) (E : Set ℕ) (i : grid0.Coords)
    (arg1 : Memref sig .tc .vmem S4096x512 .f32) (harg1 : arg1.IsWhole)
    (arg2 : Memref sig .tc .vmem S4096x1 .i32) (harg2 : arg2.IsWhole)
    (arg3 : Memref sig .tc .vmem S1x4096 .i32) (harg3 : arg3.IsWhole)
    (arg4 : Memref sig .tc .vmem S512x1 .f32) (harg4 : arg4.IsWhole)
    (arg5 : Memref sig .tc .vmem S512x1 .f32) (harg5 : arg5.IsWhole)
    (x0 : Vec F S4096x512 .f32) (x1 : Vec F S4096x1 .i32) (x2 : Vec F S1x4096 .i32) (K : PUnit → sProp 𝕄) :
    iprop(owns (c : Thread nD τ) arg1 fullShare x0 ∗ owns (c : Thread nD τ) arg2 fullShare x1
        ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1
            ∗ owns (c : Thread nD τ) arg3 fullShare x2
            ∗ owns (c : Thread nD τ) arg4 fullShare (out0_3 i x0 x1 x2)
            ∗ owns (c : Thread nD τ) arg5 fullShare (out0_4 i x0 x1 x2)) -∗ K ⟨⟩))
      ⊢ wp frame (wpE (defs₀ (F := F)) Variants.none c none) E
          (cc0__dist_kernel i arg1 harg1 arg2 harg2 arg3 harg3 arg4 harg4 arg5 harg5) K := by
  simp only [cc0__dist_kernel_eq_skeleton]; unfold cc0__dist_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (coverOut _)
  iexists _; isplitr
  swap; · iexact H4
  ipureintro
  exact View.read_writes_eq_canon _ _ _ (coverOut _)

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point although it is fetched at the first
    point only: its block index never moves (the index map is constant), so what the first fetch put there is every
    later point's block, for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The pipeline's proof data -/

/-- The proof data of pipeline 0 on core `c`: the arrays as the region finds them (`V`); after the body at point `t`
    each input's buffer at its block, and the two outputs' at the hardest positive / hardest negative distances of the
    point's query tile against all keys; the invariant is the scoped buffers the region does not stage through and the random-number register, untouched;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (grid0.coords t) (iblk0 V c 0 t) (iblk0 V c 1 t) (iblk0 V c 2 t)
    | ⟨4, _⟩ => out0_4 (grid0.coords t) (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (grid0.coords t) (iblk0 V c 0 t) (iblk0 V c 1 t) (iblk0 V c 2 t) := by dsimp only [dat0]
theorem after0_4 (c : Dev nD) (t : Fin cfg0.N) :
    (dat0 V c).after 4 t = out0_4 (grid0.coords t) (iblk0 V c 0 t) (iblk0 V c 1 t) (iblk0 V c 2 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so the triple applies at the point's coordinate;
    the invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation at every point: the windows' conjunction opened, then the body at that point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.Reg1.lean ====
/-
  The second kernel region: cross-entropy rows. At grid point t the pipeline hands the body the logits block
  (rows 512·t … 512·t+511, all 1024 classes) and the label block of the same rows, and the body stores one (512, 1)
  block: for each row the logarithm of the sum of exp(logit − row maximum), plus the row maximum, minus the sum over
  the classes of (logit where the class index equals the row's label, else zero). Both inputs are fetched at every
  point and left in place; the output block is stored whole, so what the region leaves is one function of the two
  input blocks, the same at every point. Stated at the contents V the region is entered from.
-/
import proofs.«428835_j7438883356860_1_alg».proof.Proof.Gen.KernelIdeal.Launch
import proofs.«428835_j7438883356860_1_alg».proof.Proof.Gen.KernelIdeal.Skeleton
import proofs.«428835_j7438883356860_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The logits window's staging buffer holds its block at every point, for any proof data over V's arrays whose body
    leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Likewise the label window's. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole (512, 1024) block, the whole (512, 1) block. -/
abbrev r1_x : Rect S512x1024 := Rect.unit (s := S512x1024) ![0, 0] S512x1024.size inb_S512x1024_S512x1024_0_0
abbrev r1_c : Rect S512x1 := Rect.unit (s := S512x1) ![0, 0] S512x1.size inb_S512x1_S512x1_0_0

/-- What the body leaves in the output's staging buffer: one whole-block store of the row losses of the two input blocks. -/
def out1_2 (x0 : Vec F S512x1024 .f32) (x1 : Vec F S512x1 .i32) : Vec F S512x1 .f32 :=
  View.canon [⟨r1_c, k1_pay1 (View.ld x0 r1_x) (View.ld x1 r1_c)⟩]

/-- The one store covers the block. -/
theorem cover1_2 (p0 : Vec F S512x1 .f32) (y : S512x1.Idx) :
    ∃ pc ∈ ([⟨r1_c, p0⟩] : List (View.Piece (Elt F) S512x1 .f32)), y ∈ pc.1.set :=
  View.cover_of_tiled [⟨r1_c, p0⟩] S512x1.size (by rfl) y

set_option maxHeartbeats 1000000 in
/-- The body on whole staging memrefs — the inputs' at contents x0, x1, the output's at anything — runs to the
    continuation holding the inputs' as they were and the output's at out1_2 of them. -/
theorem sound_kernel1 (c : Dev nD) (E : Set ℕ) (i : grid1.Coords) (arg1 : Memref sig .tc .vmem S512x1024 .f32) (harg1 : arg1.IsWhole)
    (arg2 : Memref sig .tc .vmem S512x1 .i32) (harg2 : arg2.IsWhole) (arg3 : Memref sig .tc .vmem S512x1 .f32) (harg3 : arg3.IsWhole)
    (x0 : Vec F S512x1024 .f32) (x1 : Vec F S512x1 .i32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__ce_kernel i arg1 harg1 arg2 harg2 arg3 harg3) K := by
  simp only [cc1__ce_kernel_eq_skeleton]; unfold cc1__ce_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The region's proof data on core c: the arrays as the region finds them; after the body at point t each input's
    buffer at its block and the output's at out1_2 of the two blocks; the invariant the scoped rest and the generator
    register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.Reg2.lean ====
/-
  The third kernel region: two sums of squared differences, accumulated over the grid. At grid point t the region
  hands the body rows 512·t … 512·t+511 (all 512 columns) of three arrays a, b, d. Two one-element cells, private
  to the kernel, carry the running totals from point to point: the first point sets both to zero, every point adds
  the sum over its block of (d − a)² to the first cell and of (d − b)² to the second, and the last point copies
  the two cells into the two one-element output blocks, which are written back once, after that point. So the
  cells after point n are a recursion over n — the point's block sums added onto what point n − 1 left, onto zero
  at n = 0 — and each output array ends at its cell's contents after the last point. Stated at the contents V the
  region is entered from, for any float type.
-/
import proofs.«428835_j7438883356860_1_alg».proof.Proof.Gen.KernelIdeal.Launch
import proofs.«428835_j7438883356860_1_alg».proof.Proof.Gen.KernelIdeal.Skeleton
import proofs.«428835_j7438883356860_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 2: the two squared-distance accumulators

At grid point t the pipeline hands the body three (512, 512) blocks, rows 512·t … 512·t+511 of the three side
feature arrays. Two (1, 1) scratch cells accumulate, over the eight points, the sum of squares of (third − first)
and of (third − second): the first point zeroes both cells, every point adds its block's sum of squares onto what
the cell held, and the last point copies the two cells into the two (1, 1) output blocks, which are written back
once, after that point. Stated at the contents V the region is entered from. -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, for any proof data over V's arrays whose body
    leaves the block in place: the window is fetched at every point, uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's two conditions, in closed form over the grid -/

/-- "This is the first point": the condition under which the body zeroes the two cells. -/
abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val = 0 :=
  (by decide +kernel : ∀ t : Fin grid2.N, cond2_0 (grid2.coords t) ↔ t.val = 0)

/-- "This is the last point": the condition under which the body copies the cells into the outputs. -/
abbrev cond2_1 (i : grid2.Coords) : Prop := k2_cond2 i = 1#1
theorem hcond2_1 : ∀ t : Fin cfg2.N, cond2_1 (grid2.coords t) ↔ t.val = 7 :=
  (by decide +kernel : ∀ t : Fin grid2.N, cond2_1 (grid2.coords t) ↔ t.val = 7)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- Off the last point the outputs are idle and not written back; at it they are live. -/
theorem idleAt2_3 : ∀ t : Fin cfg2.N, ¬cond2_1 (grid2.coords t) → cfg2.idle 3 (grid2.coords t) = true := by decide +kernel
theorem noFlush2_3 : ∀ t : Fin cfg2.N, ¬cond2_1 (grid2.coords t) → (cfg2.win 3).flush t = false := by decide +kernel
theorem liveAt2_3 : ∀ t : Fin cfg2.N, cond2_1 (grid2.coords t) → cfg2.idle 3 (grid2.coords t) = false := by decide +kernel
theorem idleAt2_4 : ∀ t : Fin cfg2.N, ¬cond2_1 (grid2.coords t) → cfg2.idle 4 (grid2.coords t) = true := by decide +kernel
theorem noFlush2_4 : ∀ t : Fin cfg2.N, ¬cond2_1 (grid2.coords t) → (cfg2.win 4).flush t = false := by decide +kernel
theorem liveAt2_4 : ∀ t : Fin cfg2.N, cond2_1 (grid2.coords t) → cfg2.idle 4 (grid2.coords t) = false := by decide +kernel

/-! ## The memrefs the body is called with -/

abbrev ms2_0 (t : Fin cfg2.N) : Memref sig .tc .vmem S512x512 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x512 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S512x512 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x1 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x1 .f32 := win2_4.stage (cfg2.slots t 4)
abbrev hs2_4 (t : Fin cfg2.N) : (ms2_4 t).IsWhole := hstage2_4 ((cfg2.slots t 4).cast nbuf2_4)
/-- The two accumulator cells: whole scoped buffers of the kernel's own. -/
abbrev scM2_0 : Memref sig .tc .vmem S1x1 .f32 := Memref.whole cc2_scratch0
abbrev scM2_1 : Memref sig .tc .vmem S1x1 .f32 := Memref.whole cc2_scratch1

/-! ## The class invariant, with the two cells set apart -/

/-- What the invariant holds besides the two cells: the other two regions' staging buffers at some contents each, and
    the generator register at some state. -/
def rest2 (c : Dev nD) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg3_1), ((c : Thread nD τ).loc cc0_stg3_1) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg4_1), ((c : Thread nD τ).loc cc0_stg4_1) ↦{fullShare} f)
      ∗ (∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg1_1), ((c : Thread nD τ).loc cc1_stg1_1) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg2_1), ((c : Thread nD τ).loc cc1_stg2_1) ↦{fullShare} f)
      ∗ (∃ r, prngReg c r))

/-- The class invariant is the rest with each cell at some contents, -/
theorem PhiA2_open (c : Dev nD) :
    (Pipeline.ΦA spec2 c : sProp 𝕄) ⊢ iprop(rest2 (F := F) c ∗ (∃ d, owns (c : Thread nD τ) scM2_0 fullShare d) ∗ (∃ d, owns (c : Thread nD τ) scM2_1 fullShare d)) := by
  unfold Pipeline.ΦA rest2; rw [scopedRest2_eq]; simp only [scM2_0, scM2_1, owns_whole]
  iintro ⟨⟨H0, H1, H2, H3, H4, H5, H6, H7, H8, H9, H10, H11, H12, HS0, HS1⟩, Hg⟩
  isplitr [HS0 HS1]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact Hg
  isplitl [HS0]; · iexact HS0
  iexact HS1

/-- and back. -/
theorem PhiA2_close (c : Dev nD) :
    iprop(rest2 (F := F) c ∗ (∃ d, owns (c : Thread nD τ) scM2_0 fullShare d) ∗ (∃ d, owns (c : Thread nD τ) scM2_1 fullShare d)) ⊢ (Pipeline.ΦA spec2 c : sProp 𝕄) := by
  unfold Pipeline.ΦA rest2; rw [scopedRest2_eq]; simp only [scM2_0, scM2_1, owns_whole]
  iintro ⟨⟨H0, H1, H2, H3, H4, H5, H6, H7, H8, H9, H10, H11, H12, Hg⟩, HS0, HS1⟩
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [HS0]; · iexact HS0
    iexact HS1
  iexact Hg

/-! ## The body's triple, case by case -/

theorem hz2 : (![0, 0] : Fin 2 → Nat) = fun _ => 0 := funext fun a => by fin_cases a <;> rfl

set_option maxHeartbeats 1000000 in
/-- AT THE FIRST POINT (zeroing taken, copy-out not taken). On whole memrefs — the three input blocks at x0, x1, x2,
    the two idle outputs at whatever they hold, the two cells at anything — the body runs to the continuation with
    the inputs and outputs as they were and each cell at its block's sum of squares added onto the zero it was just
    set to. -/
theorem kernelRun2_A (c : Dev nD) (i : grid2.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : cond2_0 i) (hc1 : ¬cond2_1 i)
    (x0 x1 x2 : Vec F S512x512 .f32) (xi3 xi4 : Vec F S1x1 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4
            ∗ owns (c : Thread nD τ) arg6 fullShare (k2_pay3 x2 x0 (k2_pay1 (F := F))) ∗ owns (c : Thread nD τ) arg7 fullShare (k2_pay4 x2 x1 (k2_pay2 (F := F)))) -∗ K ⟨⟩))
      ⊢ wp frame (wpE (defs₀ (F := F)) Variants.none c none) E (cc2__frob_kernel i arg1 harg1 arg2 harg2 arg3 harg3 arg4 harg4 arg5 harg5 arg6 harg6 arg7 harg7) K := by
  simp only [cc2__frob_kernel_eq_skeleton]; unfold cc2__frob_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
  obtain rfl := harg1.eq_unread hf0; obtain rfl := harg2.eq_unread hf1; obtain rfl := harg3.eq_unread hf2
  obtain rfl := harg4.eq_unread hf3; obtain rfl := harg5.eq_unread hf4
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [HS0]
  · iexists _; isplitr
    swap; · iexact HS0
    ipureintro
    try sl_unfold_words
    rw [View.read_writes_eq_canon _ _ _ (fun y => ⟨_, List.mem_cons_self, View.mem_set_unit_zero (S := S1x1) hz2 inb_S1x1_S1x1_0_0 y⟩),
      View.canon_cons_unit_zero hz2]
    simp only [View.readAt_eq_ld, Memref.IsWhole.read_unread, View.ld_unit_zero (S := S512x512) hz2,
      View.ld_unit_zero (S := S1x1) hz2, View.readCov_unit_zero (S := S1x1) _ hz2]
  iexists _; isplitr
  swap; · iexact HS1
  ipureintro
  try sl_unfold_words
  rw [View.read_writes_eq_canon _ _ _ (fun y => ⟨_, List.mem_cons_self, View.mem_set_unit_zero (S := S1x1) hz2 inb_S1x1_S1x1_0_0 y⟩),
    View.canon_cons_unit_zero hz2]
  simp only [View.readAt_eq_ld, Memref.IsWhole.read_unread, View.ld_unit_zero (S := S512x512) hz2,
    View.ld_unit_zero (S := S1x1) hz2, View.readCov_unit_zero (S := S1x1) _ hz2]

set_option maxHeartbeats 1000000 in
/-- AT A MIDDLE POINT (neither taken). The cells at xs0, xs1, what the point before left: each ends at its block's
    sum of squares added onto that. -/
theorem kernelRun2_B (c : Dev nD) (i : grid2.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬cond2_0 i) (hc1 : ¬cond2_1 i)
    (x0 x1 x2 : Vec F S512x512 .f32) (xi3 xi4 xs0 xs1 : Vec F S1x1 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4
        ∗ owns (c : Thread nD τ) arg6 fullShare xs0 ∗ owns (c : Thread nD τ) arg7 fullShare xs1
        ∗ (iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4
            ∗ owns (c : Thread nD τ) arg6 fullShare (k2_pay3 x2 x0 xs0) ∗ owns (c : Thread nD τ) arg7 fullShare (k2_pay4 x2 x1 xs1)) -∗ K ⟨⟩))
      ⊢ wp frame (wpE (defs₀ (F := F)) Variants.none c none) E (cc2__frob_kernel i arg1 harg1 arg2 harg2 arg3 harg3 arg4 harg4 arg5 harg5 arg6 harg6 arg7 harg7) K := by
  simp only [cc2__frob_kernel_eq_skeleton]; unfold cc2__frob_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
  obtain rfl := harg1.eq_unread hf0; obtain rfl := harg2.eq_unread hf1; obtain rfl := harg3.eq_unread hf2
  obtain rfl := harg4.eq_unread hf3; obtain rfl := harg5.eq_unread hf4
  obtain rfl := harg6.eq_unread hfs0; obtain rfl := harg7.eq_unread hfs1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [HS0]
  · iexists _; isplitr
    swap; · iexact HS0
    ipureintro
    try sl_unfold_words
    rw [View.read_writes_eq_canon _ _ _ (fun y => ⟨_, List.mem_cons_self, View.mem_set_unit_zero (S := S1x1) hz2 inb_S1x1_S1x1_0_0 y⟩),
      View.canon_cons_unit_zero hz2]
    simp only [View.readAt_eq_ld, Memref.IsWhole.read_unread, View.ld_unit_zero (S := S512x512) hz2,
      View.ld_unit_zero (S := S1x1) hz2, View.readCov_unit_zero (S := S1x1) _ hz2]
  iexists _; isplitr
  swap; · iexact HS1
  ipureintro
  try sl_unfold_words
  rw [View.read_writes_eq_canon _ _ _ (fun y => ⟨_, List.mem_cons_self, View.mem_set_unit_zero (S := S1x1) hz2 inb_S1x1_S1x1_0_0 y⟩),
    View.canon_cons_unit_zero hz2]
  simp only [View.readAt_eq_ld, Memref.IsWhole.read_unread, View.ld_unit_zero (S := S512x512) hz2,
    View.ld_unit_zero (S := S1x1) hz2, View.readCov_unit_zero (S := S1x1) _ hz2]

set_option maxHeartbeats 4000000 in
/-- AT THE LAST POINT (zeroing not taken, copy-out taken). The cells at xs0, xs1, the outputs at anything: each cell
    ends at its block's sum of squares added onto what it held, and each output at its cell's contents. -/
theorem kernelRun2_C (c : Dev nD) (i : grid2.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬cond2_0 i) (hc1 : cond2_1 i)
    (x0 x1 x2 : Vec F S512x512 .f32) (xs0 xs1 : Vec F S1x1 .f32) (E : Set ℕ) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
        ∗ owns (c : Thread nD τ) arg6 fullShare xs0 ∗ owns (c : Thread nD τ) arg7 fullShare xs1
        ∗ (iprop(owns (c : Thread nD τ) arg1 fullShare x0 ∗ owns (c : Thread nD τ) arg2 fullShare x1 ∗ owns (c : Thread nD τ) arg3 fullShare x2 ∗ owns (c : Thread nD τ) arg4 fullShare (k2_pay3 x2 x0 xs0) ∗ owns (c : Thread nD τ) arg5 fullShare (k2_pay4 x2 x1 xs1)
            ∗ owns (c : Thread nD τ) arg6 fullShare (k2_pay3 x2 x0 xs0) ∗ owns (c : Thread nD τ) arg7 fullShare (k2_pay4 x2 x1 xs1)) -∗ K ⟨⟩))
      ⊢ wp frame (wpE (defs₀ (F := F)) Variants.none c none) E (cc2__frob_kernel i arg1 harg1 arg2 harg2 arg3 harg3 arg4 harg4 arg5 harg5 arg6 harg6 arg7 harg7) K := by
  simp only [cc2__frob_kernel_eq_skeleton]; unfold cc2__frob_kernel_skel
  simp only [k2_part1_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hk⟩
  obtain rfl := harg1.eq_unread hf0; obtain rfl := harg2.eq_unread hf1; obtain rfl := harg3.eq_unread hf2
  obtain rfl := harg6.eq_unread hfs0; obtain rfl := harg7.eq_unread hfs1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    try sl_unfold_words
    rw [View.read_writes_eq_canon _ _ _ (fun y => ⟨_, List.mem_cons_self, View.mem_set_unit_zero (S := S1x1) hz2 inb_S1x1_S1x1_0_0 y⟩),
      View.canon_cons_unit_zero hz2]
    simp only [View.readAt_eq_ld, Memref.IsWhole.read_unread, View.ld_unit_zero (S := S512x512) hz2,
      View.ld_unit_zero (S := S1x1) hz2, View.readCov_unit_zero (S := S1x1) _ hz2]
  isplitl [H4]
  · iexists _; isplitr
    swap; · iexact H4
    ipureintro
    try sl_unfold_words
    rw [View.read_writes_eq_canon _ _ _ (fun y => ⟨_, List.mem_cons_self, View.mem_set_unit_zero (S := S1x1) hz2 inb_S1x1_S1x1_0_0 y⟩),
      View.canon_cons_unit_zero hz2]
    simp only [View.readAt_eq_ld, Memref.IsWhole.read_unread, View.ld_unit_zero (S := S512x512) hz2,
      View.ld_unit_zero (S := S1x1) hz2, View.readCov_unit_zero (S := S1x1) _ hz2]
  isplitl [HS0]
  · iexists _; isplitr
    swap; · iexact HS0
    ipureintro
    try sl_unfold_words
    rw [View.read_writes_eq_canon _ _ _ (fun y => ⟨_, List.mem_cons_self, View.mem_set_unit_zero (S := S1x1) hz2 inb_S1x1_S1x1_0_0 y⟩),
      View.canon_cons_unit_zero hz2]
    simp only [View.readAt_eq_ld, Memref.IsWhole.read_unread, View.ld_unit_zero (S := S512x512) hz2,
      View.ld_unit_zero (S := S1x1) hz2, View.readCov_unit_zero (S := S1x1) _ hz2]
  iexists _; isplitr
  swap; · iexact HS1
  ipureintro
  try sl_unfold_words
  rw [View.read_writes_eq_canon _ _ _ (fun y => ⟨_, List.mem_cons_self, View.mem_set_unit_zero (S := S1x1) hz2 inb_S1x1_S1x1_0_0 y⟩),
    View.canon_cons_unit_zero hz2]
  simp only [View.readAt_eq_ld, Memref.IsWhole.read_unread, View.ld_unit_zero (S := S512x512) hz2,
    View.ld_unit_zero (S := S1x1) hz2, View.readCov_unit_zero (S := S1x1) _ hz2]

/-! ## What the two cells hold after each point -/

/-- THE ACCUMULATION. After point 0 each cell holds its block's sum of squares added onto the zero the point set it
    to; after point n + 1, added onto what point n left. First component: the cell fed by (third − first); second:
    the cell fed by (third − second). -/
def scrAt2 (c : Dev nD) : (n : ℕ) → n < cfg2.N → Vec F S1x1 .f32 × Vec F S1x1 .f32
  | 0, hn => (k2_pay3 (iblk2 V c 2 ⟨0, hn⟩) (iblk2 V c 0 ⟨0, hn⟩) (k2_pay1 (F := F)),
      k2_pay4 (iblk2 V c 2 ⟨0, hn⟩) (iblk2 V c 1 ⟨0, hn⟩) (k2_pay2 (F := F)))
  | n + 1, hn => (k2_pay3 (iblk2 V c 2 ⟨n + 1, hn⟩) (iblk2 V c 0 ⟨n + 1, hn⟩) (scrAt2 c n (Nat.lt_of_succ_lt hn)).1,
      k2_pay4 (iblk2 V c 2 ⟨n + 1, hn⟩) (iblk2 V c 1 ⟨n + 1, hn⟩) (scrAt2 c n (Nat.lt_of_succ_lt hn)).2)

theorem scrAt2_zero (c : Dev nD) (hn : 0 < cfg2.N) :
    scrAt2 V c 0 hn = (k2_pay3 (iblk2 V c 2 ⟨0, hn⟩) (iblk2 V c 0 ⟨0, hn⟩) (k2_pay1 (F := F)),
      k2_pay4 (iblk2 V c 2 ⟨0, hn⟩) (iblk2 V c 1 ⟨0, hn⟩) (k2_pay2 (F := F))) := rfl

theorem scrAt2_succ (c : Dev nD) (n : ℕ) (hn : n + 1 < cfg2.N) :
    scrAt2 V c (n + 1) hn = (k2_pay3 (iblk2 V c 2 ⟨n + 1, hn⟩) (iblk2 V c 0 ⟨n + 1, hn⟩) (scrAt2 V c n (Nat.lt_of_succ_lt hn)).1,
      k2_pay4 (iblk2 V c 2 ⟨n + 1, hn⟩) (iblk2 V c 1 ⟨n + 1, hn⟩) (scrAt2 V c n (Nat.lt_of_succ_lt hn)).2) := rfl

/-- At the first point: over the zeros. -/
theorem scrAt2_first (c : Dev nD) (t : Fin cfg2.N) (h0 : t.val = 0) :
    scrAt2 V c t.val t.isLt = (k2_pay3 (iblk2 V c 2 t) (iblk2 V c 0 t) (k2_pay1 (F := F)),
      k2_pay4 (iblk2 V c 2 t) (iblk2 V c 1 t) (k2_pay2 (F := F))) := by
  obtain ⟨n, hn⟩ := t
  cases n with
  | zero => rfl
  | succ n => exact absurd h0 (Nat.succ_ne_zero n)

/-- At any later point: over what the point before left. -/
theorem scrAt2_later (c : Dev nD) (t : Fin cfg2.N) (h0 : t.val ≠ 0) :
    scrAt2 V c t.val t.isLt
      = (k2_pay3 (iblk2 V c 2 t) (iblk2 V c 0 t) (scrAt2 V c (t.val - 1) (Nat.lt_of_le_of_lt (Nat.sub_le _ _) t.isLt)).1,
        k2_pay4 (iblk2 V c 2 t) (iblk2 V c 1 t) (scrAt2 V c (t.val - 1) (Nat.lt_of_le_of_lt (Nat.sub_le _ _) t.isLt)).2) := by
  obtain ⟨n, hn⟩ := t
  cases n with
  | zero => exact absurd rfl h0
  | succ n => rfl

/-! ## The region's invariant -/

/-- Before the first point the class's invariant (each cell at anything); before point n + 1 the rest with each cell
    at what point n left in it. -/
def PhiS2 (c : Dev nD) : (n : ℕ) → n ≤ cfg2.N → sProp 𝕄
  | 0, _ => Pipeline.ΦA spec2 c
  | n + 1, hn => iprop(rest2 (F := F) c ∗ owns (c : Thread nD τ) scM2_0 fullShare (scrAt2 V c n hn).1
      ∗ owns (c : Thread nD τ) scM2_1 fullShare (scrAt2 V c n hn).2)

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(rest2 (F := F) c ∗ owns (c : Thread nD τ) scM2_0 fullShare (scrAt2 V c n hn).1
      ∗ owns (c : Thread nD τ) scM2_1 fullShare (scrAt2 V c n hn).2) := rfl

theorem PhiS2_pos (c : Dev nD) (n : ℕ) (h : n ≤ cfg2.N) (hz : n ≠ 0) :
    PhiS2 V c n h = iprop(rest2 (F := F) c ∗ owns (c : Thread nD τ) scM2_0 fullShare (scrAt2 V c (n - 1) (by omega)).1
      ∗ owns (c : Thread nD τ) scM2_1 fullShare (scrAt2 V c (n - 1) (by omega)).2) := by
  cases n with
  | zero => exact absurd rfl hz
  | succ n => rfl

/-! ## The pipeline's proof data -/

/-- The proof data of pipeline 2 on core c: the arrays as the region finds them; after the body at point t each
    input's buffer at its block and each output's at its cell's contents after that point (consulted at the last
    point only: elsewhere the outputs are idle and not written back); the invariant above; nothing owed; full
    shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (scrAt2 V c t.val t.isLt).1
    | ⟨4, _⟩ => (scrAt2 V c t.val t.isLt).2
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
/-- Each output's staging buffer after point t holds its cell's contents after that point (what the pipeline writes
    back after the last point). -/
theorem after2_3 (c : Dev nD) (t : Fin cfg2.N) : (dat2 V c).after 3 t = (scrAt2 V c t.val t.isLt).1 := by dsimp only [dat2]
theorem after2_4 (c : Dev nD) (t : Fin cfg2.N) : (dat2 V c).after 4 t = (scrAt2 V c t.val t.isLt).2 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4800000 in
/-- The body at any point. The inputs' memrefs hold their blocks; the point is the first, a middle one or the last,
    and the matching triple applies; the invariant hands the body the two cells (at anything at the first point, else
    at what the point before left) and takes them back at this point's contents; off the last point the outputs go
    back as they came. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
      unfold Dat.leavesExact; rw [liveAt2_0 t], after2_0]
  rw [show (dat2 V c).leavesExact 1 t = owns (c : Thread nD τ) (ms2_1 t) fullShare ((dat2 V c).after 1 t) from by
      unfold Dat.leavesExact; rw [liveAt2_1 t], after2_1]
  rw [show (dat2 V c).leavesExact 2 t = owns (c : Thread nD τ) (ms2_2 t) fullShare ((dat2 V c).after 2 t) from by
      unfold Dat.leavesExact; rw [liveAt2_2 t], after2_2]
  have hN : t.val < 8 := lt_of_lt_of_eq t.isLt (show cfg2.N = 8 from N_2)
  by_cases h0 : t.val = 0
  · have hc0 : cond2_0 (grid2.coords t) := (hcond2_0 t).mpr h0
    have hc1 : ¬cond2_1 (grid2.coords t) := fun h => by have := (hcond2_1 t).mp h; omega
    rw [Dat.leavesExact_idle (dat2 V c) 3 t (idleAt2_3 t hc1) (noFlush2_3 t hc1),
      Dat.leavesExact_idle (dat2 V c) 4 t (idleAt2_4 t hc1) (noFlush2_4 t hc1)]
    rw [scrAt2_first V c t h0]; dsimp only
    rw [PhiS2_castSucc V c t, PhiS2_zero V c _ _ h0]
    iintro ⟨HΦ, Ho, ⟨%d0, H0⟩, ⟨%d1, H1⟩, ⟨%d2, H2⟩, ⟨%d3, H3⟩, ⟨%d4, H4⟩⟩
    ihave HΦ' := (PhiA2_open (F := F) c) $$ HΦ
    icases HΦ' with ⟨Hr, HS0, HS1⟩
    iapply (kernelRun2_A c (grid2.coords t) _ _ _ _ _ _ _ _ _ _ _ _ _ _ hc0 hc1 (iblk2 V c 0 t) (iblk2 V c 1 t) (iblk2 V c 2 t) _ _ Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iintro ⟨H0, H1, H2, H3, H4, HS0, HS1⟩
    isplitl [Hr HS0 HS1]
    · isplitl [Hr]; · iexact Hr
      isplitl [HS0]; · iexact HS0
      iexact HS1
    isplitl [Ho]; · iexact Ho
    isplitl [H0]; · iexact H0
    isplitl [H1]; · iexact H1
    isplitl [H2]; · iexact H2
    isplitl [H3]; · iexists _; iexact H3
    iexists _; iexact H4
  · by_cases h7 : t.val = 7
    · have hc0 : ¬cond2_0 (grid2.coords t) := fun h => h0 ((hcond2_0 t).mp h)
      have hc1 : cond2_1 (grid2.coords t) := (hcond2_1 t).mpr h7
      rw [show (dat2 V c).leavesExact 3 t = owns (c : Thread nD τ) (ms2_3 t) fullShare ((dat2 V c).after 3 t) from by
          unfold Dat.leavesExact; rw [liveAt2_3 t hc1], after2_3]
      rw [show (dat2 V c).leavesExact 4 t = owns (c : Thread nD τ) (ms2_4 t) fullShare ((dat2 V c).after 4 t) from by
          unfold Dat.leavesExact; rw [liveAt2_4 t hc1], after2_4]
      rw [scrAt2_later V c t h0]; dsimp only
      rw [PhiS2_castSucc V c t, PhiS2_pos V c _ _ h0]
      iintro ⟨⟨Hr, HS0, HS1⟩, Ho, ⟨%d0, H0⟩, ⟨%d1, H1⟩, ⟨%d2, H2⟩, ⟨%d3, H3⟩, ⟨%d4, H4⟩⟩
      iapply (kernelRun2_C c (grid2.coords t) _ _ _ _ _ _ _ _ _ _ _ _ _ _ hc0 hc1 (iblk2 V c 0 t) (iblk2 V c 1 t) (iblk2 V c 2 t) _ _ Set.univ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, H3, H4, HS0, HS1⟩
      isplitl [Hr HS0 HS1]
      · isplitl [Hr]; · iexact Hr
        isplitl [HS0]; · iexact HS0
        iexact HS1
      isplitl [Ho]; · iexact Ho
      isplitl [H0]; · iexact H0
      isplitl [H1]; · iexact H1
      isplitl [H2]; · iexact H2
      isplitl [H3]; · iexact H3
      iexact H4
    · have hc0 : ¬cond2_0 (grid2.coords t) := fun h => h0 ((hcond2_0 t).mp h)
      have hc1 : ¬cond2_1 (grid2.coords t) := fun h => h7 ((hcond2_1 t).mp h)
      rw [Dat.leavesExact_idle (dat2 V c) 3 t (idleAt2_3 t hc1) (noFlush2_3 t hc1),
        Dat.leavesExact_idle (dat2 V c) 4 t (idleAt2_4 t hc1) (noFlush2_4 t hc1)]
      rw [scrAt2_later V c t h0]; dsimp only
      rw [PhiS2_castSucc V c t, PhiS2_pos V c _ _ h0]
      iintro ⟨⟨Hr, HS0, HS1⟩, Ho, ⟨%d0, H0⟩, ⟨%d1, H1⟩, ⟨%d2, H2⟩, ⟨%d3, H3⟩, ⟨%d4, H4⟩⟩
      iapply (kernelRun2_B c (grid2.coords t) _ _ _ _ _ _ _ _ _ _ _ _ _ _ hc0 hc1 (iblk2 V c 0 t) (iblk2 V c 1 t) (iblk2 V c 2 t) _ _ _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [Hr HS0 HS1]
      · isplitl [Hr]; · iexact Hr
        isplitl [HS0]; · iexact HS0
        iexact HS1
      isplitl [Ho]; · iexact Ho
      isplitl [H0]; · iexact H0
      isplitl [H1]; · iexact H1
      isplitl [H2]; · iexact H2
      isplitl [H3]; · iexists _; iexact H3
      iexists _; iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]

/-- After the last point the invariant gives the class's back: the cells' named contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 8 := N_2; omega)]
  iintro ⟨Hr, HS0, HS1⟩
  iapply (PhiA2_close (F := F) c)
  isplitl [Hr]; · iexact Hr
  isplitl [HS0]; · iexists _; iexact HS0
  iexists _; iexact HS1

end Cert.KernelIdeal.Fr

end
-- ==== Proof.Run.lean ====
/-
  The whole run of the kernel's program: two host reshapes of the labels, the three kernel regions (distances and hard
  mining; cross-entropy rows; the two sums of squared differences), then the host arithmetic that forms the loss.
  Between two items every unscoped buffer of the core is held whole at known contents: the launch memory, then each
  host stretch applied to it, then, after a region, that region's arrays at what its pipeline leaves (the inputs as
  entered, each output's write-backs folded) and every other buffer as before. The run ends with every unscoped buffer
  at the last of these contents, from which both the frame (the arguments end as launched) and the value of the
  result are read.
-/
import proofs.«428835_j7438883356860_1_alg».proof.Proof.Reg0
import proofs.«428835_j7438883356860_1_alg».proof.Proof.Reg1
import proofs.«428835_j7438883356860_1_alg».proof.Proof.Reg2
import Idealize.ShloMosaic.Lib.Pipeline.Regions

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core c's buffers at launch. -/
abbrev W0 : Dev nD → Valuation τ sig (Elt F) := fun c b => m (c, b)
/-- After the two reshapes of the labels (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b

/-- At region 0's exit: its arrays at what the pipeline leaves (the inputs as entered, each output's write-backs
    folded), every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At region 1's exit: its arrays at what the pipeline leaves (the inputs as entered, each output's write-backs
    folded), every other buffer as entered. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
/-- The same read at the TensorCore's references. -/
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- At region 2's exit: its arrays at what the pipeline leaves (the inputs as entered, each output's write-backs
    folded), every other buffer as entered. -/
def W4 (c : Dev nD) : Valuation τ sig (Elt F) :=
  Pipeline.withArrays spec2 c (W3 m c) fun w => (dat2 (V3 m) c).arrAt w cfg2.N
theorem W4_arr (c : Dev nD) (w : Fin cfg2.W) :
    W4 m c (Proc.devRef .tc (Pipeline.arrRef spec2 w)) = (dat2 (V3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
/-- The same read at the TensorCore's references. -/
abbrev V4 : (c : Dev nD) → (b : Ref sig .tc) → Buf (Elt F) ((c : Thread nD τ).loc b) := fun c b => W4 m c b
theorem hF2 (c : Dev nD) (w : Fin cfg2.W) : (dat2 (V3 m) c).arrAt w cfg2.N = V4 m c (Pipeline.arrRef spec2 w) :=
  (W4_arr m c w).symm
theorem hrest2 (c : Dev nD) : ∀ b, b ∉ Finset.univ.image (Pipeline.arrRef spec2) → V4 m c b = V3 m c b :=
  fun b hb => W4_of_ne m c b fun w e => hb (Finset.mem_image.mpr ⟨w, Finset.mem_univ _, e⟩)

/-- After the three host stretches that form the loss. -/
abbrev W5 : Dev nD → Valuation τ sig (Elt F) := fun c => StableHlo.after hostOps3 (W4 m c)
abbrev W6 : Dev nD → Valuation τ sig (Elt F) := fun c => StableHlo.after hostOps3_1 (W5 m c)
abbrev W7 : Dev nD → Valuation τ sig (Elt F) := fun c => StableHlo.after hostOps3_2 (W6 m c)

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
  | ⟨2, _⟩ => fun c => dat2 (V3 m) c
abbrev 𝒱₀ : Variants := Variants.none
abbrev L : GSem nD τ sig → Finset Unit := fun _ => ∅
abbrev lv : GSem nD τ sig → Unit → ℕ := fun _ _ => 0
/-- What rides beside the buffers through every item: the generator register at some state and the core's dues, at nothing. -/
abbrev R (c : Dev nD) : sProp 𝕄 := iprop((∃ r, prngReg c r) ∗ ∃ W, owes (c : Thread nD τ) (0 : CellTallies nD τ sig Unit) W)
/-- A host stretch as a segment over the unscoped references from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
theorem hostOps3_1_fresh : (hostOps3_1 : List (HloOp τ sig (Elt F))).Forall fun op => op.fresh = ∅ := by
  simp only [List.Forall]; repeat' constructor
theorem hostOps3_2_fresh : (hostOps3_2 : List (HloOp τ sig (Elt F))).Forall fun op => op.fresh = ∅ := by
  simp only [List.Forall]; repeat' constructor
/-- The last thread state without the dues: every unscoped buffer at the last contents, the generator register at some state. -/
abbrev Tₙ (c : Dev nD) : sProp 𝕄 := iprop(StableHlo.held (c : Thread nD τ) (Pipeline.ucRefs τ sig) (W7 m c) ∗ ∃ r, prngReg c r)

/-! ## The regions as segments -/

set_option backward.isDefEq.respectTransparency.types false in
/-- Region 0 over the thread state: entered from every unscoped buffer at `W1`, left at `W2`. Its arrays are
    split out of the unscoped buffers and put back at their exit contents; the generator register goes into the
    region's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`. Its arrays are
    split out of the unscoped buffers and put back at their exit contents; the generator register goes into the
    region's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W3`, left at `W4`. Its arrays are
    split out of the unscoped buffers and put back at their exit contents; the generator register goes into the
    region's invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec2 c (V3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 := hin2 (V3 m) c
    unfold Pipeline.ΦA at h1
    rw [show (pdats m 2 c).Φ 0 = (dat2 (V3 m) c).Φ 0 from rfl]
    iintro ⟨Hp, -, Hr⟩
    iapply h1
    isplitl [Hr]; · iexact Hr
    iexact Hp
  hout c := by
    have h1 := hout2 (V3 m) c
    unfold Pipeline.ΦA at h1
    rw [Pipeline.ownSems0_none, show (pdats m 2 c).Φ (Fin.last _) = (dat2 (V3 m) c).Φ (Fin.last cfg2.N) from rfl]
    refine h1.trans ?_
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V3 m c) (V4 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .region (reg1 m),
    .region (reg2 m),
    .host (hseg hostOps3 hostOps3_sub hostOps3_fresh (W4 m)),
    .host (hseg hostOps3_1 hostOps3_1_sub hostOps3_1_fresh (W5 m)),
    .host (hseg hostOps3_2 hostOps3_2_sub hostOps3_2_fresh (W6 m)) ]

set_option backward.isDefEq.respectTransparency.types false in
/-- Every weakly fair execution of @main from memory m with zero counters terminates, nothing faulting, with every
    unscoped buffer of every core at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          Prog.lift (.customCall (Pipeline.entry 0) ()),
          Prog.lift (.customCall (Pipeline.entry 1) ()),
          Prog.lift (.customCall (Pipeline.entry 2) ()),
          StableHlo.seq hostOps3,
          StableHlo.seq hostOps3_1,
          StableHlo.seq hostOps3_2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun c => (show iprop(StableHlo.held (c : Thread nD τ) (Pipeline.ucRefs τ sig) (W7 m c) ∗ R c)
          ⊢ iprop(Tₙ m c ∗ ∃ W, owes (c : Thread nD τ) (0 : CellTallies nD τ sig Unit) W) from by
      iintro ⟨Hh, Hp, HO⟩
      isplitl [Hh Hp]
      · isplitl [Hh]; · iexact Hh
        iexact Hp
      iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Fr

end
-- ==== Proof.Walk.lean ====
/-
  Reading the contents at the boundaries: an argument array is written by no host operation and by no region (a region
  reads it through an input window, whose array the pipeline never changes, or does not touch it), so at every boundary
  it holds its launch contents; the label column and row are the host's two reshapes of the labels; and what a region
  leaves in an output array is carried unchanged to the end, no later item writing it. Hence the frame.
-/
import proofs.«428835_j7438883356860_1_alg».proof.Proof.Run
import proofs.«428835_j7438883356860_1_alg».proof.Proof.Gen.KernelIdeal.Regions

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The arguments end as launched -/

/-- `main_arg0` is written by no host operation and by no region: it ends as launched. -/
theorem W7_main_arg0 (c : Dev nD) : W7 m c (Proc.devRef .tc main_arg0) = m ((c : Thread nD τ).loc main_arg0) :=
  (StableHlo.after_of_writes_sub hostOps3_2 _ hostOps3_2_writes (by decide)).trans <|
  (StableHlo.after_of_writes_sub hostOps3_1 _ hostOps3_1_writes (by decide)).trans <|
  (StableHlo.after_of_writes_sub hostOps3 _ hostOps3_writes (by decide)).trans <|
  (W4_of_ne m c main_arg0 (by decide)).trans <| ((W3_arr m c 0).trans (((dat1 (V2 m) c).arrAt_in 0 rfl _).trans (A_eq1 (V2 m) c 0))).trans <| (W2_of_ne m c main_arg0 (by decide)).trans <|
  (StableHlo.after_of_writes_sub hostOps0 _ hostOps0_writes (by decide)).trans rfl

/-- `main_arg1` is written by no host operation and by no region: it ends as launched. -/
theorem W7_main_arg1 (c : Dev nD) : W7 m c (Proc.devRef .tc main_arg1) = m ((c : Thread nD τ).loc main_arg1) :=
  (StableHlo.after_of_writes_sub hostOps3_2 _ hostOps3_2_writes (by decide)).trans <|
  (StableHlo.after_of_writes_sub hostOps3_1 _ hostOps3_1_writes (by decide)).trans <|
  (StableHlo.after_of_writes_sub hostOps3 _ hostOps3_writes (by decide)).trans <|
  ((W4_arr m c 0).trans (((dat2 (V3 m) c).arrAt_in 0 rfl _).trans (A_eq2 (V3 m) c 0))).trans <| (W3_of_ne m c main_arg1 (by decide)).trans <| (W2_of_ne m c main_arg1 (by decide)).trans <|
  (StableHlo.after_of_writes_sub hostOps0 _ hostOps0_writes (by decide)).trans rfl

/-- `main_arg2` is written by no host operation and by no region: it ends as launched. -/
theorem W7_main_arg2 (c : Dev nD) : W7 m c (Proc.devRef .tc main_arg2) = m ((c : Thread nD τ).loc main_arg2) :=
  (StableHlo.after_of_writes_sub hostOps3_2 _ hostOps3_2_writes (by decide)).trans <|
  (StableHlo.after_of_writes_sub hostOps3_1 _ hostOps3_1_writes (by decide)).trans <|
  (StableHlo.after_of_writes_sub hostOps3 _ hostOps3_writes (by decide)).trans <|
  ((W4_arr m c 1).trans (((dat2 (V3 m) c).arrAt_in 1 rfl _).trans (A_eq2 (V3 m) c 1))).trans <| (W3_of_ne m c main_arg2 (by decide)).trans <| (W2_of_ne m c main_arg2 (by decide)).trans <|
  (StableHlo.after_of_writes_sub hostOps0 _ hostOps0_writes (by decide)).trans rfl

/-- `main_arg3` is written by no host operation and by no region: it ends as launched. -/
theorem W7_main_arg3 (c : Dev nD) : W7 m c (Proc.devRef .tc main_arg3) = m ((c : Thread nD τ).loc main_arg3) :=
  (StableHlo.after_of_writes_sub hostOps3_2 _ hostOps3_2_writes (by decide)).trans <|
  (StableHlo.after_of_writes_sub hostOps3_1 _ hostOps3_1_writes (by decide)).trans <|
  (StableHlo.after_of_writes_sub hostOps3 _ hostOps3_writes (by decide)).trans <|
  ((W4_arr m c 2).trans (((dat2 (V3 m) c).arrAt_in 2 rfl _).trans (A_eq2 (V3 m) c 2))).trans <| (W3_of_ne m c main_arg3 (by decide)).trans <| (W2_of_ne m c main_arg3 (by decide)).trans <|
  (StableHlo.after_of_writes_sub hostOps0 _ hostOps0_writes (by decide)).trans rfl

/-- `main_arg4` is written by no host operation and by no region: it ends as launched. -/
theorem W7_main_arg4 (c : Dev nD) : W7 m c (Proc.devRef .tc main_arg4) = m ((c : Thread nD τ).loc main_arg4) :=
  (StableHlo.after_of_writes_sub hostOps3_2 _ hostOps3_2_writes (by decide)).trans <|
  (StableHlo.after_of_writes_sub hostOps3_1 _ hostOps3_1_writes (by decide)).trans <|
  (StableHlo.after_of_writes_sub hostOps3 _ hostOps3_writes (by decide)).trans <|
  (W4_of_ne m c main_arg4 (by decide)).trans <| (W3_of_ne m c main_arg4 (by decide)).trans <| ((W2_arr m c 0).trans (((dat0 (V1 m) c).arrAt_in 0 rfl _).trans (A_eq0 (V1 m) c 0))).trans <|
  (StableHlo.after_of_writes_sub hostOps0 _ hostOps0_writes (by decide)).trans rfl

/-- `main_arg5` is written by no host operation and by no region: it ends as launched. -/
theorem W7_main_arg5 (c : Dev nD) : W7 m c (Proc.devRef .tc main_arg5) = m ((c : Thread nD τ).loc main_arg5) :=
  (StableHlo.after_of_writes_sub hostOps3_2 _ hostOps3_2_writes (by decide)).trans <|
  (StableHlo.after_of_writes_sub hostOps3_1 _ hostOps3_1_writes (by decide)).trans <|
  (StableHlo.after_of_writes_sub hostOps3 _ hostOps3_writes (by decide)).trans <|
  (W4_of_ne m c main_arg5 (by decide)).trans <| (W3_of_ne m c main_arg5 (by decide)).trans <| (W2_of_ne m c main_arg5 (by decide)).trans <|
  (StableHlo.after_of_writes_sub hostOps0 _ hostOps0_writes (by decide)).trans rfl

/-- The frame: every weakly fair execution terminates, nothing faulting, with every argument array as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W7_main_arg0 m c),
     (h c _ (mem_uc main_arg1 (by decide))).trans (W7_main_arg1 m c),
     (h c _ (mem_uc main_arg2 (by decide))).trans (W7_main_arg2 m c),
     (h c _ (mem_uc main_arg3 (by decide))).trans (W7_main_arg3 m c),
     (h c _ (mem_uc main_arg4 (by decide))).trans (W7_main_arg4 m c),
     (h c _ (mem_uc main_arg5 (by decide))).trans (W7_main_arg5 m c)⟩) (run_all m ρ)

/-! ## What each region is entered with -/

theorem V1_main_arg4 (c : Dev nD) : V1 m c main_arg4 = m ((c : Thread nD τ).loc main_arg4) :=
   (StableHlo.after_of_writes_sub hostOps0 _ hostOps0_writes (by decide)).trans rfl
theorem V2_main_arg0 (c : Dev nD) : V2 m c main_arg0 = m ((c : Thread nD τ).loc main_arg0) :=
  (W2_of_ne m c main_arg0 (by decide)).trans <| (StableHlo.after_of_writes_sub hostOps0 _ hostOps0_writes (by decide)).trans rfl
theorem V3_main_arg1 (c : Dev nD) : V3 m c main_arg1 = m ((c : Thread nD τ).loc main_arg1) :=
  (W3_of_ne m c main_arg1 (by decide)).trans <| (W2_of_ne m c main_arg1 (by decide)).trans <| (StableHlo.after_of_writes_sub hostOps0 _ hostOps0_writes (by decide)).trans rfl
theorem V3_main_arg2 (c : Dev nD) : V3 m c main_arg2 = m ((c : Thread nD τ).loc main_arg2) :=
  (W3_of_ne m c main_arg2 (by decide)).trans <| (W2_of_ne m c main_arg2 (by decide)).trans <| (StableHlo.after_of_writes_sub hostOps0 _ hostOps0_writes (by decide)).trans rfl
theorem V3_main_arg3 (c : Dev nD) : V3 m c main_arg3 = m ((c : Thread nD τ).loc main_arg3) :=
  (W3_of_ne m c main_arg3 (by decide)).trans <| (W2_of_ne m c main_arg3 (by decide)).trans <| (StableHlo.after_of_writes_sub hostOps0 _ hostOps0_writes (by decide)).trans rfl
/-- The label column as the cross-entropy region finds it is the one the first region was entered with. -/
theorem V2_main_v0 (c : Dev nD) : V2 m c main_v0 = V1 m c main_v0 :=
  (W2_arr m c 1).trans (((dat0 (V1 m) c).arrAt_in 1 rfl _).trans (A_eq0 (V1 m) c 1))

/-! ## What each region leaves reaches the end of the regions -/

theorem W4_main_v2_0 (c : Dev nD) : W4 m c (Proc.devRef .tc main_v2_0) = (dat0 (V1 m) c).arrAt 3 cfg0.N :=
  (W4_of_ne m c main_v2_0 (by decide)).trans <| (W3_of_ne m c main_v2_0 (by decide)).trans (W2_arr m c 3)
theorem W4_main_v2_1 (c : Dev nD) : W4 m c (Proc.devRef .tc main_v2_1) = (dat0 (V1 m) c).arrAt 4 cfg0.N :=
  (W4_of_ne m c main_v2_1 (by decide)).trans <| (W3_of_ne m c main_v2_1 (by decide)).trans (W2_arr m c 4)
theorem W4_main_v3 (c : Dev nD) : W4 m c (Proc.devRef .tc main_v3) = (dat1 (V2 m) c).arrAt 2 cfg1.N :=
  (W4_of_ne m c main_v3 (by decide)).trans (W3_arr m c 2)
theorem W4_main_v4_0 (c : Dev nD) : W4 m c (Proc.devRef .tc main_v4_0) = (dat2 (V3 m) c).arrAt 3 cfg2.N := W4_arr m c 3
theorem W4_main_v4_1 (c : Dev nD) : W4 m c (Proc.devRef .tc main_v4_1) = (dat2 (V3 m) c).arrAt 4 cfg2.N := W4_arr m c 4

end Cert.KernelIdeal.Fr

end
-- ==== Proof.Labels.lean ====
/-
  The label column and the label row the kernel regions read are the host's two reshapes of the label vector:
  entry (r, 0) of the column and entry (0, r) of the row are both the label of row r.
-/
import proofs.«428835_j7438883356860_1_alg».proof.Proof.Walk
import Idealize.ShloMosaic.Lib.StableHlo.Run
import Idealize.ShloMosaic.Lib.Pipeline.Value
import Idealize.ShloMosaic.Lib.ValueIdx

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx
variable (m : (ℓ : Loc nD τ sig) → Buf (Elt F) ℓ)

/-- The label column at the first region's entry is the label vector reshaped to (4096, 1). -/
theorem V1_main_v0 (c : Dev nD) : (V1 m c main_v0 : S4096x1.Idx → BitVec 32)
    = shapeCast S4096x1 (m ((c : Thread nD τ).loc main_arg5) : S4096.Idx → BitVec 32) shapeCasts_S4096_S4096x1 := by
  dsimp only [V1, W1, W0, hostOps0]; after_results; rfl

/-- The label row is the column reshaped to (1, 4096). -/
theorem V1_main_v1 (c : Dev nD) : (V1 m c main_v1 : S1x4096.Idx → BitVec 32)
    = shapeCast S1x4096 (shapeCast S4096x1 (m ((c : Thread nD τ).loc main_arg5) : S4096.Idx → BitVec 32) shapeCasts_S4096_S4096x1) shapeCasts_S4096x1_S1x4096 := by
  dsimp only [V1, W1, W0, hostOps0]; after_results; rfl

/-- Entry (r, 0) of the label column is the label of row r. -/
theorem V1_main_v0_apply (c : Dev nD) (r : Fin 4096) :
    (V1 m c main_v0 : S4096x1.Idx → BitVec 32) (ix2 r 0) = (m ((c : Thread nD τ).loc main_arg5) : S4096.Idx → BitVec 32) (ix1 r) := by
  rw [V1_main_v0]
  refine shapeCast_apply _ _ _ _ ?_
  show ((⟨1, ![4096]⟩ : Shape).rowMajor (ix1 r)).val = ((⟨2, ![4096, 1]⟩ : Shape).rowMajor (ix2 r 0)).val
  rw [Shape.rowMajor_val_one, Shape.rowMajor_val_two]
  simp [ix1, ix2]

/-- Entry (0, j) of the label row is the label of row j. -/
theorem V1_main_v1_apply (c : Dev nD) (j : Fin 4096) :
    (V1 m c main_v1 : S1x4096.Idx → BitVec 32) (ix2 0 j) = (m ((c : Thread nD τ).loc main_arg5) : S4096.Idx → BitVec 32) (ix1 j) := by
  rw [V1_main_v1]
  refine (shapeCast_apply _ _ _ (ix2 j 0) ?_).trans ?_
  · rw [Shape.rowMajor_val_two, Shape.rowMajor_val_two]; simp [ix2]
  · refine shapeCast_apply _ _ _ _ ?_
    show ((⟨1, ![4096]⟩ : Shape).rowMajor (ix1 j)).val = ((⟨2, ![4096, 1]⟩ : Shape).rowMajor (ix2 j 0)).val
    rw [Shape.rowMajor_val_one, Shape.rowMajor_val_two]
    simp [ix1, ix2]

end Cert.KernelIdeal.Fr

end
-- ==== Proof.Spec.lean ====
/-
  The loss both programs compute, as plain mathematics over the extended reals.

  Inputs: logits c (4096 rows, 1024 classes), three side features a₂, a₃, a₄ (4096 × 512), embeddings x (4096 × 512)
  and integer labels t (4096). The loss is

      1·T + ½·X + (1/10)·(√A + √B),

  T the mean over rows r of max(hardest-positive(r) − hardest-negative(r) + 0, 0), where the distance of rows r, j is
  √max(ε, |x_r|² + |x_j|² − 2·⟨x_r, x_j⟩), the hardest positive is the largest distance to a row with r's label (rows
  with another label counting as −M, M the largest finite single-precision number) and the hardest negative the smallest
  distance to a row with another label (rows with r's label counting as M); X the mean cross-entropy of the rows;
  A and B the sums of squares of a₄ − a₂ and a₄ − a₃.

  The two programs differ in three places, and each form is stated here with the lemma that joins them (Bridge):
  the kernel folds the maximum and the minimum tile by tile starting from −M and M instead of −∞ and +∞; it computes
  a row's cross-entropy as (log Σ exp(c − max) + max) − (the logit picked by a one-hot sum) where the reference
  computes −((c_t − max) − log Σ exp(c − max)) and negates the mean; and it accumulates A and B tile by tile.
-/
import Idealize.ShloMosaic.PureOps.Ideal
import Idealize.ShloMosaic.Lib.ValueIdx

noncomputable section

namespace Cert.Spec

open Idealize.ShloMosaic

/-! ## The literals (the same words in both programs) -/

abbrev eps : EReal := Ideal.ofBits .f32 0x2B8CBCCC#32
abbrev two : EReal := Ideal.ofBits .f32 0x40000000#32
abbrev big : EReal := Ideal.ofBits .f32 0x7F7FFFFF#32
abbrev nbig : EReal := Ideal.ofBits .f32 0xFF7FFFFF#32
abbrev n4096 : EReal := Ideal.ofBits .f32 0x45800000#32
abbrev one : EReal := Ideal.ofBits .f32 0x3F800000#32
abbrev half : EReal := Ideal.ofBits .f32 0x3F000000#32
abbrev tenth : EReal := Ideal.ofBits .f32 0x3DCCCCCD#32

/-! ## Pairwise distances and hard mining -/

section Triplet
variable (x : Fin 4096 → Fin 512 → EReal) (t : Fin 4096 → BitVec 32)

/-- The squared norm of row r. -/
def sq (r : Fin 4096) : EReal := ∑ d : Fin 512, x r d * x r d
/-- The inner product of rows r and j. -/
def gram (r j : Fin 4096) : EReal := ∑ d : Fin 512, x r d * x j d
/-- The clipped Euclidean distance of rows r and j. -/
def dist (r j : Fin 4096) : EReal := Ideal.sqrt (max eps ((sq x r + sq x j) - two * gram x r j))
/-- Row r against row j for the hardest positive: the distance when the labels agree, else the fill `lo`. -/
def posEntry (lo : EReal) (r j : Fin 4096) : EReal := if t r = t j then dist x r j else lo
/-- Row r against row j for the hardest negative: the fill `hi` when the labels agree, else the distance. -/
def negEntry (hi : EReal) (r j : Fin 4096) : EReal := if t r = t j then hi else dist x r j

/-- The reference's hardest positive: the supremum over all rows j (from −∞), the fill −M. -/
def hardPos (r : Fin 4096) : EReal := Finset.univ.sup fun j : Fin 4096 => posEntry x t (-big) r j
/-- The reference's hardest negative: the infimum over all rows j (from +∞), the fill M. -/
def hardNeg (r : Fin 4096) : EReal := Finset.univ.inf fun j : Fin 4096 => negEntry x t big r j

/-- Row j of tile k (tiles of 512 rows). -/
def tileRow (k : Fin 8) (q : Fin 512) : Fin 4096 := ⟨512 * k.val + q.val, by have := k.isLt; have := q.isLt; omega⟩

/-- The kernel's running maximum after the tiles 0 … n−1: from the word −M, each tile's supremum (from −∞) joined in. -/
def runPos (r : Fin 4096) : ℕ → EReal
  | 0 => nbig
  | n + 1 => max (runPos r n) (if h : n < 8 then Finset.univ.sup fun q : Fin 512 => posEntry x t nbig r (tileRow ⟨n, h⟩ q) else ⊥)
/-- The kernel's running minimum after the tiles 0 … n−1: from M, each tile's infimum (from +∞) joined in. -/
def runNeg (r : Fin 4096) : ℕ → EReal
  | 0 => big
  | n + 1 => min (runNeg r n) (if h : n < 8 then Finset.univ.inf fun q : Fin 512 => negEntry x t big r (tileRow ⟨n, h⟩ q) else ⊤)

/-- The mean hinge of given hardest positives and negatives. -/
def hingeMean (p q : Fin 4096 → EReal) : EReal := Ideal.div (0 + ∑ r : Fin 4096, max ((p r - q r) + 0) 0) n4096

end Triplet

/-! ## Cross-entropy -/

section Xent
variable (c : Fin 4096 → Fin 1024 → EReal) (t : Fin 4096 → BitVec 32)

/-- The row maximum (from −∞). -/
def rowMax (r : Fin 4096) : EReal := Finset.univ.sup fun k : Fin 1024 => c r k
/-- Σ over the classes of exp(logit − row maximum). -/
def sumExp (r : Fin 4096) : EReal := ∑ k : Fin 1024, Ideal.exp (c r k - rowMax c r)
/-- The kernel's row loss: (log Σ exp + max) − Σ_k [k = label] · logit. -/
def rowLossK (r : Fin 4096) : EReal :=
  (Ideal.log (sumExp c r) + rowMax c r) - ∑ k : Fin 1024, (if BitVec.ofNat 32 k.val = t r then c r k else 0)
/-- The reference's log-probability of class k in row r. -/
def logProb (r : Fin 4096) (k : Fin 1024) : EReal := (c r k - rowMax c r) - Ideal.log (sumExp c r)
/-- The kernel's mean cross-entropy. -/
def xentK : EReal := Ideal.div (0 + ∑ r : Fin 4096, rowLossK c t r) n4096
/-- The reference's: the mean of the picked log-probabilities (label read as a class index), negated. -/
def xentR (pick : Fin 4096 → Fin 1024) : EReal := -(Ideal.div (0 + ∑ r : Fin 4096, logProb c r (pick r)) n4096)

end Xent

/-! ## Sums of squared differences -/

section Frob
variable (a b : Fin 4096 → Fin 512 → EReal)

/-- The sum over all entries of (a − b)². -/
def sqDiff : EReal := ∑ r : Fin 4096, ∑ d : Fin 512, (a r d - b r d) * (a r d - b r d)
/-- One tile's share: rows 512·k … 512·k+511. -/
def sqDiffTile (k : Fin 8) : EReal := ∑ q : Fin 512, ∑ d : Fin 512, (a (tileRow k q) d - b (tileRow k q) d) * (a (tileRow k q) d - b (tileRow k q) d)
/-- The kernel's accumulator after tiles 0 … n−1, from zero. -/
def accSq : ℕ → EReal
  | 0 => 0
  | n + 1 => accSq n + (if h : n < 8 then sqDiffTile a b ⟨n, h⟩ else 0)

end Frob

/-- The loss from its four parts. -/
def loss (T X A B : EReal) : EReal := (one * T + half * X) + tenth * (Ideal.sqrt A + Ideal.sqrt B)

end Cert.Spec

end
-- ==== Proof.Val0Tile.lean ====
import proofs.«428835_j7438883356860_1_alg».proof.Proof.Gen.KernelIdeal
import proofs.«428835_j7438883356860_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Affine

/-! One key tile of the pairwise-distance pass, read index by index over the extended reals: the squared norms, the
    Gram matrix of the query tile against the key tile, the clipped distance, the label mask, and the row maximum /
    row minimum of the masked distances. -/

noncomputable section

namespace Cert.KernelIdeal.Val0

open Idealize.ShloMosaic Idealize.ShloMosaic.ValueIdx
open Cert.KernelIdeal Cert.KernelIdeal.Gen

/-! ## The building blocks of one tile, as the body spells them -/

/-- The squared norm of every row, as a column. -/
def sqCol (k : FVec Ideal S512x512 .f32) : FVec Ideal S512x1 .f32 :=
  shapeCast S512x1 (multiReduction (F := Ideal) .add [1] S512 (mulf k k) 0x00000000#32 reduces_S512x512_S512 (.inl rfl) rfl)
    shapeCasts_S512_S512x1
/-- The same laid out as a row. -/
def sqRow (k : FVec Ideal S512x512 .f32) : FVec Ideal S1x512 .f32 :=
  transpose S1x512 [1, 0] (sqCol k) transposes_S512x1_p1_0_S1x512
/-- The Gram matrix of the rows of `a` against the rows of `b`. -/
def gramT (a b : FVec Ideal S512x512 .bf16) : FVec Ideal S512x512 .f32 :=
  matmul dot_S512x512_S512x512_S512x512_1_0_0_1_n_n none a
    (transpose S512x512 [1, 0] b transposes_S512x512_p1_0_S512x512) (constant (F := Ideal) S512x512 .f32 0x00000000#32)
/-- `|x_p|² + |y_q|² − 2·⟨x_p, y_q⟩` from the query tile's norms (a column), the key tile's (a row) and the two tiles. -/
def d2T (v9 : FVec Ideal S512x1 .f32) (v10 : FVec Ideal S512x512 .bf16) (k : FVec Ideal S512x512 .f32)
    (sr : FVec Ideal S1x512 .f32) : FVec Ideal S512x512 .f32 :=
  subf (addf (broadcastTo S512x512 v9 broadcasts_S512x1_S512x512) (broadcastTo S512x512 sr broadcasts_S1x512_S512x512))
    (mulf (broadcast S512x512 (Scalar.ofBits (F := Ideal) .f32 0x40000000#32))
      (gramT v10 (truncf .bf16 k bitsLt_bf16_f32)))
/-- The clipped distance. -/
def distT (e : Ideal .f32) (d2 : FVec Ideal S512x512 .f32) : FVec Ideal S512x512 .f32 :=
  sqrt (maximumf (broadcast S512x512 e) d2)
/-- The label mask: query row `p` and key row `q` carry the same label. -/
def eqT (v6 : IVec S512x1 32) (kl : IVec S1x512 32) : IVec S512x512 1 :=
  cmpi .eq (broadcastTo S512x512 v6 broadcasts_S512x1_S512x512) (broadcastTo S512x512 kl broadcasts_S1x512_S512x512)
/-- The row maximum (from −∞), as a column. -/
def rowMaxT (x : FVec Ideal S512x512 .f32) : FVec Ideal S512x1 .f32 :=
  shapeCast S512x1 (multiReduction (F := Ideal) .maximumf [1] S512 x 0xFF800000#32 reduces_S512x512_S512 (.inl rfl) rfl)
    shapeCasts_S512_S512x1
/-- The row minimum (from +∞), as a column. -/
def rowMinT (x : FVec Ideal S512x512 .f32) : FVec Ideal S512x1 .f32 :=
  shapeCast S512x1 (multiReduction (F := Ideal) .minimumf [1] S512 x 0x7F800000#32 reduces_S512x512_S512 (.inl rfl) rfl)
    shapeCasts_S512_S512x1

/-! ## Layout operations at an index -/

/-- A vector cast to a column reads, at `(p, 0)`, the vector at `p`. -/
theorem shapeCast_col_apply {α : Type} (x : S512.Idx → α) (p : Fin 512) (u : Fin 1) :
    shapeCast S512x1 x shapeCasts_S512_S512x1 (ix2 p u) = x (ix1 p) :=
  shapeCast_apply x shapeCasts_S512_S512x1 _ _ (by
    have hu : u.val = 0 := by omega
    rw [Shape.rowMajor_val_two, Shape.rowMajor_val_one]
    show p.val = p.val * 1 + u.val
    omega)

/-- A column broadcast along the rows reads, at `(p, q)`, the column at `p`. -/
theorem bcast_col_apply {α : Type} (v : S512x1.Idx → α) (p q : Fin 512) :
    broadcastTo S512x512 v broadcasts_S512x1_S512x512 (ix2 p q) = v (ix2 p (0 : Fin 1)) := by
  refine broadcastTo_apply v broadcasts_S512x1_S512x512 (ix2 p q) (ix2 p (0 : Fin 1)) fun ax => ?_
  match ax with
  | ⟨0, _⟩ => rfl
  | ⟨1, _⟩ => rfl

/-- A row broadcast along the columns reads, at `(p, q)`, the row at `q`. -/
theorem bcast_row_apply {α : Type} (v : S1x512.Idx → α) (p q : Fin 512) :
    broadcastTo S512x512 v broadcasts_S1x512_S512x512 (ix2 p q) = v (ix2 (0 : Fin 1) q) :=
  broadcastTo_1b_ab_apply v broadcasts_S1x512_S512x512 p q

/-- The index a reduction over the columns inserts is `(p, d)`. -/
theorem lift_row (p d : Fin 512) : reduces_S512x512_S512.lift (ix1 p) d = ix2 p d :=
  funext fun a => Fin.ext (by match a with | ⟨0, _⟩ => rfl | ⟨1, _⟩ => rfl)

/-! ## The blocks at an index -/

theorem sqCol_apply (k : FVec Ideal S512x512 .f32) (p : Fin 512) (u : Fin 1) :
    sqCol k (ix2 p u) = ∑ d : Fin 512, k (ix2 p d) * k (ix2 p d) := by
  unfold sqCol
  refine (shapeCast_col_apply _ p u).trans ?_
  refine (Ideal.multiReduction_add_single (mulf k k) 0x00000000#32 reduces_S512x512_S512 (.inl rfl) rfl (ix1 p)).trans ?_
  refine Finset.sum_congr rfl fun d _ => ?_
  exact congrArg (fun i => k i * k i) (lift_row p d)

theorem sqRow_apply (k : FVec Ideal S512x512 .f32) (q : Fin 512) :
    sqRow k (ix2 (0 : Fin 1) q) = ∑ d : Fin 512, k (ix2 q d) * k (ix2 q d) :=
  (transpose_ix2_apply (sqCol k) transposes_S512x1_p1_0_S1x512 0 q).trans (sqCol_apply k q 0)

/-! ## The Gram matrix at an index -/

theorem gram_lhs_0 (i : S512x512.Idx) (q : dot_S512x512_S512x512_S512x512_1_0_0_1_n_n.contr.Idx) :
    (dot_S512x512_S512x512_S512x512_1_0_0_1_n_n.lhsIdx i q 0).val = (i 0).val := by
  unfold DotDims.lhsIdx
  rw [dif_neg (show ¬(0 : Fin S512x512.rank) ∈ dot_S512x512_S512x512_S512x512_1_0_0_1_n_n.lhsBatch by decide), dif_pos (show (0 : Fin S512x512.rank) ∈ dot_S512x512_S512x512_S512x512_1_0_0_1_n_n.lhsNonContracting by decide)]
  rfl
theorem gram_lhs_1 (i : S512x512.Idx) (q : dot_S512x512_S512x512_S512x512_1_0_0_1_n_n.contr.Idx) :
    (dot_S512x512_S512x512_S512x512_1_0_0_1_n_n.lhsIdx i q 1).val = (q ⟨0, by decide⟩).val :=
  dot_S512x512_S512x512_S512x512_1_0_0_1_n_n.lhsIdx_val_of_single rfl i q
theorem gram_rhs_0 (i : S512x512.Idx) (q : dot_S512x512_S512x512_S512x512_1_0_0_1_n_n.contr.Idx) :
    (dot_S512x512_S512x512_S512x512_1_0_0_1_n_n.rhsIdx i q 0).val = (q ⟨0, by decide⟩).val :=
  dot_S512x512_S512x512_S512x512_1_0_0_1_n_n.rhsIdx_val_of_single rfl i q
theorem gram_rhs_1 (i : S512x512.Idx) (q : dot_S512x512_S512x512_S512x512_1_0_0_1_n_n.contr.Idx) :
    (dot_S512x512_S512x512_S512x512_1_0_0_1_n_n.rhsIdx i q 1).val = (i 1).val := by
  unfold DotDims.rhsIdx
  rw [dif_neg (show ¬(1 : Fin S512x512.rank) ∈ dot_S512x512_S512x512_S512x512_1_0_0_1_n_n.rhsBatch by decide), dif_pos (show (1 : Fin S512x512.rank) ∈ dot_S512x512_S512x512_S512x512_1_0_0_1_n_n.rhsNonContracting by decide)]
  rfl

/-- The product against the transposed key tile, into a zero accumulator: the inner products of the rows. -/
theorem gramT_apply (a b : FVec Ideal S512x512 .bf16) (p q : Fin 512) :
    gramT a b (ix2 p q) = ∑ d : Fin 512, a (ix2 p d) * b (ix2 q d) := by
  unfold gramT
  simp only [matmul]
  rw [Ideal.matmul_constant_zero_apply, ← Equiv.sum_comp (ValueIdx.contrEquiv1 dot_S512x512_S512x512_S512x512_1_0_0_1_n_n 512 rfl rfl).symm]
  refine Finset.sum_congr rfl fun k _ => ?_
  have hk := ValueIdx.contrEquiv1_symm_val dot_S512x512_S512x512_S512x512_1_0_0_1_n_n 512 rfl rfl k
  have el : dot_S512x512_S512x512_S512x512_1_0_0_1_n_n.lhsIdx (ix2 p q) ((ValueIdx.contrEquiv1 dot_S512x512_S512x512_S512x512_1_0_0_1_n_n 512 rfl rfl).symm k) = ix2 p k := funext fun ax => Fin.ext (by
    match ax with
    | ⟨0, _⟩ => exact gram_lhs_0 _ _
    | ⟨1, _⟩ => exact (gram_lhs_1 _ _).trans hk)
  have er : dot_S512x512_S512x512_S512x512_1_0_0_1_n_n.rhsIdx (ix2 p q) ((ValueIdx.contrEquiv1 dot_S512x512_S512x512_S512x512_1_0_0_1_n_n 512 rfl rfl).symm k) = ix2 k q := funext fun ax => Fin.ext (by
    match ax with
    | ⟨0, _⟩ => exact (gram_rhs_0 _ _).trans hk
    | ⟨1, _⟩ => exact gram_rhs_1 _ _)
  rw [el, er]
  exact congrArg (a (ix2 p k) * ·) (transpose_ix2_apply b transposes_S512x512_p1_0_S512x512 k q)

/-- The squared distance before clipping, at `(p, q)`. -/
theorem d2T_apply (v9 : FVec Ideal S512x1 .f32) (v10 : FVec Ideal S512x512 .bf16) (k : FVec Ideal S512x512 .f32)
    (sr : FVec Ideal S1x512 .f32) (p q : Fin 512) :
    d2T v9 v10 k sr (ix2 p q)
      = (v9 (ix2 p (0 : Fin 1)) + sr (ix2 (0 : Fin 1) q)) - Cert.Spec.two * ∑ d : Fin 512, v10 (ix2 p d) * k (ix2 q d) := by
  unfold d2T
  show (broadcastTo S512x512 v9 broadcasts_S512x1_S512x512 (ix2 p q) + broadcastTo S512x512 sr broadcasts_S1x512_S512x512 (ix2 p q))
      - Cert.Spec.two * gramT v10 (truncf .bf16 k bitsLt_bf16_f32) (ix2 p q) = _
  rw [bcast_col_apply, bcast_row_apply, gramT_apply]
  rfl

/-- The label mask at `(p, q)`. -/
theorem eqT_apply (v6 : IVec S512x1 32) (kl : IVec S1x512 32) (p q : Fin 512) :
    eqT v6 kl (ix2 p q) = IntOp.cmpi .eq (v6 (ix2 p (0 : Fin 1))) (kl (ix2 (0 : Fin 1) q)) := by
  unfold eqT
  show IntOp.cmpi .eq (broadcastTo S512x512 v6 broadcasts_S512x1_S512x512 (ix2 p q)) (broadcastTo S512x512 kl broadcasts_S1x512_S512x512 (ix2 p q)) = _
  rw [bcast_col_apply, bcast_row_apply]

/-- A select on an equality test is the `if`. -/
theorem select_cmpi_eq {α : Type} (x y : BitVec 32) (a b : α) :
    Scalar.select (IntOp.cmpi .eq x y) a b = if x = y then a else b := by
  unfold Scalar.select
  by_cases h : x = y
  · rw [if_pos h]; exact if_pos ((IntOp.cmpi_eq).2 h)
  · rw [if_neg h]; exact if_neg (fun e => h ((IntOp.cmpi_eq).1 e))

/-! ## Row maxima and minima -/

theorem ofBits_neg_inf : Ideal.ofBits .f32 0xFF800000#32 = (⊥ : EReal) := by simp [Ideal.ofBits, Ideal.ieee]
theorem ofBits_pos_inf : Ideal.ofBits .f32 0x7F800000#32 = (⊤ : EReal) := by simp [Ideal.ofBits, Ideal.ieee]

/-- A fold of `max` from −∞ over a whole finite type is the supremum. -/
theorem fold_max_eq_sup {ι : Type} [Fintype ι] (g : ι → EReal) : (Finset.univ : Finset ι).fold max ⊥ g = Finset.univ.sup g :=
  le_antisymm ((Finset.fold_max_le _).2 ⟨bot_le, fun x hx => Finset.le_sup hx⟩)
    (Finset.sup_le fun x hx => (Finset.le_fold_max _).2 (Or.inr ⟨x, hx, le_rfl⟩))
/-- A fold of `min` from +∞ over a whole finite type is the infimum. -/
theorem fold_min_eq_inf {ι : Type} [Fintype ι] (g : ι → EReal) : (Finset.univ : Finset ι).fold min ⊤ g = Finset.univ.inf g :=
  le_antisymm (Finset.le_inf fun x hx => (Finset.fold_min_le _).2 (Or.inr ⟨x, hx, le_rfl⟩))
    ((Finset.le_fold_min _).2 ⟨le_top, fun x hx => Finset.inf_le hx⟩)

/-- The row maximum at `(p, 0)`: the supremum over the row. -/
theorem rowMaxT_apply (x : FVec Ideal S512x512 .f32) (p : Fin 512) (u : Fin 1) :
    rowMaxT x (ix2 p u) = Finset.univ.sup fun q : Fin 512 => x (ix2 p q) := by
  unfold rowMaxT
  refine (shapeCast_col_apply _ p u).trans ?_
  refine (Ideal.multiReduction_maximumf_single x 0xFF800000#32 reduces_S512x512_S512 (.inl rfl) rfl (ix1 p)).trans ?_
  show (Finset.univ : Finset (Fin 512)).fold max (Ideal.ofBits .f32 0xFF800000#32) (x ∘ reduces_S512x512_S512.lift (ix1 p)) = _
  rw [ofBits_neg_inf]
  refine (fold_max_eq_sup (ι := Fin 512) _).trans ?_
  exact congrArg (Finset.univ.sup) (funext fun q => congrArg x (lift_row p q))

/-- The row minimum at `(p, 0)`: the infimum over the row. -/
theorem rowMinT_apply (x : FVec Ideal S512x512 .f32) (p : Fin 512) (u : Fin 1) :
    rowMinT x (ix2 p u) = Finset.univ.inf fun q : Fin 512 => x (ix2 p q) := by
  unfold rowMinT
  refine (shapeCast_col_apply _ p u).trans ?_
  refine (multiReduction_minimumf_eq_fold (F := Ideal) x 0x7F800000#32 reduces_S512x512_S512 (.inl rfl) rfl (ix1 p)).trans ?_
  refine (reduces_S512x512_S512.fold_filter_drop_single _ _ x (ix1 p)).trans ?_
  show (Finset.univ : Finset (Fin 512)).fold min (Ideal.ofBits .f32 0x7F800000#32) (x ∘ reduces_S512x512_S512.lift (ix1 p)) = _
  rw [ofBits_pos_inf]
  refine (fold_min_eq_inf (ι := Fin 512) _).trans ?_
  exact congrArg (Finset.univ.inf) (funext fun q => congrArg x (lift_row p q))

/-! ## One tile against the specification -/

section Tile

open Cert.Spec (tileRow)

variable (X : Fin 4096 → Fin 512 → EReal) (T : Fin 4096 → BitVec 32)

/-- The query side of the pass at tile `i`: the labels as a column, the squared norms as a column, the rows. -/
structure QSide (i : Fin 8) (v6 : IVec S512x1 32) (v9 : FVec Ideal S512x1 .f32) (v10 : FVec Ideal S512x512 .bf16) : Prop where
  lab : ∀ p : Fin 512, v6 (ix2 p (0 : Fin 1)) = T (tileRow i p)
  sq : ∀ p : Fin 512, v9 (ix2 p (0 : Fin 1)) = Cert.Spec.sq X (tileRow i p)
  row : ∀ p d : Fin 512, v10 (ix2 p d) = X (tileRow i p) d

/-- The key side at tile `j`: the rows, and the labels as a row. -/
structure KSide (j : Fin 8) (k : FVec Ideal S512x512 .f32) (kl : IVec S1x512 32) : Prop where
  lab : ∀ q : Fin 512, kl (ix2 (0 : Fin 1) q) = T (tileRow j q)
  row : ∀ q d : Fin 512, k (ix2 q d) = X (tileRow j q) d

variable {X T}
variable {i j : Fin 8} {v6 : IVec S512x1 32} {v9 : FVec Ideal S512x1 .f32} {v10 : FVec Ideal S512x512 .bf16}
  {k : FVec Ideal S512x512 .f32} {kl : IVec S1x512 32}

/-- The clipped distance of query row `p` of tile `i` and key row `q` of tile `j`. -/
theorem dist_apply (hq : QSide X T i v6 v9 v10) (hk : KSide X T j k kl) (p q : Fin 512) :
    distT (Scalar.ofBits (F := Ideal) .f32 0x2B8CBCCC#32) (d2T v9 v10 k (sqRow k)) (ix2 p q)
      = Cert.Spec.dist X (tileRow i p) (tileRow j q) := by
  show Ideal.sqrt (max Cert.Spec.eps (d2T v9 v10 k (sqRow k) (ix2 p q))) = _
  rw [d2T_apply, sqRow_apply, hq.sq]
  unfold Cert.Spec.dist Cert.Spec.sq Cert.Spec.gram
  simp only [hq.row, hk.row]

/-- The masked distances for the hardest positive, reduced along the key tile. -/
theorem tilePos_apply (hq : QSide X T i v6 v9 v10) (hk : KSide X T j k kl) (p : Fin 512) (u : Fin 1) :
    rowMaxT (select (eqT v6 kl) (distT (Scalar.ofBits (F := Ideal) .f32 0x2B8CBCCC#32) (d2T v9 v10 k (sqRow k)))
        (broadcast S512x512 (Scalar.ofBits (F := Ideal) .f32 0xFF7FFFFF#32))) (ix2 p u)
      = Finset.univ.sup fun q : Fin 512 => Cert.Spec.posEntry X T Cert.Spec.nbig (tileRow i p) (tileRow j q) := by
  rw [rowMaxT_apply]
  refine congrArg (Finset.univ.sup) (funext fun q => ?_)
  rw [select_apply, eqT_apply, select_cmpi_eq, dist_apply hq hk, hq.lab, hk.lab]
  rfl

/-- The masked distances for the hardest negative, reduced along the key tile. -/
theorem tileNeg_apply (hq : QSide X T i v6 v9 v10) (hk : KSide X T j k kl) (p : Fin 512) (u : Fin 1) :
    rowMinT (select (eqT v6 kl) (broadcast S512x512 (Scalar.ofBits (F := Ideal) .f32 0x7F7FFFFF#32))
        (distT (Scalar.ofBits (F := Ideal) .f32 0x2B8CBCCC#32) (d2T v9 v10 k (sqRow k)))) (ix2 p u)
      = Finset.univ.inf fun q : Fin 512 => Cert.Spec.negEntry X T Cert.Spec.big (tileRow i p) (tileRow j q) := by
  rw [rowMinT_apply]
  refine congrArg (Finset.univ.inf) (funext fun q => ?_)
  rw [select_apply, eqT_apply, select_cmpi_eq, dist_apply hq hk, hq.lab, hk.lab]
  rfl

/-- The running maximum after one more tile. -/
theorem runPos_succ (r : Fin 4096) (j : Fin 8) :
    Cert.Spec.runPos X T r (j.val + 1)
      = max (Cert.Spec.runPos X T r j.val) (Finset.univ.sup fun q : Fin 512 => Cert.Spec.posEntry X T Cert.Spec.nbig r (tileRow j q)) := by
  show max _ (dite _ _ _) = _
  rw [dif_pos j.isLt]
/-- The running minimum after one more tile. -/
theorem runNeg_succ (r : Fin 4096) (j : Fin 8) :
    Cert.Spec.runNeg X T r (j.val + 1)
      = min (Cert.Spec.runNeg X T r j.val) (Finset.univ.inf fun q : Fin 512 => Cert.Spec.negEntry X T Cert.Spec.big r (tileRow j q)) := by
  show min _ (dite _ _ _) = _
  rw [dif_pos j.isLt]

/-- One step of the hardest-positive fold: the running maximum joined with tile `j`'s row maxima. -/
theorem stepPos (hq : QSide X T i v6 v9 v10) (hk : KSide X T j k kl) (prev : FVec Ideal S512x1 .f32) (p : Fin 512) (u : Fin 1)
    (hprev : prev (ix2 p u) = Cert.Spec.runPos X T (tileRow i p) j.val) :
    maximumf prev (rowMaxT (select (eqT v6 kl) (distT (Scalar.ofBits (F := Ideal) .f32 0x2B8CBCCC#32) (d2T v9 v10 k (sqRow k)))
        (broadcast S512x512 (Scalar.ofBits (F := Ideal) .f32 0xFF7FFFFF#32)))) (ix2 p u)
      = Cert.Spec.runPos X T (tileRow i p) (j.val + 1) := by
  rw [runPos_succ, maximumf_apply, hprev, tilePos_apply hq hk]
/-- One step of the hardest-negative fold. -/
theorem stepNeg (hq : QSide X T i v6 v9 v10) (hk : KSide X T j k kl) (prev : FVec Ideal S512x1 .f32) (p : Fin 512) (u : Fin 1)
    (hprev : prev (ix2 p u) = Cert.Spec.runNeg X T (tileRow i p) j.val) :
    minimumf prev (rowMinT (select (eqT v6 kl) (broadcast S512x512 (Scalar.ofBits (F := Ideal) .f32 0x7F7FFFFF#32))
        (distT (Scalar.ofBits (F := Ideal) .f32 0x2B8CBCCC#32) (d2T v9 v10 k (sqRow k))))) (ix2 p u)
      = Cert.Spec.runNeg X T (tileRow i p) (j.val + 1) := by
  rw [runNeg_succ, minimumf_apply, hprev, tileNeg_apply hq hk]

end Tile

end Cert.KernelIdeal.Val0

end
-- ==== Proof.Val0.lean ====
import proofs.«428835_j7438883356860_1_alg».proof.Proof.Reg0
import proofs.«428835_j7438883356860_1_alg».proof.Proof.Val0Tile
import Idealize.ShloMosaic.Lib.Pipeline.Value
import Idealize.ShloMosaic.Lib.ValueIdx
import Idealize.ShloMosaic.Lib.ValueLayout
import Idealize.ShloMosaic.PureOps.Ideal.Laws

/-! The value of region 0: after the eight query tiles have been written back, the two result columns hold, at row
    `r`, the running maximum of the positive entries and the running minimum of the negative entries of row `r` over
    the eight key tiles in order. -/

set_option maxRecDepth 16384

noncomputable section

namespace Cert.KernelIdeal.Val0

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Fr
open Cert.Spec (tileRow)

/-! ## The chain of payloads as eight tile steps -/

section Chain

variable (i : grid0.Coords) (x0 : Vec Ideal S4096x512 .f32) (x1 : Vec Ideal S4096x1 .i32) (x2 : Vec Ideal S1x4096 .i32)

/-- Key tile `j`'s labels as the body compares them. -/
def kl (j : Fin 8) : IVec S1x512 32 := shapeCast S1x512 (kLab x2 j) shapeCasts_S1x512_S1x512

/-- Tile `j`'s row maxima of the masked distances, -/
def tPos (j : Fin 8) : FVec Ideal S512x1 .f32 :=
  rowMaxT (select (eqT (qLabI i x1) (kl x2 j))
    (distT (Scalar.ofBits (F := Ideal) .f32 0x2B8CBCCC#32) (d2T (qSq i x0) (qB i x0) (kTile x0 j) (sqRow (kTile x0 j))))
    (broadcast S512x512 (Scalar.ofBits (F := Ideal) .f32 0xFF7FFFFF#32)))
/-- and its row minima. -/
def tNeg (j : Fin 8) : FVec Ideal S512x1 .f32 :=
  rowMinT (select (eqT (qLabI i x1) (kl x2 j)) (broadcast S512x512 (Scalar.ofBits (F := Ideal) .f32 0x7F7FFFFF#32))
    (distT (Scalar.ofBits (F := Ideal) .f32 0x2B8CBCCC#32) (d2T (qSq i x0) (qB i x0) (kTile x0 j) (sqRow (kTile x0 j)))))

theorem mx1_eq : mx1 (F := Ideal) i x0 x1 x2
    = maximumf (maximumf (k0_pay8 (F := Ideal)) (tPos i x0 x1 x2 0)) (tPos i x0 x1 x2 1) := rfl
theorem mn1_eq : mn1 (F := Ideal) i x0 x1 x2
    = minimumf (minimumf (k0_pay9 (F := Ideal)) (tNeg i x0 x1 x2 0)) (tNeg i x0 x1 x2 1) := rfl
theorem mx2_eq : mx2 (F := Ideal) i x0 x1 x2 = maximumf (mx1 i x0 x1 x2) (tPos i x0 x1 x2 2) := rfl
theorem mn2_eq : mn2 (F := Ideal) i x0 x1 x2 = minimumf (mn1 i x0 x1 x2) (tNeg i x0 x1 x2 2) := rfl
theorem mx3_eq : mx3 (F := Ideal) i x0 x1 x2 = maximumf (mx2 i x0 x1 x2) (tPos i x0 x1 x2 3) := rfl
theorem mn3_eq : mn3 (F := Ideal) i x0 x1 x2 = minimumf (mn2 i x0 x1 x2) (tNeg i x0 x1 x2 3) := rfl
theorem mx4_eq : mx4 (F := Ideal) i x0 x1 x2 = maximumf (mx3 i x0 x1 x2) (tPos i x0 x1 x2 4) := rfl
theorem mn4_eq : mn4 (F := Ideal) i x0 x1 x2 = minimumf (mn3 i x0 x1 x2) (tNeg i x0 x1 x2 4) := rfl
theorem mx6_eq : mx6 (F := Ideal) i x0 x1 x2
    = maximumf (maximumf (mx4 i x0 x1 x2) (tPos i x0 x1 x2 5)) (tPos i x0 x1 x2 6) := rfl
theorem mn6_eq : mn6 (F := Ideal) i x0 x1 x2
    = minimumf (minimumf (mn4 i x0 x1 x2) (tNeg i x0 x1 x2 5)) (tNeg i x0 x1 x2 6) := rfl
theorem mx7_eq : mx7 (F := Ideal) i x0 x1 x2 = maximumf (mx6 i x0 x1 x2) (tPos i x0 x1 x2 7) := rfl
theorem mn7_eq : mn7 (F := Ideal) i x0 x1 x2 = minimumf (mn6 i x0 x1 x2) (tNeg i x0 x1 x2 7) := rfl

end Chain

/-! ## The loaded tiles as rows of the arrays -/

section Sides

variable (x0 : Vec Ideal S4096x512 .f32) (x1 : Vec Ideal S4096x1 .i32) (x2 : Vec Ideal S1x4096 .i32)

/-- The features as a matrix of extended reals, and the labels as a function of the row. -/
abbrev Xof : Fin 4096 → Fin 512 → EReal := fun r d => (x0 : S4096x512.Idx → EReal) (ix2 r d)
abbrev Tof : Fin 4096 → BitVec 32 := fun r => (x1 : S4096x1.Idx → BitVec 32) (ix2 r (0 : Fin 1))

theorem qTile_apply (i : grid0.Coords) (i' : Fin 8) (hi : (i 0).val = i'.val) (p d : Fin 512) :
    qTile i x0 (ix2 p d) = x0 (ix2 (tileRow i' p) d) := by
  unfold qTile
  show x0 ((Rect.unit (s := S4096x512) (k0_off1 i) S512x512.size (k0_off1_inb i)).idx (ix2 p d)) = _
  refine congrArg x0 (funext fun a => Fin.ext ?_)
  match a with
  | ⟨0, _⟩ => show k0_off1 i 0 + 1 * p.val = 512 * i'.val + p.val; rw [k0_off1_eq]; show 512 * (i 0).val + 1 * p.val = _; omega
  | ⟨1, _⟩ => show k0_off1 i 1 + 1 * d.val = d.val; rw [k0_off1_eq]; show 0 + 1 * d.val = d.val; omega

theorem qLab_apply (i : grid0.Coords) (i' : Fin 8) (hi : (i 0).val = i'.val) (p : Fin 512) (u : Fin 1) :
    qLab i x1 (ix2 p u) = x1 (ix2 (tileRow i' p) (0 : Fin 1)) := by
  unfold qLab
  show x1 ((Rect.unit (s := S4096x1) (k0_off2 i) S512x1.size (k0_off2_inb i)).idx (ix2 p u)) = _
  refine congrArg x1 (funext fun a => Fin.ext ?_)
  have hu : u.val = 0 := by omega
  match a with
  | ⟨0, _⟩ => show k0_off2 i 0 + 1 * p.val = 512 * i'.val + p.val; rw [k0_off2_eq]; show 512 * (i 0).val + 1 * p.val = _; omega
  | ⟨1, _⟩ => show k0_off2 i 1 + 1 * u.val = 0; rw [k0_off2_eq]; show 0 + 1 * u.val = 0; omega

theorem kTile_apply (j : Fin 8) (q d : Fin 512) : kTile x0 j (ix2 q d) = x0 (ix2 (tileRow j q) d) := by
  unfold kTile
  show x0 ((Rect.unit (s := S4096x512) (k0_off3 (BitVec.ofNat 32 j.val)) S512x512.size (k0_off3_inb j)).idx (ix2 q d)) = _
  refine congrArg x0 (funext fun a => Fin.ext ?_)
  match a with
  | ⟨0, _⟩ => show k0_off3 (BitVec.ofNat 32 j.val) 0 + 1 * q.val = 512 * j.val + q.val; rw [k0_off3_eq]; show 512 * j.val + 1 * q.val = _; omega
  | ⟨1, _⟩ => show k0_off3 (BitVec.ofNat 32 j.val) 1 + 1 * d.val = d.val; rw [k0_off3_eq]; show 0 + 1 * d.val = d.val; omega

theorem kLab_apply (j : Fin 8) (q : Fin 512) (u : Fin 1) : kLab x2 j (ix2 u q) = x2 (ix2 (0 : Fin 1) (tileRow j q)) := by
  unfold kLab
  show x2 ((Rect.unit (s := S1x4096) (k0_off4 (BitVec.ofNat 32 j.val)) S1x512.size (k0_off4_inb j)).idx (ix2 u q)) = _
  refine congrArg x2 (funext fun a => Fin.ext ?_)
  have hu : u.val = 0 := by omega
  match a with
  | ⟨0, _⟩ => show k0_off4 (BitVec.ofNat 32 j.val) 0 + 1 * u.val = 0; rw [k0_off4_eq]; show 0 + 1 * u.val = 0; omega
  | ⟨1, _⟩ => show k0_off4 (BitVec.ofNat 32 j.val) 1 + 1 * q.val = 512 * j.val + q.val; rw [k0_off4_eq]; show 512 * j.val + 1 * q.val = _; omega

/-- The query side of tile `i` is rows `512·i …` of the arrays. -/
theorem qside (i : grid0.Coords) (i' : Fin 8) (hi : (i 0).val = i'.val) :
    QSide (Xof x0) (Tof x1) i' (qLabI i x1) (qSq i x0) (qB i x0) where
  lab p := by
    show shapeCast S512x1 (qLab i x1) shapeCasts_S512x1_S512x1 (ix2 p (0 : Fin 1)) = _
    rw [shapeCast_self]; exact qLab_apply x1 i i' hi p 0
  sq p := by
    show sqCol (qTile i x0) (ix2 p (0 : Fin 1)) = _
    rw [sqCol_apply]; unfold Cert.Spec.sq
    simp only [qTile_apply x0 i i' hi]
  row p d := qTile_apply x0 i i' hi p d

/-- The key side of tile `j` is rows `512·j …` of the arrays, the labels read off the row array. -/
theorem kside (htrow : ∀ r : Fin 4096, x2 (ix2 (0 : Fin 1) r) = x1 (ix2 r (0 : Fin 1))) (j : Fin 8) :
    KSide (Xof x0) (Tof x1) j (kTile x0 j) (kl x2 j) where
  lab q := by
    show shapeCast S1x512 (kLab x2 j) shapeCasts_S1x512_S1x512 (ix2 (0 : Fin 1) q) = _
    rw [shapeCast_self, kLab_apply, htrow]
  row q d := kTile_apply x0 j q d

end Sides

/-! ## The two result blocks at a row -/

section Block

variable (i : grid0.Coords) (i' : Fin 8) (hi : (i 0).val = i'.val)
  (x0 : Vec Ideal S4096x512 .f32) (x1 : Vec Ideal S4096x1 .i32) (x2 : Vec Ideal S1x4096 .i32)
  (htrow : ∀ r : Fin 4096, x2 (ix2 (0 : Fin 1) r) = x1 (ix2 r (0 : Fin 1)))

include hi htrow

/-- The hardest-positive block of query tile `i`, at row `p`: the running maximum over all eight key tiles. -/
theorem out0_3_apply (p : Fin 512) (u : Fin 1) :
    out0_3 (F := Ideal) i x0 x1 x2 (ix2 p u) = Cert.Spec.runPos (Xof x0) (Tof x1) (tileRow i' p) 8 := by
  have hq := qside x0 x1 i i' hi
  have hk := kside x0 x1 x2 htrow
  rw [out0_3_eq, mx7_eq]
  refine stepPos hq (hk 7) _ p u ?_
  rw [mx6_eq]
  refine stepPos hq (hk 6) _ p u ?_
  refine stepPos hq (hk 5) _ p u ?_
  rw [mx4_eq]
  refine stepPos hq (hk 4) _ p u ?_
  rw [mx3_eq]
  refine stepPos hq (hk 3) _ p u ?_
  rw [mx2_eq]
  refine stepPos hq (hk 2) _ p u ?_
  rw [mx1_eq]
  refine stepPos hq (hk 1) _ p u ?_
  refine stepPos hq (hk 0) _ p u ?_
  rfl

/-- The hardest-negative block of query tile `i`, at row `p`. -/
theorem out0_4_apply (p : Fin 512) (u : Fin 1) :
    out0_4 (F := Ideal) i x0 x1 x2 (ix2 p u) = Cert.Spec.runNeg (Xof x0) (Tof x1) (tileRow i' p) 8 := by
  have hq := qside x0 x1 i i' hi
  have hk := kside x0 x1 x2 htrow
  rw [out0_4_eq, mn7_eq]
  refine stepNeg hq (hk 7) _ p u ?_
  rw [mn6_eq]
  refine stepNeg hq (hk 6) _ p u ?_
  refine stepNeg hq (hk 5) _ p u ?_
  rw [mn4_eq]
  refine stepNeg hq (hk 4) _ p u ?_
  rw [mn3_eq]
  refine stepNeg hq (hk 3) _ p u ?_
  rw [mn2_eq]
  refine stepNeg hq (hk 2) _ p u ?_
  rw [mn1_eq]
  refine stepNeg hq (hk 1) _ p u ?_
  refine stepNeg hq (hk 0) _ p u ?_
  rfl

end Block

/-! ## From the blocks to the arrays -/

section Array

variable (V : (c : Dev nD) → (b : Ref sig .tc) → Buf (Elt Ideal) ((c : Thread nD τ).loc b)) (c : Dev nD)

/-- The printed index maps, decided over the grid: the three inputs' block index never moves, each output's block is
    the point's own, and the body's coordinate is the point. -/
theorem idx_facts : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ (grid0.coords t 0).val = t.val ∧ t.val < 8 :=
  (by decide +kernel : ∀ t : Fin grid0.N, _)

/-- Each input window's block is its whole array. -/
theorem iblk0_0_apply (t : Fin cfg0.N) (y : S4096x512.Idx) :
    (iblk0 V c 0 t : S4096x512.Idx → EReal) y = (V c main_arg4 : S4096x512.Idx → EReal) y := by
  obtain ⟨e00, e01, -⟩ := idx_facts t
  unfold iblk0
  rw [View.read_apply]
  show V c main_arg4 _ = V c main_arg4 _
  congr 1
  funext a
  apply Fin.ext
  match a with
  | ⟨0, _⟩ => show win0_0.index t (0 : Fin 2) * 4096 + 1 * (y 0).val = (y 0).val; rw [e00]; omega
  | ⟨1, _⟩ => show win0_0.index t (1 : Fin 2) * 512 + 1 * (y 1).val = (y 1).val; rw [e01]; omega
theorem iblk0_1_apply (t : Fin cfg0.N) (y : S4096x1.Idx) :
    (iblk0 V c 1 t : S4096x1.Idx → BitVec 32) y = (V c main_v0 : S4096x1.Idx → BitVec 32) y := by
  obtain ⟨-, -, e10, e11, -⟩ := idx_facts t
  unfold iblk0
  rw [View.read_apply]
  show V c main_v0 _ = V c main_v0 _
  congr 1
  funext a
  apply Fin.ext
  match a with
  | ⟨0, _⟩ => show win0_1.index t (0 : Fin 2) * 4096 + 1 * (y 0).val = (y 0).val; rw [e10]; omega
  | ⟨1, _⟩ => show win0_1.index t (1 : Fin 2) * 1 + 1 * (y 1).val = (y 1).val; rw [e11]; omega
theorem iblk0_2_apply (t : Fin cfg0.N) (y : S1x4096.Idx) :
    (iblk0 V c 2 t : S1x4096.Idx → BitVec 32) y = (V c main_v1 : S1x4096.Idx → BitVec 32) y := by
  obtain ⟨-, -, -, -, e20, e21, -⟩ := idx_facts t
  unfold iblk0
  rw [View.read_apply]
  show V c main_v1 _ = V c main_v1 _
  congr 1
  funext a
  apply Fin.ext
  match a with
  | ⟨0, _⟩ => show win0_2.index t (0 : Fin 2) * 1 + 1 * (y 0).val = (y 0).val; rw [e20]; omega
  | ⟨1, _⟩ => show win0_2.index t (1 : Fin 2) * 4096 + 1 * (y 1).val = (y 1).val; rw [e21]; omega

/-- The features and the labels as the region finds them. -/
abbrev XV : Fin 4096 → Fin 512 → EReal := fun r d => (V c main_arg4 : S4096x512.Idx → EReal) (ix2 r d)
abbrev TV : Fin 4096 → BitVec 32 := fun r => (V c main_v0 : S4096x1.Idx → BitVec 32) (ix2 r (0 : Fin 1))

/-- What the two result arrays end holding. -/
abbrev Gpos : S4096x1.Idx → EReal := fun i => Cert.Spec.runPos (XV V c) (TV V c) (i 0) 8
abbrev Gneg : S4096x1.Idx → EReal := fun i => Cert.Spec.runNeg (XV V c) (TV V c) (i 0) 8

variable (htrow : ∀ j : Fin 4096, (V c main_v1 : S1x4096.Idx → BitVec 32) (ix2 (0 : Fin 1) j)
    = (V c main_v0 : S4096x1.Idx → BitVec 32) (ix2 j (0 : Fin 1)))

include htrow

/-- What point `t` writes back into the first result is block `t` of `Gpos`. -/
theorem flushed3_eq (t : Fin cfg0.N) :
    (dat0 (F := Ideal) V c).flushed 3 t = ((cfg0.win 3).blk t).view.read (Elt Ideal) (Gpos V c) := by
  show (cfg0.win 3).cut (grid0.coords t) ((dat0 V c).after 3 t) = _
  rw [after0_3]
  obtain ⟨-, -, -, -, -, -, e30, e31, -, -, eg, elt⟩ := idx_facts t
  funext j
  obtain ⟨p, u, rfl⟩ : ∃ (p : Fin 512) (u : Fin 1), j = ix2 p u := ⟨j 0, j 1, eq_ix2 j⟩
  show out0_3 (grid0.coords t) (iblk0 V c 0 t) (iblk0 V c 1 t) (iblk0 V c 2 t) (ix2 p u)
    = Gpos V c (((cfg0.win 3).blk t).view.emb (ix2 p u))
  refine (out0_3_apply (grid0.coords t) ⟨t.val, elt⟩ eg (iblk0 V c 0 t) (iblk0 V c 1 t) (iblk0 V c 2 t)
    (fun r => by rw [iblk0_2_apply, iblk0_1_apply]; exact htrow r) p u).trans ?_
  have hX : Xof (iblk0 V c 0 t) = XV V c := funext fun r => funext fun d => iblk0_0_apply V c t (ix2 r d)
  have hT : Tof (iblk0 V c 1 t) = TV V c := funext fun r => iblk0_1_apply V c t (ix2 r (0 : Fin 1))
  rw [hX, hT]
  show Cert.Spec.runPos (XV V c) (TV V c) (tileRow ⟨t.val, elt⟩ p) 8 = Cert.Spec.runPos (XV V c) (TV V c) _ 8
  congr 1
  apply Fin.ext
  show 512 * t.val + p.val = win0_3.index t (0 : Fin 2) * 512 + 1 * p.val
  rw [e30]; omega

/-- What point `t` writes back into the second result is block `t` of `Gneg`. -/
theorem flushed4_eq (t : Fin cfg0.N) :
    (dat0 (F := Ideal) V c).flushed 4 t = ((cfg0.win 4).blk t).view.read (Elt Ideal) (Gneg V c) := by
  show (cfg0.win 4).cut (grid0.coords t) ((dat0 V c).after 4 t) = _
  rw [after0_4]
  obtain ⟨-, -, -, -, -, -, -, -, e40, e41, eg, elt⟩ := idx_facts t
  funext j
  obtain ⟨p, u, rfl⟩ : ∃ (p : Fin 512) (u : Fin 1), j = ix2 p u := ⟨j 0, j 1, eq_ix2 j⟩
  show out0_4 (grid0.coords t) (iblk0 V c 0 t) (iblk0 V c 1 t) (iblk0 V c 2 t) (ix2 p u)
    = Gneg V c (((cfg0.win 4).blk t).view.emb (ix2 p u))
  refine (out0_4_apply (grid0.coords t) ⟨t.val, elt⟩ eg (iblk0 V c 0 t) (iblk0 V c 1 t) (iblk0 V c 2 t)
    (fun r => by rw [iblk0_2_apply, iblk0_1_apply]; exact htrow r) p u).trans ?_
  have hX : Xof (iblk0 V c 0 t) = XV V c := funext fun r => funext fun d => iblk0_0_apply V c t (ix2 r d)
  have hT : Tof (iblk0 V c 1 t) = TV V c := funext fun r => iblk0_1_apply V c t (ix2 r (0 : Fin 1))
  rw [hX, hT]
  show Cert.Spec.runNeg (XV V c) (TV V c) (tileRow ⟨t.val, elt⟩ p) 8 = Cert.Spec.runNeg (XV V c) (TV V c) _ 8
  congr 1
  apply Fin.ext
  show 512 * t.val + p.val = win0_4.index t (0 : Fin 2) * 512 + 1 * p.val
  rw [e40]; omega

omit htrow in
/-- An index of a result array is in point `t`'s block iff each coordinate is in the block's range on its axis. -/
theorem mem_blk3 (t : Fin cfg0.N) (i : S4096x1.Idx) :
    i ∈ ((cfg0.win 3).blk t).view.set ↔ ∀ a : Fin 2, win0_3.index t a * S512x1.size a ≤ (i a).val ∧ (i a).val < win0_3.index t a * S512x1.size a + S512x1.size a := by
  show i ∈ ((View.whole main_v2_0).slice (win0_3.rect t)).set ↔ _
  rw [View.set_slice_whole, Rect.mem_set_unit]
  exact Iff.rfl
omit htrow in
theorem mem_blk4 (t : Fin cfg0.N) (i : S4096x1.Idx) :
    i ∈ ((cfg0.win 4).blk t).view.set ↔ ∀ a : Fin 2, win0_4.index t a * S512x1.size a ≤ (i a).val ∧ (i a).val < win0_4.index t a * S512x1.size a + S512x1.size a := by
  show i ∈ ((View.whole main_v2_1).slice (win0_4.rect t)).set ↔ _
  rw [View.set_slice_whole, Rect.mem_set_unit]
  exact Iff.rfl

omit htrow in
/-- Row `r` is in the block of point `r / 512`. -/
theorem cover3 (i : S4096x1.Idx) : ∃ t : Fin cfg0.N, (cfg0.win 3).flush t = true ∧ i ∈ ((cfg0.win 3).blk t).view.set := by
  have hi0 : (i 0).val < 4096 := (i 0).isLt
  have hi1 : (i 1).val < 1 := (i 1).isLt
  have hN : cfg0.N = 8 := N_0
  let t : Fin cfg0.N := ⟨(i 0).val / 512, by rw [hN]; omega⟩
  obtain ⟨-, -, -, -, -, -, e30, e31, -⟩ := idx_facts t
  refine ⟨t, flush0_3 t, ?_⟩
  rw [mem_blk3]
  intro a
  have ht : t.val = (i 0).val / 512 := rfl
  match a with
  | ⟨0, _⟩ => show win0_3.index t (0 : Fin 2) * 512 ≤ (i 0).val ∧ (i 0).val < win0_3.index t (0 : Fin 2) * 512 + 512; rw [e30]; omega
  | ⟨1, _⟩ => show win0_3.index t (1 : Fin 2) * 1 ≤ (i 1).val ∧ (i 1).val < win0_3.index t (1 : Fin 2) * 1 + 1; rw [e31]; omega
omit htrow in
theorem cover4 (i : S4096x1.Idx) : ∃ t : Fin cfg0.N, (cfg0.win 4).flush t = true ∧ i ∈ ((cfg0.win 4).blk t).view.set := by
  have hi0 : (i 0).val < 4096 := (i 0).isLt
  have hi1 : (i 1).val < 1 := (i 1).isLt
  have hN : cfg0.N = 8 := N_0
  let t : Fin cfg0.N := ⟨(i 0).val / 512, by rw [hN]; omega⟩
  obtain ⟨-, -, -, -, -, -, -, -, e40, e41, -⟩ := idx_facts t
  refine ⟨t, flush0_4 t, ?_⟩
  rw [mem_blk4]
  intro a
  have ht : t.val = (i 0).val / 512 := rfl
  match a with
  | ⟨0, _⟩ => show win0_4.index t (0 : Fin 2) * 512 ≤ (i 0).val ∧ (i 0).val < win0_4.index t (0 : Fin 2) * 512 + 512; rw [e40]; omega
  | ⟨1, _⟩ => show win0_4.index t (1 : Fin 2) * 1 ≤ (i 1).val ∧ (i 1).val < win0_4.index t (1 : Fin 2) * 1 + 1; rw [e41]; omega

/-- THE FIRST RESULT after the region: at row `r`, the running maximum of row `r`'s positive entries over the eight
    key tiles. -/
theorem final0_3 : (dat0 (F := Ideal) V c).arrAt 3 cfg0.N = fun i : S4096x1.Idx => Cert.Spec.runPos (XV V c) (TV V c) (i 0) 8 :=
  (dat0 (F := Ideal) V c).arrAt_eq_of_cover 3 (Gpos V c) (fun t _ => flushed3_eq V c htrow t) cover3

/-- THE SECOND RESULT after the region: at row `r`, the running minimum of row `r`'s negative entries. -/
theorem final0_4 : (dat0 (F := Ideal) V c).arrAt 4 cfg0.N = fun i : S4096x1.Idx => Cert.Spec.runNeg (XV V c) (TV V c) (i 0) 8 :=
  (dat0 (F := Ideal) V c).arrAt_eq_of_cover 4 (Gneg V c) (fun t _ => flushed4_eq V c htrow t) cover4

end Array

end Cert.KernelIdeal.Val0

end
-- ==== Proof.Val1.lean ====
/-
  The value of the second kernel region: the cross-entropy rows.

  At every grid point the body stores one function of the logits block and the label block it was handed: for row p of
  the block, log Σ_k exp(x_{p,k} − m_p) + m_p − Σ_k [k = label_p]·x_{p,k}, where m_p = sup_k x_{p,k} is the lane maximum taken
  from −∞, the sums run over the 1024 lanes from zero, and the class index k is compared with the label as a 32-bit word.
  First the stored value is read at an index (one lemma per operation that is not pointwise: the column view of a
  length-512 vector, the broadcast of a column along the lanes, the lane maximum as a supremum, the lane sum as a finite
  sum, the lane index). Then the blocks are put together: block t of either input is rows 512·t … 512·t+511 of its array,
  so what point t writes back is block t of ONE column, the specification's row loss of the whole arrays; the eight
  blocks cover the column (row r lies in block r / 512), so the column ends holding that function.
-/
import proofs.«428835_j7438883356860_1_alg».proof.Proof.Reg1
import proofs.«428835_j7438883356860_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val1

open Idealize.ShloMosaic Idealize.ShloMosaic.TcCoe Idealize.ShloMosaic.ValueIdx
open Idealize.ShloMosaic.Pipeline (Dat)
open Cert.KernelIdeal Cert.KernelIdeal.Gen Cert.KernelIdeal.Fr

/-- A length-512 vector viewed as a column reads its entry p at (p, 0). -/
theorem col_apply {α : Type} (v : S512.Idx → α) (h : S512.ShapeCasts S512x1) (p : Fin 512) (q : Fin 1) :
    shapeCast S512x1 v h (ix2 p q) = v (ix1 p) := by
  refine shapeCast_apply v h (ix2 p q) (ix1 p) ?_
  rw [Shape.rowMajor_val_one, Shape.rowMajor_val_two]
  show p.val = p.val * 1 + q.val
  omega

/-- A column broadcast along the lanes reads its entry (p, 0) at every (p, k). -/
theorem lanes_apply {α : Type} (v : S512x1.Idx → α) (h : S512x1.Broadcasts S512x1024) (p : Fin 512) (k : Fin 1024) :
    broadcastTo S512x1024 v h (ix2 p k) = v (ix2 p 0) := by
  refine broadcastTo_apply v h (ix2 p k) (ix2 p 0) fun a => ?_
  match a with
  | ⟨0, _⟩ => rfl
  | ⟨1, _⟩ => rfl

/-- The index a lane reduction reads: row p, lane k. -/
theorem lift_eq (h : S512x1024.Reduces [1] S512) (p : Fin 512) (k : Fin 1024) :
    h.lift (ix1 p) k = ix2 p k := by
  funext a; apply Fin.ext
  match a with
  | ⟨0, _⟩ => rfl
  | ⟨1, _⟩ => rfl

/-- The word 0xFF800000 is −∞. -/
theorem ninf_eq : Ideal.ofBits .f32 0xFF800000#32 = (⊥ : EReal) := by
  simp [Ideal.ofBits, Ideal.ieee]

/-- The lane maximum from −∞ is the supremum over the lanes. -/
theorem rowmax_apply (v : FVec Ideal S512x1024 .f32) (h : S512x1024.Reduces [1] S512) (hφ : FTy.f32 = FTy.f32 ∨ FTy.f32 = FTy.bf16)
    (hacc : (0xFF800000#32 : BitVec 32) = 0xFF800000#32) (p : Fin 512) :
    multiReduction .maximumf [1] S512 v 0xFF800000#32 h hφ hacc (ix1 p) = Finset.univ.sup fun k : Fin 1024 => v (ix2 p k) := by
  refine (Ideal.multiReduction_maximumf_single v 0xFF800000#32 h hφ hacc (ix1 p)).trans ?_
  show Finset.fold max (Ideal.ofBits .f32 0xFF800000#32) (v ∘ h.lift (ix1 p)) (Finset.univ : Finset (Fin 1024)) = _
  rw [ninf_eq]
  have e : (v ∘ h.lift (ix1 p)) = fun k : Fin 1024 => v (ix2 p k) := funext fun k => congrArg v (lift_eq h p k)
  rw [e]
  rfl

/-- The lane sum from the zero word is the sum over the lanes. -/
theorem rowsum_apply (v : FVec Ideal S512x1024 .f32) (h : S512x1024.Reduces [1] S512) (hφ : FTy.f32 = FTy.f32 ∨ FTy.f32 = FTy.bf16)
    (hacc : (0x00000000#32 : BitVec 32) = 0x00000000#32) (p : Fin 512) :
    multiReduction .add [1] S512 v 0x00000000#32 h hφ hacc (ix1 p) = ∑ k : Fin 1024, v (ix2 p k) := by
  refine (Ideal.multiReduction_add_single v 0x00000000#32 h hφ hacc (ix1 p)).trans ?_
  exact Finset.sum_congr rfl fun k _ => congrArg v (lift_eq h p k)

/-- exp and log of a vector read at an index, and an integer comparison. -/
theorem exp_apply {s : Shape} (a : FVec Ideal s .f32) (i : s.Idx) : exp a i = Ideal.exp (a i) := rfl
theorem log_apply {s : Shape} (a : FVec Ideal s .f32) (i : s.Idx) : log a i = Ideal.log (a i) := rfl
theorem cmpi_apply {s : Shape} {w : Nat} (pr : CmpIPredicate) (x y : IVec s w) (i : s.Idx) :
    cmpi pr x y i = IntOp.cmpi pr (x i) (y i) := rfl

/-- The comparison of two words for equality, then a select on its bit, is the if on the equality. -/
theorem select_cmpi_eq {α : Type} (x y : BitVec 32) (a b : α) :
    Scalar.select (IntOp.cmpi .eq x y) a b = if x = y then a else b := by
  unfold Scalar.select IntOp.cmpi
  by_cases h : x = y
  · rw [if_pos h]; subst h; simp
  · rw [if_neg h]
    have : (x == y) = false := by simpa using h
    simp [this]

/-- The lane index read at (p, k) is k. -/
theorem lane_apply (h : S512x1024.Iotas .tc 32 [1]) (p : Fin 512) (k : Fin 1024) :
    iota .tc S512x1024 32 [1] h (ix2 p k) = BitVec.ofNat 32 k.val :=
  iota_single_apply .tc S512x1024 32 1 h (ix2 p k)

/-- The row loss as the body computes it, of a block of logits and a block of labels, at row p. -/
def rowLossBlk (x0 : S512x1024.Idx → EReal) (x1 : S512x1.Idx → BitVec 32) (p : Fin 512) : EReal :=
  (Ideal.log (∑ k : Fin 1024, Ideal.exp (x0 (ix2 p k) - Finset.univ.sup fun k' : Fin 1024 => x0 (ix2 p k')))
      + Finset.univ.sup fun k' : Fin 1024 => x0 (ix2 p k'))
    - ∑ k : Fin 1024, (if BitVec.ofNat 32 k.val = x1 (ix2 p 0) then x0 (ix2 p k) else 0)

/-- The body's stored value at row p is the row loss of the two blocks. -/
theorem pay_apply (x0 : Vec Ideal S512x1024 .f32) (x1 : Vec Ideal S512x1 .i32) (p : Fin 512) (q : Fin 1) :
    k1_pay1 (F := Ideal) x0 x1 (ix2 p q) = rowLossBlk x0 x1 p := by
  unfold k1_pay1 rowLossBlk
  simp only [subf_apply, addf_apply, log_apply, col_apply]
  rw [rowsum_apply, rowsum_apply]
  simp only [exp_apply, subf_apply, lanes_apply, col_apply, select_apply, broadcast_apply, cmpi_apply, lane_apply,
    select_cmpi_eq, shapeCast_self]
  rw [rowmax_apply]
  congr 1
  refine Finset.sum_congr rfl fun k _ => ?_
  rw [lane_apply, Ideal.ofBits_def, Ideal.ofBits_zero_f32]

/-! ## From the blocks to the array -/

/-- A block's row loss is the specification's row loss of the arrays, at the block's row of the array: block b of the
    logits is rows 512·b … 512·b+511 of the logits, block b of the labels the same rows of the label column. -/
theorem rowLossBlk_eq (A : S4096x1024.Idx → EReal) (L : S4096x1.Idx → BitVec 32) (x0 : S512x1024.Idx → EReal)
    (x1 : S512x1.Idx → BitVec 32) (r : Fin 4096) (p : Fin 512)
    (h0 : ∀ k : Fin 1024, x0 (ix2 p k) = A (ix2 r k)) (h1 : x1 (ix2 p 0) = L (ix2 r 0)) :
    rowLossBlk x0 x1 p = Cert.Spec.rowLossK (fun r k => A (ix2 r k)) (fun r => L (ix2 r 0)) r := by
  unfold rowLossBlk Cert.Spec.rowLossK Cert.Spec.sumExp Cert.Spec.rowMax
  simp only [h0, h1]

theorem hz : (![0, 0] : Fin 2 → Nat) = fun _ => 0 := funext fun a => by fin_cases a <;> rfl

/-- The windows' index maps over the grid: at point t every window is at block (t, 0). -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- The row losses of the whole arrays: what the result column ends holding. -/
def G1 (c : Dev nD) : S4096x1.Idx → EReal := fun i =>
  Cert.Spec.rowLossK (fun r k => (V c main_arg0 : S4096x1024.Idx → EReal) (ix2 r k))
    (fun r => (V c main_v0 : S4096x1.Idx → BitVec 32) (ix2 r 0)) (i 0)

/-- What point t writes back is block t of the row losses of the arrays. -/
theorem flushed_eq (c : Dev nD) (t : Fin cfg1.N) :
    (dat1 (F := Ideal) V c).flushed 2 t = ((cfg1.win 2).blk t).view.read (Elt Ideal) (G1 V c) := by
  show (cfg1.win 2).cut (grid1.coords t) ((dat1 (F := Ideal) V c).after 2 t) = _
  rw [after1_2]
  unfold out1_2
  rw [View.canon_unit_zero hz]
  simp only [View.ld_unit_zero (S := S512x1024) hz, View.ld_unit_zero (S := S512x1) hz]
  obtain ⟨e0, e1, e2, e3, e4, e5⟩ := idx_facts t
  have ht : t.val < 8 := t.isLt
  refine funext fun (j : S512x1.Idx) => ?_
  obtain ⟨p, q, rfl⟩ : ∃ (p : Fin 512) (q : Fin 1), j = ix2 p q := ⟨j 0, j 1, eq_ix2 j⟩
  show k1_pay1 (F := Ideal) (iblk1 V c 0 t) (iblk1 V c 1 t) (ix2 p q) = G1 V c (((cfg1.win 2).blk t).view.emb (ix2 p q))
  refine (pay_apply _ _ p q).trans ?_
  have hp : p.val < 512 := p.isLt
  refine (rowLossBlk_eq (V c main_arg0) (V c main_v0) _ _ ⟨512 * t.val + p.val, by omega⟩ p (fun k => ?_) ?_).trans ?_
  · show (V c main_arg0 : S4096x1024.Idx → EReal) (((cfg1.win 0).blk t).view.emb (ix2 p k)) = _
    refine congrArg _ (funext fun a => Fin.ext ?_)
    match a with
    | ⟨0, _⟩ => show win1_0.index t (0 : Fin 2) * 512 + 1 * p.val = 512 * t.val + p.val; omega
    | ⟨1, _⟩ => show win1_0.index t (1 : Fin 2) * 1024 + 1 * k.val = k.val; omega
  · show (V c main_v0 : S4096x1.Idx → BitVec 32) (((cfg1.win 1).blk t).view.emb (ix2 p 0)) = _
    refine congrArg _ (funext fun a => Fin.ext ?_)
    match a with
    | ⟨0, _⟩ => show win1_1.index t (0 : Fin 2) * 512 + 1 * p.val = 512 * t.val + p.val; omega
    | ⟨1, _⟩ => show win1_1.index t (1 : Fin 2) * 1 + 1 * 0 = 0; omega
  · show Cert.Spec.rowLossK _ _ _ = Cert.Spec.rowLossK _ _ _
    refine congrArg _ (Fin.ext ?_)
    show 512 * t.val + p.val = win1_2.index t (0 : Fin 2) * 512 + 1 * p.val
    omega

/-- An index of the result column is in point t's block iff each coordinate is in the block's range on its axis. -/
theorem mem_blk (t : Fin cfg1.N) (i : S4096x1.Idx) :
    i ∈ ((cfg1.win 2).blk t).view.set ↔ ∀ a : Fin 2, win1_2.index t a * S512x1.size a ≤ (i a).val ∧ (i a).val < win1_2.index t a * S512x1.size a + S512x1.size a := by
  show i ∈ ((View.whole main_v3).slice (win1_2.rect t)).set ↔ _
  rw [View.set_slice_whole, Rect.mem_set_unit]
  exact Iff.rfl

/-- Row r of the result column is written by point r / 512. -/
theorem cover (i : S4096x1.Idx) : ∃ t : Fin cfg1.N, (cfg1.win 2).flush t = true ∧ i ∈ ((cfg1.win 2).blk t).view.set := by
  have hi0 : (i 0).val < 4096 := idx2_lt0 i
  have hi1 : (i 1).val < 1 := idx2_lt1 i
  have hN : cfg1.N = 8 := N_1
  refine ⟨⟨(i 0).val / 512, by rw [hN]; omega⟩, flush1_2 _, ?_⟩
  obtain ⟨-, -, -, -, e4, e5⟩ := idx_facts ⟨(i 0).val / 512, by rw [hN]; omega⟩
  rw [mem_blk]
  intro a
  match a with
  | ⟨0, _⟩ =>
    show win1_2.index _ (0 : Fin 2) * 512 ≤ (i 0).val ∧ (i 0).val < win1_2.index _ (0 : Fin 2) * 512 + 512
    rw [e4]; show (i 0).val / 512 * 512 ≤ (i 0).val ∧ (i 0).val < (i 0).val / 512 * 512 + 512; omega
  | ⟨1, _⟩ =>
    show win1_2.index _ (1 : Fin 2) * 1 ≤ (i 1).val ∧ (i 1).val < win1_2.index _ (1 : Fin 2) * 1 + 1
    rw [e5]; omega

/-- The result column after the region: row by row the specification's row loss of the logits and the labels. -/
theorem final1 (c : Dev nD) :
    (dat1 (F := Ideal) V c).arrAt 2 cfg1.N = fun i : S4096x1.Idx =>
      Cert.Spec.rowLossK (fun r k => (V c main_arg0 : S4096x1024.Idx → EReal) (ix2 r k))
        (fun r => (V c main_v0 : S4096x1.Idx → BitVec 32) (ix2 r 0)) (i 0) :=
  (dat1 (F := Ideal) V c).arrAt_eq_of_cover 2 (G1 V c) (fun t _ => flushed_eq V c t) cover

end Cert.KernelIdeal.Val1

end
-- ==== Proof.Val2Tile.lean ====
/-
  The arithmetic of the third kernel (the two sums of squared differences) at one grid point, over abstract loaded
  blocks. The stored (1,1) value is the previous contents of the accumulator plus the sum over the whole (512,512)
  block of the squared differences: the block is read as a (1,512,512) array, summed over its two inner axes into one
  number from zero, and that number is added at the accumulator's one index. At the first grid point the accumulator
  was set to zero. With the blocks the k-th tiles of two arrays and the accumulator the sum of the shares of the tiles
  before the k-th, the stored value is the sum of the shares of the tiles up to the k-th.
-/
import proofs.«428835_j7438883356860_1_alg».proof.Proof.Gen.KernelIdeal.Skeleton
import proofs.«428835_j7438883356860_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section
namespace Cert.KernelIdeal.Val2
open Idealize.ShloMosaic Idealize.ShloMosaic.ValueIdx Cert.KernelIdeal Cert.KernelIdeal.Gen

/-- A (1,1) vector has one index. -/
theorem idx11 (i : S1x1.Idx) : i = ix2 (0 : Fin 1) (0 : Fin 1) := by
  have h0 : (i 0).val < 1 := idx2_lt0 i
  have h1 : (i 1).val < 1 := idx2_lt1 i
  funext a
  match a with
  | ⟨0, _⟩ => exact Fin.ext (by show (i 0).val = 0; omega)
  | ⟨1, _⟩ => exact Fin.ext (by show (i 1).val = 0; omega)

theorem pay1_apply (i : S1x1.Idx) : Gen.k2_pay1 (F := Ideal) i = 0 := by
  unfold Gen.k2_pay1
  simp only [shapeCast_self]
  exact Ideal.ofBits_zero_f32

theorem pay2_apply (i : S1x1.Idx) : Gen.k2_pay2 (F := Ideal) i = 0 := by
  unfold Gen.k2_pay2
  simp only [shapeCast_self]
  exact Ideal.ofBits_zero_f32

/-- Both tile axes summed from zero: the total over the (512,512) block, row by row. -/
theorem sumAll_apply (v : FVec Ideal S512x512 .f32) (hc : S512x512.ShapeCasts S1x512x512)
    (h : S1x512x512.Reduces [1, 2] S1) (hφ : FKind.Formats .f32)
    (hacc : (0x00000000#32 : BitVec 32) = 0x00000000#32) (j : S1.Idx) :
    multiReduction (F := Ideal) .add [1, 2] S1 (shapeCast S1x512x512 v hc) 0x00000000#32 h hφ hacc j
      = ∑ q : Fin 512, ∑ d : Fin 512, v (ix2 q d) := by
  refine (Ideal.multiReduction_add_total (shapeCast S1x512x512 v hc) 0x00000000#32 h
    (fun b => by match b with | ⟨0, _⟩ => rfl) hφ hacc j).trans ?_
  unfold shapeCast
  rw [Equiv.sum_comp (Shape.reshapeEquiv hc) v, sum_idx2]

theorem pay3_apply (v3 v4 : Vec Ideal S512x512 .f32) (v9 : Vec Ideal S1x1 .f32) (i : S1x1.Idx) :
    Gen.k2_pay3 (F := Ideal) v3 v4 v9 i = v9 (ix2 (0 : Fin 1) (0 : Fin 1)) + ∑ q : Fin 512, ∑ d : Fin 512,
      (v3 (ix2 q d) - v4 (ix2 q d)) * (v3 (ix2 q d) - v4 (ix2 q d)) := by
  unfold Gen.k2_pay3
  simp only [shapeCast_self]
  rw [addf_apply, broadcast_apply, idx11 i]
  congr 1
  exact sumAll_apply (mulf (subf v3 v4) (subf v3 v4)) shapeCasts_S512x512_S1x512x512 reduces_S1x512x512_S1 (.inl rfl) rfl _

theorem pay4_apply (v6 v7 : Vec Ideal S512x512 .f32) (v20 : Vec Ideal S1x1 .f32) (i : S1x1.Idx) :
    Gen.k2_pay4 (F := Ideal) v6 v7 v20 i = v20 (ix2 (0 : Fin 1) (0 : Fin 1)) + ∑ q : Fin 512, ∑ d : Fin 512,
      (v6 (ix2 q d) - v7 (ix2 q d)) * (v6 (ix2 q d) - v7 (ix2 q d)) := by
  unfold Gen.k2_pay4
  simp only [shapeCast_self]
  rw [addf_apply, broadcast_apply, idx11 i]
  congr 1
  exact sumAll_apply (mulf (subf v6 v7) (subf v6 v7)) shapeCasts_S512x512_S1x512x512 reduces_S1x512x512_S1 (.inl rfl) rfl _

/-! ## Over the tiles -/

section Tiles
open Cert.Spec
variable (a b : Fin 4096 → Fin 512 → EReal)

/-- One more tile's share joins the accumulator. -/
theorem accSq_succ (k : Fin 8) : accSq a b (k.val + 1) = accSq a b k.val + sqDiffTile a b k := by
  rw [accSq, dif_pos k.isLt]

/-- A tile's share from the two loaded blocks. -/
theorem tile_share (k : Fin 8) (u w : Vec Ideal S512x512 .f32)
    (hu : ∀ q d, u (ix2 q d) = a (tileRow k q) d) (hw : ∀ q d, w (ix2 q d) = b (tileRow k q) d) :
    (∑ q : Fin 512, ∑ d : Fin 512, (u (ix2 q d) - w (ix2 q d)) * (u (ix2 q d) - w (ix2 q d))) = sqDiffTile a b k := by
  unfold sqDiffTile
  refine Finset.sum_congr rfl fun q _ => Finset.sum_congr rfl fun d _ => ?_
  rw [hu, hw]

theorem step3 (k : Fin 8) (v3 v4 : Vec Ideal S512x512 .f32) (v9 : Vec Ideal S1x1 .f32)
    (h3 : ∀ q d, v3 (ix2 q d) = a (tileRow k q) d) (h4 : ∀ q d, v4 (ix2 q d) = b (tileRow k q) d)
    (h9 : v9 (ix2 (0 : Fin 1) (0 : Fin 1)) = accSq a b k.val) (i : S1x1.Idx) :
    Gen.k2_pay3 (F := Ideal) v3 v4 v9 i = accSq a b (k.val + 1) := by
  rw [pay3_apply, h9, tile_share a b k v3 v4 h3 h4, accSq_succ]

theorem step4 (k : Fin 8) (v6 v7 : Vec Ideal S512x512 .f32) (v20 : Vec Ideal S1x1 .f32)
    (h6 : ∀ q d, v6 (ix2 q d) = a (tileRow k q) d) (h7 : ∀ q d, v7 (ix2 q d) = b (tileRow k q) d)
    (h20 : v20 (ix2 (0 : Fin 1) (0 : Fin 1)) = accSq a b k.val) (i : S1x1.Idx) :
    Gen.k2_pay4 (F := Ideal) v6 v7 v20 i = accSq a b (k.val + 1) := by
  rw [pay4_apply, h20, tile_share a b k v6 v7 h6 h7, accSq_succ]

/-- The first grid point: the accumulator was just set to zero. -/
theorem first3 (v3 v4 : Vec Ideal S512x512 .f32)
    (h3 : ∀ q d, v3 (ix2 q d) = a (tileRow 0 q) d) (h4 : ∀ q d, v4 (ix2 q d) = b (tileRow 0 q) d) (i : S1x1.Idx) :
    Gen.k2_pay3 (F := Ideal) v3 v4 (Gen.k2_pay1 (F := Ideal)) i = accSq a b 1 :=
  step3 a b 0 v3 v4 (Gen.k2_pay1 (F := Ideal)) h3 h4 (pay1_apply _) i

theorem first4 (v6 v7 : Vec Ideal S512x512 .f32)
    (h6 : ∀ q d, v6 (ix2 q d) = a (tileRow 0 q) d) (h7 : ∀ q d, v7 (ix2 q d) = b (tileRow 0 q) d) (i : S1x1.Idx) :
    Gen.k2_pay4 (F := Ideal) v6 v7 (Gen.k2_pay2 (F := Ideal)) i = accSq a b 1 :=
  step4 a b 0 v6 v7 (Gen.k2_pay2 (F := Ideal)) h6 h7 (pay2_apply _) i

end Tiles

end Cert.KernelIdeal.Val2
end
-- ==== Proof.Val2Blocks.lean ====
/-
  The third kernel region (the two sums of squared differences), from one grid point to the whole run.

  Three facts that do not depend on how the region's proof data are spelt. (1) Block t of each of the three inputs, read
  through its window, is tile t of its array: rows 512·t … 512·t+511, all 512 columns. (2) An accumulator that holds,
  after the first point, the first tile's share added to zero and, after each later point, that tile's share added to
  what the point before left, holds after point n the shares of the tiles 0 … n: the specification's running sum at
  n+1, by induction on the point. (3) Each accumulator's (1,1) array is one block that only the last point writes back,
  so after the run it holds what the staging buffer held after the last point.
-/
import proofs.«428835_j7438883356860_1_alg».proof.Proof.Gen.KernelIdeal.Launch
import proofs.«428835_j7438883356860_1_alg».proof.Proof.Gen.KernelIdeal.Points
import proofs.«428835_j7438883356860_1_alg».proof.Proof.Val2Tile
import proofs.«428835_j7438883356860_1_alg».proof.Proof.Spec
import Idealize.ShloMosaic.Lib.Pipeline.Value
import Idealize.ShloMosaic.Lib.ValueIdx

noncomputable section

namespace Cert.KernelIdeal.Val2

open Idealize.ShloMosaic Idealize.ShloMosaic.TcCoe Idealize.ShloMosaic.ValueIdx
open Idealize.ShloMosaic.Pipeline (Dat)
open Cert.KernelIdeal Cert.KernelIdeal.Gen

/-! ## The blocks of the three inputs -/

/-- The windows' index maps over the grid: at point t the three inputs are at block (t, 0), the two accumulators at
    block (0, 0). -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

/-- Point t as a tile number. -/
abbrev tileOf (t : Fin cfg2.N) : Fin 8 := Fin.cast N_2 t

/-- Block t of the first input, read through its window, is tile t of the array: rows 512·t … 512·t+511, all 512
    columns. -/
theorem blk2_0_apply (c : Dev nD) (A : Buf (Elt Ideal) ((c : Thread nD τ).loc main_arg1)) (t : Fin cfg2.N) (q d : Fin 512) :
    (((cfg2.win 0).blk t).view.read (Elt Ideal) A : S512x512.Idx → EReal) (ix2 q d)
      = (A : S4096x512.Idx → EReal) (ix2 (Cert.Spec.tileRow (tileOf t) q) d) := by
  obtain ⟨e0, e1, -⟩ := idx_facts2 t
  show (A : S4096x512.Idx → EReal) (((cfg2.win 0).blk t).view.emb (ix2 q d)) = _
  refine congrArg _ (funext fun a => Fin.ext ?_)
  match a with
  | ⟨0, _⟩ => show win2_0.index t (0 : Fin 2) * 512 + 1 * q.val = 512 * t.val + q.val; omega
  | ⟨1, _⟩ => show win2_0.index t (1 : Fin 2) * 512 + 1 * d.val = d.val; omega

/-- Likewise the second input's. -/
theorem blk2_1_apply (c : Dev nD) (A : Buf (Elt Ideal) ((c : Thread nD τ).loc main_arg2)) (t : Fin cfg2.N) (q d : Fin 512) :
    (((cfg2.win 1).blk t).view.read (Elt Ideal) A : S512x512.Idx → EReal) (ix2 q d)
      = (A : S4096x512.Idx → EReal) (ix2 (Cert.Spec.tileRow (tileOf t) q) d) := by
  obtain ⟨-, -, e0, e1, -⟩ := idx_facts2 t
  show (A : S4096x512.Idx → EReal) (((cfg2.win 1).blk t).view.emb (ix2 q d)) = _
  refine congrArg _ (funext fun a => Fin.ext ?_)
  match a with
  | ⟨0, _⟩ => show win2_1.index t (0 : Fin 2) * 512 + 1 * q.val = 512 * t.val + q.val; omega
  | ⟨1, _⟩ => show win2_1.index t (1 : Fin 2) * 512 + 1 * d.val = d.val; omega

/-- Likewise the third input's. -/
theorem blk2_2_apply (c : Dev nD) (A : Buf (Elt Ideal) ((c : Thread nD τ).loc main_arg3)) (t : Fin cfg2.N) (q d : Fin 512) :
    (((cfg2.win 2).blk t).view.read (Elt Ideal) A : S512x512.Idx → EReal) (ix2 q d)
      = (A : S4096x512.Idx → EReal) (ix2 (Cert.Spec.tileRow (tileOf t) q) d) := by
  obtain ⟨-, -, -, -, e0, e1, -⟩ := idx_facts2 t
  show (A : S4096x512.Idx → EReal) (((cfg2.win 2).blk t).view.emb (ix2 q d)) = _
  refine congrArg _ (funext fun a => Fin.ext ?_)
  match a with
  | ⟨0, _⟩ => show win2_2.index t (0 : Fin 2) * 512 + 1 * q.val = 512 * t.val + q.val; omega
  | ⟨1, _⟩ => show win2_2.index t (1 : Fin 2) * 512 + 1 * d.val = d.val; omega

/-! ## The running sums over the grid -/

section Chain
open Cert.Spec
variable (a b : Fin 4096 → Fin 512 → EReal)

/-- An accumulator that starts at the first tile's share of zero and takes each later tile's share onto what the point
    before left holds, after point n, the shares of the tiles 0 … n. -/
theorem chain3 (ua ub : (n : ℕ) → n < cfg2.N → Vec Ideal S512x512 .f32)
    (hua : ∀ n hn q d, ua n hn (ix2 q d) = a (tileRow (tileOf ⟨n, hn⟩) q) d)
    (hub : ∀ n hn q d, ub n hn (ix2 q d) = b (tileRow (tileOf ⟨n, hn⟩) q) d)
    (s : (n : ℕ) → n < cfg2.N → Vec Ideal S1x1 .f32)
    (h0 : ∀ h, s 0 h = k2_pay3 (F := Ideal) (ua 0 h) (ub 0 h) (k2_pay1 (F := Ideal)))
    (hs : ∀ n h, s (n + 1) h = k2_pay3 (F := Ideal) (ua (n + 1) h) (ub (n + 1) h) (s n (Nat.lt_of_succ_lt h))) :
    ∀ (n : ℕ) (hn : n < cfg2.N) (i : S1x1.Idx), s n hn i = accSq a b (n + 1)
  | 0, hn, i => by
    rw [h0]
    exact first3 a b (ua 0 hn) (ub 0 hn) (hua 0 hn) (hub 0 hn) i
  | n + 1, hn, i => by
    rw [hs]
    exact step3 a b (tileOf ⟨n + 1, hn⟩) (ua (n + 1) hn) (ub (n + 1) hn) (s n (Nat.lt_of_succ_lt hn)) (hua (n + 1) hn) (hub (n + 1) hn)
      (chain3 ua ub hua hub s h0 hs n (Nat.lt_of_succ_lt hn) _) i

/-- The second accumulator likewise. -/
theorem chain4 (ua ub : (n : ℕ) → n < cfg2.N → Vec Ideal S512x512 .f32)
    (hua : ∀ n hn q d, ua n hn (ix2 q d) = a (tileRow (tileOf ⟨n, hn⟩) q) d)
    (hub : ∀ n hn q d, ub n hn (ix2 q d) = b (tileRow (tileOf ⟨n, hn⟩) q) d)
    (s : (n : ℕ) → n < cfg2.N → Vec Ideal S1x1 .f32)
    (h0 : ∀ h, s 0 h = k2_pay4 (F := Ideal) (ua 0 h) (ub 0 h) (k2_pay2 (F := Ideal)))
    (hs : ∀ n h, s (n + 1) h = k2_pay4 (F := Ideal) (ua (n + 1) h) (ub (n + 1) h) (s n (Nat.lt_of_succ_lt h))) :
    ∀ (n : ℕ) (hn : n < cfg2.N) (i : S1x1.Idx), s n hn i = accSq a b (n + 1)
  | 0, hn, i => by
    rw [h0]
    exact first4 a b (ua 0 hn) (ub 0 hn) (hua 0 hn) (hub 0 hn) i
  | n + 1, hn, i => by
    rw [hs]
    exact step4 a b (tileOf ⟨n + 1, hn⟩) (ua (n + 1) hn) (ub (n + 1) hn) (s n (Nat.lt_of_succ_lt hn)) (hua (n + 1) hn) (hub (n + 1) hn)
      (chain4 ua ub hua hub s h0 hs n (Nat.lt_of_succ_lt hn) _) i

end Chain

/-! ## The arrays after the run: only the last point writes the (1,1) block back -/

/-- An accumulator's array ends holding what its staging buffer held after the last point. -/
theorem arr_last3 {c : Dev nD} (dat : Dat τ (Elt Ideal) Unit ℕ (UR sig nD τ) ℕ cfg2 c) (x : EReal)
    (h : ∀ j : S1x1.Idx, (dat.after 3 t2_7 : S1x1.Idx → EReal) j = x) :
    dat.arrAt 3 cfg2.N = fun _ : S1x1.Idx => x := by
  have hN : cfg2.N = 8 := N_2
  refine dat.arrAt_eq_of_cover 3 (fun _ : S1x1.Idx => x) (fun t hf => ?_) fun i => ⟨t2_7, (flush2_3 t2_7).mpr rfl, ?_⟩
  · have h7 : t.val = 7 := by have := (flush2_3 t).mp hf; have := t.isLt; omega
    obtain rfl : t = t2_7 := Fin.ext h7
    show (cfg2.win 3).cut (grid2.coords t2_7) (dat.after 3 t2_7) = _
    refine funext fun (j : S1x1.Idx) => ?_
    exact h j
  · show i ∈ ((View.whole main_v4_0).slice (win2_3.rect t2_7)).set
    rw [View.set_slice_whole, Rect.mem_set_unit]
    intro a
    have h0 : (i 0 : Nat) < 1 := idx2_lt0 i
    have h1 : (i 1 : Nat) < 1 := idx2_lt1 i
    obtain ⟨-, -, -, -, -, -, e0, e1, -⟩ := idx_facts2 t2_7
    match a with
    | ⟨0, _⟩ => show win2_3.index t2_7 (0 : Fin 2) * 1 ≤ (i 0 : Nat) ∧ (i 0 : Nat) < win2_3.index t2_7 (0 : Fin 2) * 1 + 1; omega
    | ⟨1, _⟩ => show win2_3.index t2_7 (1 : Fin 2) * 1 ≤ (i 1 : Nat) ∧ (i 1 : Nat) < win2_3.index t2_7 (1 : Fin 2) * 1 + 1; omega

theorem arr_last4 {c : Dev nD} (dat : Dat τ (Elt Ideal) Unit ℕ (UR sig nD τ) ℕ cfg2 c) (x : EReal)
    (h : ∀ j : S1x1.Idx, (dat.after 4 t2_7 : S1x1.Idx → EReal) j = x) :
    dat.arrAt 4 cfg2.N = fun _ : S1x1.Idx => x := by
  have hN : cfg2.N = 8 := N_2
  refine dat.arrAt_eq_of_cover 4 (fun _ : S1x1.Idx => x) (fun t hf => ?_) fun i => ⟨t2_7, (flush2_4 t2_7).mpr rfl, ?_⟩
  · have h7 : t.val = 7 := by have := (flush2_4 t).mp hf; have := t.isLt; omega
    obtain rfl : t = t2_7 := Fin.ext h7
    show (cfg2.win 4).cut (grid2.coords t2_7) (dat.after 4 t2_7) = _
    refine funext fun (j : S1x1.Idx) => ?_
    exact h j
  · show i ∈ ((View.whole main_v4_1).slice (win2_4.rect t2_7)).set
    rw [View.set_slice_whole, Rect.mem_set_unit]
    intro a
    have h0 : (i 0 : Nat) < 1 := idx2_lt0 i
    have h1 : (i 1 : Nat) < 1 := idx2_lt1 i
    obtain ⟨-, -, -, -, -, -, -, -, e0, e1⟩ := idx_facts2 t2_7
    match a with
    | ⟨0, _⟩ => show win2_4.index t2_7 (0 : Fin 2) * 1 ≤ (i 0 : Nat) ∧ (i 0 : Nat) < win2_4.index t2_7 (0 : Fin 2) * 1 + 1; omega
    | ⟨1, _⟩ => show win2_4.index t2_7 (1 : Fin 2) * 1 ≤ (i 1 : Nat) ∧ (i 1 : Nat) < win2_4.index t2_7 (1 : Fin 2) * 1 + 1; omega

end Cert.KernelIdeal.Val2

end
-- ==== Proof.Val2.lean ====
/-
  The value of the third kernel region: the two sums of squared differences.

  The region's proof data name what the two accumulators hold after each grid point by a recursion on the point: after
  the first point the body's sum over the block of (third input − first input)², respectively (third − second)², added
  to zero; after each later point the same over that point's blocks, added to what the point before left. The blocks
  are the tiles of the arrays, so by induction the accumulators hold the specification's running sums; only the last
  point writes them back, so the two results end holding the running sums over all eight tiles.
-/
import proofs.«428835_j7438883356860_1_alg».proof.Proof.Reg2
import proofs.«428835_j7438883356860_1_alg».proof.Proof.Val2Blocks

noncomputable section

namespace Cert.KernelIdeal.Val2

open Idealize.ShloMosaic Idealize.ShloMosaic.TcCoe Idealize.ShloMosaic.ValueIdx
open Idealize.ShloMosaic.Pipeline (Dat)
open Cert.KernelIdeal Cert.KernelIdeal.Gen Cert.KernelIdeal.Fr

variable (V : (c : Dev nD) → (b : Ref sig .tc) → Buf (Elt Ideal) ((c : Thread nD τ).loc b))

/-- What the first accumulator's staging buffer holds after point n: the shares of the tiles 0 … n of the third input
    against the first. -/
theorem scr3_apply (c : Dev nD) (n : ℕ) (hn : n < cfg2.N) (i : S1x1.Idx) :
    (scrAt2 (F := Ideal) V c n hn).1 i
      = Cert.Spec.accSq (fun r d => (V c main_arg3 : S4096x512.Idx → EReal) (ix2 r d))
          (fun r d => (V c main_arg1 : S4096x512.Idx → EReal) (ix2 r d)) (n + 1) :=
  chain3 (fun r d => (V c main_arg3 : S4096x512.Idx → EReal) (ix2 r d)) (fun r d => (V c main_arg1 : S4096x512.Idx → EReal) (ix2 r d))
    (fun n hn => iblk2 V c 2 ⟨n, hn⟩) (fun n hn => iblk2 V c 0 ⟨n, hn⟩)
    (fun n hn q d => blk2_2_apply c (V c main_arg3) ⟨n, hn⟩ q d) (fun n hn q d => blk2_0_apply c (V c main_arg1) ⟨n, hn⟩ q d)
    (fun n hn => (scrAt2 (F := Ideal) V c n hn).1) (fun h => by rw [scrAt2_zero]) (fun n h => by rw [scrAt2_succ]) n hn i

/-- The second accumulator's: the third input against the second. -/
theorem scr4_apply (c : Dev nD) (n : ℕ) (hn : n < cfg2.N) (i : S1x1.Idx) :
    (scrAt2 (F := Ideal) V c n hn).2 i
      = Cert.Spec.accSq (fun r d => (V c main_arg3 : S4096x512.Idx → EReal) (ix2 r d))
          (fun r d => (V c main_arg2 : S4096x512.Idx → EReal) (ix2 r d)) (n + 1) :=
  chain4 (fun r d => (V c main_arg3 : S4096x512.Idx → EReal) (ix2 r d)) (fun r d => (V c main_arg2 : S4096x512.Idx → EReal) (ix2 r d))
    (fun n hn => iblk2 V c 2 ⟨n, hn⟩) (fun n hn => iblk2 V c 1 ⟨n, hn⟩)
    (fun n hn q d => blk2_2_apply c (V c main_arg3) ⟨n, hn⟩ q d) (fun n hn q d => blk2_1_apply c (V c main_arg2) ⟨n, hn⟩ q d)
    (fun n hn => (scrAt2 (F := Ideal) V c n hn).2) (fun h => by rw [scrAt2_zero]) (fun n h => by rw [scrAt2_succ]) n hn i

/-- The first result after the region: the sum over all eight tiles of the squared differences of the third and the
    first input. -/
theorem final2_3 (c : Dev nD) :
    (dat2 (F := Ideal) V c).arrAt 3 cfg2.N = fun _ : S1x1.Idx =>
      Cert.Spec.accSq (fun r d => (V c main_arg3 : S4096x512.Idx → EReal) (ix2 r d))
        (fun r d => (V c main_arg1 : S4096x512.Idx → EReal) (ix2 r d)) 8 :=
  arr_last3 (dat2 (F := Ideal) V c) _ fun j => by
    rw [after2_3]
    exact scr3_apply V c 7 _ j

/-- The second result: of the third and the second input. -/
theorem final2_4 (c : Dev nD) :
    (dat2 (F := Ideal) V c).arrAt 4 cfg2.N = fun _ : S1x1.Idx =>
      Cert.Spec.accSq (fun r d => (V c main_arg3 : S4096x512.Idx → EReal) (ix2 r d))
        (fun r d => (V c main_arg2 : S4096x512.Idx → EReal) (ix2 r d)) 8 :=
  arr_last4 (dat2 (F := Ideal) V c) _ fun j => by
    rw [after2_4]
    exact scr4_apply V c 7 _ j

end Cert.KernelIdeal.Val2

end
-- ==== Proof.Tail.lean ====
/-
  The end of the kernel program: from the five arrays the three kernels leave — the hardest-positive and hardest-negative
  columns p, q (4096 × 1), the column c of row cross-entropies (4096 × 1) and the two 1 × 1 sums of squares A, B — the
  program forms, elementwise and then by sums over all entries,

      1 · ((0 + Σ_r max((p_r − q_r) + 0, 0)) / 4096)  +  ½ · ((0 + Σ_r c_r) / 4096)  +  (1/10) · (√A + √B),

  which is the loss of the specification at the mean hinge of p and q, the mean of c, and A, B. Each of the three
  stretches of operations is first written as a function of the arrays it reads (arrays it does not write are
  unchanged); the composed function is then read at the scalar's one index: a sum over all entries of a 4096 × 1 array is
  the initial value plus the sum over its rows, a 1 × 1 array has one entry, and every operation is the exact one on
  extended reals.
-/
import proofs.«428835_j7438883356860_1_alg».proof.Proof.Gen.KernelIdeal.Launch
import proofs.«428835_j7438883356860_1_alg».proof.Proof.Spec
import Idealize.ShloMosaic.Lib.StableHlo.Run
import Idealize.ShloMosaic.Lib.ValueIdx
import Idealize.ShloMosaic.Lib.ValueLayout
import Idealize.ShloMosaic.PureOps.Ideal.Laws

noncomputable section

namespace Cert.KernelIdeal.Tail

open Idealize.ShloMosaic Idealize.ShloMosaic.TcCoe Idealize.SL.Sem
open Cert.KernelIdeal Cert.KernelIdeal.Gen

open ValueIdx

/-- The one index of a 1 × 1 array. -/
theorem idx11 (k : S1x1.Idx) : k = ix2 (0 : Fin 1) (0 : Fin 1) :=
  funext fun d => match d with
    | ⟨0, _⟩ => Subsingleton.elim (α := Fin 1) _ _
    | ⟨1, _⟩ => Subsingleton.elim (α := Fin 1) _ _

/-- A sum over the indices of a 4096 × 1 array is the sum over its rows. -/
theorem sum_col (f : S4096x1.Idx → EReal) : ∑ j : S4096x1.Idx, f j = ∑ r : Fin 4096, f (ix2 r (0 : Fin 1)) := by
  rw [sum_idx2]
  exact Finset.sum_congr rfl fun r _ => Fin.sum_univ_one _

/-! ## The three stretches, each as a function of the arrays it reads -/

theorem s1_v7 (V : Valuation τ sig (Elt Ideal)) :
    (StableHlo.after (hostOps3 (F := Ideal)) V (Proc.devRef .tc main_v7) : S4096x1.Idx → EReal)
      = addf (subf (V (Proc.devRef .tc main_v2_0)) (V (Proc.devRef .tc main_v2_1)))
          (broadcastInDim S4096x1 ![] bcast_S_S4096x1 (constant (F := Ideal) S_ .f32 0x00000000#32)) := by
  dsimp only [hostOps3]
  after_results

theorem s2_v8 (V : Valuation τ sig (Elt Ideal)) :
    (StableHlo.after (hostOps3_1 (F := Ideal)) V (Proc.devRef .tc main_v8) : S4096x1.Idx → EReal)
      = maximumf (V (Proc.devRef .tc main_v7))
          (broadcastInDim S4096x1 ![] bcast_S_S4096x1 (constant (F := Ideal) S_ .f32 0x00000000#32)) := by
  dsimp only [hostOps3_1]
  after_results
  simp only [StableHlo.TRef.ofBuf, StableHlo.TRef.toBuf, cast_eq]

theorem s3_v22 (V : Valuation τ sig (Elt Ideal)) :
    (StableHlo.after (hostOps3_2 (F := Ideal)) V (Proc.devRef .tc main_v22) : S_.Idx → EReal)
      = addf
          (addf
            (mulf (constant (F := Ideal) S_ .f32 0x3F800000#32)
              (Host.divf
                (Host.reduceAdd (V (Proc.devRef .tc main_v8)) (constant (F := Ideal) S_ .f32 0x00000000#32) reducesTo_S4096x1_S_d0_1 h_S_)
                (constant (F := Ideal) S_ .f32 0x45800000#32)))
            (mulf (constant (F := Ideal) S_ .f32 0x3F000000#32)
              (Host.divf
                (Host.reduceAdd (V (Proc.devRef .tc main_v3)) (constant (F := Ideal) S_ .f32 0x00000000#32) reducesTo_S4096x1_S_d0_1 h_S_)
                (constant (F := Ideal) S_ .f32 0x45800000#32))))
          (mulf (constant (F := Ideal) S_ .f32 0x3DCCCCCD#32)
            (addf (Host.sqrt (shapeCast S_ (V (Proc.devRef .tc main_v4_0)) shapeCasts_S1x1_S_))
              (Host.sqrt (shapeCast S_ (V (Proc.devRef .tc main_v4_1)) shapeCasts_S1x1_S_)))) := by
  dsimp only [hostOps3_2]
  after_results_simp
  rfl

/-- The second and third stretches leave the arrays the kernels wrote as they were. -/
theorem s2_v3 (V : Valuation τ sig (Elt Ideal)) :
    StableHlo.after (hostOps3_1 (F := Ideal)) V (Proc.devRef .tc main_v3) = V (Proc.devRef .tc main_v3) := by
  dsimp only [hostOps3_1]; after_results
theorem s2_v4_0 (V : Valuation τ sig (Elt Ideal)) :
    StableHlo.after (hostOps3_1 (F := Ideal)) V (Proc.devRef .tc main_v4_0) = V (Proc.devRef .tc main_v4_0) := by
  dsimp only [hostOps3_1]; after_results
theorem s2_v4_1 (V : Valuation τ sig (Elt Ideal)) :
    StableHlo.after (hostOps3_1 (F := Ideal)) V (Proc.devRef .tc main_v4_1) = V (Proc.devRef .tc main_v4_1) := by
  dsimp only [hostOps3_1]; after_results
theorem s1_v3 (V : Valuation τ sig (Elt Ideal)) :
    StableHlo.after (hostOps3 (F := Ideal)) V (Proc.devRef .tc main_v3) = V (Proc.devRef .tc main_v3) := by
  dsimp only [hostOps3]; after_results
theorem s1_v4_0 (V : Valuation τ sig (Elt Ideal)) :
    StableHlo.after (hostOps3 (F := Ideal)) V (Proc.devRef .tc main_v4_0) = V (Proc.devRef .tc main_v4_0) := by
  dsimp only [hostOps3]; after_results
theorem s1_v4_1 (V : Valuation τ sig (Elt Ideal)) :
    StableHlo.after (hostOps3 (F := Ideal)) V (Proc.devRef .tc main_v4_1) = V (Proc.devRef .tc main_v4_1) := by
  dsimp only [hostOps3]; after_results

/-! ## The tail's arithmetic, read at the one index of its scalar result -/

theorem tail_read (p q c : FVec Ideal S4096x1 .f32) (A B : FVec Ideal S1x1 .f32) (i : S_.Idx) :
    addf
        (addf
          (mulf (constant (F := Ideal) S_ .f32 0x3F800000#32)
            (Host.divf
              (Host.reduceAdd
                (maximumf
                  (addf (subf p q) (broadcastInDim S4096x1 ![] bcast_S_S4096x1 (constant (F := Ideal) S_ .f32 0x00000000#32)))
                  (broadcastInDim S4096x1 ![] bcast_S_S4096x1 (constant (F := Ideal) S_ .f32 0x00000000#32)))
                (constant (F := Ideal) S_ .f32 0x00000000#32) reducesTo_S4096x1_S_d0_1 h_S_)
              (constant (F := Ideal) S_ .f32 0x45800000#32)))
          (mulf (constant (F := Ideal) S_ .f32 0x3F000000#32)
            (Host.divf
              (Host.reduceAdd c (constant (F := Ideal) S_ .f32 0x00000000#32) reducesTo_S4096x1_S_d0_1 h_S_)
              (constant (F := Ideal) S_ .f32 0x45800000#32))))
        (mulf (constant (F := Ideal) S_ .f32 0x3DCCCCCD#32)
          (addf (Host.sqrt (shapeCast S_ A shapeCasts_S1x1_S_)) (Host.sqrt (shapeCast S_ B shapeCasts_S1x1_S_)))) i
      = Cert.Spec.loss (Cert.Spec.hingeMean (fun r => p (ix2 r (0 : Fin 1))) (fun r => q (ix2 r (0 : Fin 1))))
          (Ideal.div (0 + ∑ r : Fin 4096, c (ix2 r (0 : Fin 1))) Cert.Spec.n4096)
          (A (ix2 (0 : Fin 1) (0 : Fin 1))) (B (ix2 (0 : Fin 1) (0 : Fin 1))) := by
  simp only [addf, mulf, subf, maximumf, Host.divf, Host.sqrt, Host.reduceAdd, constant, broadcastInDim, shapeCast,
    Ideal.addf_def, Ideal.mulf_def, Ideal.subf_def, Ideal.maximumf_def, Ideal.hostDivf_def, Ideal.hostUnary_sqrt_def,
    Ideal.hostReduceAdd_def, Ideal.ofBits_def]
  rw [Ideal.hostReduceAdd_total reducesTo_S4096x1_S_d0_1 (fun b => b.elim0),
    Ideal.hostReduceAdd_total reducesTo_S4096x1_S_d0_1 (fun b => b.elim0), sum_col, sum_col,
    idx11 (Shape.reshapeEquiv shapeCasts_S1x1_S_ i)]
  simp only [addf, subf, maximumf, constant, broadcastInDim, Ideal.addf_def, Ideal.subf_def, Ideal.maximumf_def,
    Ideal.ofBits_def, Ideal.ofBits_zero_f32]
  rfl

/-! ## The kernel program's last three stretches -/

/-- After the three stretches the scalar result is the loss of: the mean hinge of the two mined columns, the mean of the
    cross-entropy column, and the two accumulated sums of squares. -/
theorem tail_result (W : Valuation τ sig (Elt Ideal)) (i : S_.Idx) :
    (StableHlo.after (hostOps3_2 (F := Ideal)) (StableHlo.after (hostOps3_1 (F := Ideal)) (StableHlo.after (hostOps3 (F := Ideal)) W)) (Proc.devRef .tc main_v22) : S_.Idx → EReal) i
      = Cert.Spec.loss
          (Cert.Spec.hingeMean (fun r => (W (Proc.devRef .tc main_v2_0) : S4096x1.Idx → EReal) (ix2 r (0 : Fin 1)))
            (fun r => (W (Proc.devRef .tc main_v2_1) : S4096x1.Idx → EReal) (ix2 r (0 : Fin 1))))
          (Ideal.div (0 + (∑ r : Fin 4096, (W (Proc.devRef .tc main_v3) : S4096x1.Idx → EReal) (ix2 r (0 : Fin 1)) : EReal)) Cert.Spec.n4096)
          ((W (Proc.devRef .tc main_v4_0) : S1x1.Idx → EReal) (ix2 (0 : Fin 1) (0 : Fin 1)))
          ((W (Proc.devRef .tc main_v4_1) : S1x1.Idx → EReal) (ix2 (0 : Fin 1) (0 : Fin 1))) := by
  rw [s3_v22, s2_v8, s2_v3, s2_v4_0, s2_v4_1, s1_v7, s1_v3, s1_v4_0, s1_v4_1]
  exact tail_read (W (Proc.devRef .tc main_v2_0)) (W (Proc.devRef .tc main_v2_1)) (W (Proc.devRef .tc main_v3))
    (W (Proc.devRef .tc main_v4_0)) (W (Proc.devRef .tc main_v4_1)) i

end Cert.KernelIdeal.Tail
end
-- ==== Proof.KValue.lean ====
/-
  The value of the kernel's program at the exact instance: the result buffer at the end of the run is the loss in the
  kernel's own forms — the hinge mean of the tile-by-tile running maximum and minimum of the masked distances, the mean
  of the rows' (log-sum-exp − picked logit), and the tile-by-tile sums of squared differences — as a function of the
  launch contents of the six arguments. Each region's output array is read off that region's proof data; the host
  stretch after the regions is read as the loss of those arrays; the arguments each region reads are the launch
  arrays, and the label column and row are the reshaped label vector.
-/
import proofs.«428835_j7438883356860_1_alg».proof.Proof.Walk
import proofs.«428835_j7438883356860_1_alg».proof.Proof.Labels
import proofs.«428835_j7438883356860_1_alg».proof.Proof.Val0
import proofs.«428835_j7438883356860_1_alg».proof.Proof.Val1
import proofs.«428835_j7438883356860_1_alg».proof.Proof.Val2
import proofs.«428835_j7438883356860_1_alg».proof.Proof.Tail
import proofs.«428835_j7438883356860_1_alg».proof.Proof.Spec

set_option maxRecDepth 16384

noncomputable section

namespace Cert.KernelIdeal.Val

open Idealize.ShloMosaic Idealize.ShloMosaic.TcCoe Idealize.SL.Sem Idealize.ShloMosaic.ValueIdx
open Cert.KernelIdeal Cert.KernelIdeal.Gen Cert.KernelIdeal.Fr
open Cert.KernelIdeal.Val0 (final0_3 final0_4)
open Cert.KernelIdeal.Val1 (final1)
open Cert.KernelIdeal.Val2 (final2_3 final2_4)
open Cert.KernelIdeal.Tail (tail_result)

variable (m : (ℓ : Loc nD τ sig) → Buf (Elt Ideal) ℓ)

/-- The launch arrays as functions of coordinates. -/
def C0 (c : Dev nD) : Fin 4096 → Fin 1024 → EReal := fun r k => (m ((c : Thread nD τ).loc main_arg0) : S4096x1024.Idx → EReal) (ix2 r k)
def A2 (c : Dev nD) : Fin 4096 → Fin 512 → EReal := fun r d => (m ((c : Thread nD τ).loc main_arg1) : S4096x512.Idx → EReal) (ix2 r d)
def A3 (c : Dev nD) : Fin 4096 → Fin 512 → EReal := fun r d => (m ((c : Thread nD τ).loc main_arg2) : S4096x512.Idx → EReal) (ix2 r d)
def A4 (c : Dev nD) : Fin 4096 → Fin 512 → EReal := fun r d => (m ((c : Thread nD τ).loc main_arg3) : S4096x512.Idx → EReal) (ix2 r d)
def X4 (c : Dev nD) : Fin 4096 → Fin 512 → EReal := fun r d => (m ((c : Thread nD τ).loc main_arg4) : S4096x512.Idx → EReal) (ix2 r d)
def T5 (c : Dev nD) : Fin 4096 → BitVec 32 := fun r => (m ((c : Thread nD τ).loc main_arg5) : S4096.Idx → BitVec 32) (ix1 r)

/-- The loss in the kernel's forms. -/
def lossK (c : Dev nD) : EReal :=
  Cert.Spec.loss
    (Cert.Spec.hingeMean (fun r => Cert.Spec.runPos (X4 m c) (T5 m c) r 8) (fun r => Cert.Spec.runNeg (X4 m c) (T5 m c) r 8))
    (Cert.Spec.xentK (C0 m c) (T5 m c))
    (Cert.Spec.accSq (A4 m c) (A2 m c) 8) (Cert.Spec.accSq (A4 m c) (A3 m c) 8)

/-- The label row at the first region's entry is the label column transposed (both are the label vector). -/
theorem htrow (c : Dev nD) (j : Fin 4096) :
    (Fr.V1 m c main_v1 : S1x4096.Idx → BitVec 32) (ix2 (0 : Fin 1) j) = (Fr.V1 m c main_v0 : S4096x1.Idx → BitVec 32) (ix2 j (0 : Fin 1)) :=
  (V1_main_v1_apply m c j).trans (V1_main_v0_apply m c j).symm

/-- The arrays each region is entered with are the launch arrays. -/
theorem hX1 (c : Dev nD) : (fun (r : Fin 4096) (d : Fin 512) => (Fr.V1 m c main_arg4 : S4096x512.Idx → EReal) (ix2 r d)) = X4 m c := by
  funext r d; exact congrFun (V1_main_arg4 m c) (ix2 r d)
theorem hT1 (c : Dev nD) : (fun (r : Fin 4096) => (Fr.V1 m c main_v0 : S4096x1.Idx → BitVec 32) (ix2 r (0 : Fin 1))) = T5 m c := by
  funext r; exact V1_main_v0_apply m c r
theorem hC2 (c : Dev nD) : (fun (r : Fin 4096) (k : Fin 1024) => (Fr.V2 m c main_arg0 : S4096x1024.Idx → EReal) (ix2 r k)) = C0 m c := by
  funext r k; exact congrFun (V2_main_arg0 m c) (ix2 r k)
theorem hT2 (c : Dev nD) : (fun (r : Fin 4096) => (Fr.V2 m c main_v0 : S4096x1.Idx → BitVec 32) (ix2 r (0 : Fin 1))) = T5 m c := by
  funext r; exact (congrFun (V2_main_v0 m c) (ix2 r (0 : Fin 1))).trans (V1_main_v0_apply m c r)
theorem hA2 (c : Dev nD) : (fun (r : Fin 4096) (d : Fin 512) => (Fr.V3 m c main_arg1 : S4096x512.Idx → EReal) (ix2 r d)) = A2 m c := by
  funext r d; exact congrFun (V3_main_arg1 m c) (ix2 r d)
theorem hA3 (c : Dev nD) : (fun (r : Fin 4096) (d : Fin 512) => (Fr.V3 m c main_arg2 : S4096x512.Idx → EReal) (ix2 r d)) = A3 m c := by
  funext r d; exact congrFun (V3_main_arg2 m c) (ix2 r d)
theorem hA4 (c : Dev nD) : (fun (r : Fin 4096) (d : Fin 512) => (Fr.V3 m c main_arg3 : S4096x512.Idx → EReal) (ix2 r d)) = A4 m c := by
  funext r d; exact congrFun (V3_main_arg3 m c) (ix2 r d)

theorem v2_0_eq (c : Dev nD) (r : Fin 4096) :
    (W4 m c (Proc.devRef .tc main_v2_0) : S4096x1.Idx → EReal) (ix2 r (0 : Fin 1)) = Cert.Spec.runPos (X4 m c) (T5 m c) r 8 := by
  rw [W4_main_v2_0, final0_3 (Fr.V1 m) c (htrow m c)]
  show Cert.Spec.runPos (fun (r : Fin 4096) (d : Fin 512) => (Fr.V1 m c main_arg4 : S4096x512.Idx → EReal) (ix2 r d))
    (fun (r : Fin 4096) => (Fr.V1 m c main_v0 : S4096x1.Idx → BitVec 32) (ix2 r (0 : Fin 1))) r 8 = _
  rw [hX1, hT1]

theorem v2_1_eq (c : Dev nD) (r : Fin 4096) :
    (W4 m c (Proc.devRef .tc main_v2_1) : S4096x1.Idx → EReal) (ix2 r (0 : Fin 1)) = Cert.Spec.runNeg (X4 m c) (T5 m c) r 8 := by
  rw [W4_main_v2_1, final0_4 (Fr.V1 m) c (htrow m c)]
  show Cert.Spec.runNeg (fun (r : Fin 4096) (d : Fin 512) => (Fr.V1 m c main_arg4 : S4096x512.Idx → EReal) (ix2 r d))
    (fun (r : Fin 4096) => (Fr.V1 m c main_v0 : S4096x1.Idx → BitVec 32) (ix2 r (0 : Fin 1))) r 8 = _
  rw [hX1, hT1]

theorem v3_eq (c : Dev nD) (r : Fin 4096) :
    (W4 m c (Proc.devRef .tc main_v3) : S4096x1.Idx → EReal) (ix2 r (0 : Fin 1)) = Cert.Spec.rowLossK (C0 m c) (T5 m c) r := by
  rw [W4_main_v3, final1 (Fr.V2 m) c]
  show Cert.Spec.rowLossK (fun (r : Fin 4096) (k : Fin 1024) => (Fr.V2 m c main_arg0 : S4096x1024.Idx → EReal) (ix2 r k))
    (fun (r : Fin 4096) => (Fr.V2 m c main_v0 : S4096x1.Idx → BitVec 32) (ix2 r (0 : Fin 1))) r = _
  rw [hC2, hT2]

theorem v4_0_eq (c : Dev nD) :
    (W4 m c (Proc.devRef .tc main_v4_0) : S1x1.Idx → EReal) (ix2 (0 : Fin 1) (0 : Fin 1)) = Cert.Spec.accSq (A4 m c) (A2 m c) 8 := by
  rw [W4_main_v4_0, final2_3 (Fr.V3 m) c]
  show Cert.Spec.accSq (fun (r : Fin 4096) (d : Fin 512) => (Fr.V3 m c main_arg3 : S4096x512.Idx → EReal) (ix2 r d))
    (fun (r : Fin 4096) (d : Fin 512) => (Fr.V3 m c main_arg1 : S4096x512.Idx → EReal) (ix2 r d)) 8 = _
  rw [hA4, hA2]

theorem v4_1_eq (c : Dev nD) :
    (W4 m c (Proc.devRef .tc main_v4_1) : S1x1.Idx → EReal) (ix2 (0 : Fin 1) (0 : Fin 1)) = Cert.Spec.accSq (A4 m c) (A3 m c) 8 := by
  rw [W4_main_v4_1, final2_4 (Fr.V3 m) c]
  show Cert.Spec.accSq (fun (r : Fin 4096) (d : Fin 512) => (Fr.V3 m c main_arg3 : S4096x512.Idx → EReal) (ix2 r d))
    (fun (r : Fin 4096) (d : Fin 512) => (Fr.V3 m c main_arg2 : S4096x512.Idx → EReal) (ix2 r d)) 8 = _
  rw [hA4, hA3]

/-- The result buffer at the last boundary is the loss in the kernel's forms. -/
theorem W7_result (c : Dev nD) (i : S_.Idx) : (W7 m c (Proc.devRef .tc main_v22) : S_.Idx → EReal) i = lossK m c := by
  show (StableHlo.after (hostOps3_2 (F := Ideal)) (StableHlo.after (hostOps3_1 (F := Ideal)) (StableHlo.after (hostOps3 (F := Ideal)) (W4 m c))) (Proc.devRef .tc main_v22) : S_.Idx → EReal) i = _
  rw [tail_result (W4 m c) i]
  unfold lossK Cert.Spec.xentK
  rw [show (fun (r : Fin 4096) => (W4 m c (Proc.devRef .tc main_v2_0) : S4096x1.Idx → EReal) (ix2 r (0 : Fin 1)))
        = (fun r => Cert.Spec.runPos (X4 m c) (T5 m c) r 8) from funext (v2_0_eq m c),
      show (fun (r : Fin 4096) => (W4 m c (Proc.devRef .tc main_v2_1) : S4096x1.Idx → EReal) (ix2 r (0 : Fin 1)))
        = (fun r => Cert.Spec.runNeg (X4 m c) (T5 m c) r 8) from funext (v2_1_eq m c),
      show (∑ r : Fin 4096, (W4 m c (Proc.devRef .tc main_v3) : S4096x1.Idx → EReal) (ix2 r (0 : Fin 1)) : EReal)
        = ∑ r : Fin 4096, Cert.Spec.rowLossK (C0 m c) (T5 m c) r from Finset.sum_congr rfl (fun r _ => v3_eq m c r),
      v4_0_eq, v4_1_eq]

/-- Every weakly fair execution of the kernel's program terminates with its result at the loss in the kernel's forms and
    every argument as launched. -/
theorem run_value (ρ : Dev nD → PrngReg) : θ_run defs (onTc (τ := τ) (main (F := Ideal))) ⟨m, fun _ => 0, ρ⟩ (fun r => ∀ c : Dev nD,
      r.2.mem ((c.tc : Thread nD τ).loc main_v22) = (fun _ => lossK m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_v22 (by decide))).trans (funext fun i => W7_result m c i),
     (h c _ (mem_uc main_arg0 (by decide))).trans (W7_main_arg0 m c),
     (h c _ (mem_uc main_arg1 (by decide))).trans (W7_main_arg1 m c),
     (h c _ (mem_uc main_arg2 (by decide))).trans (W7_main_arg2 m c),
     (h c _ (mem_uc main_arg3 (by decide))).trans (W7_main_arg3 m c),
     (h c _ (mem_uc main_arg4 (by decide))).trans (W7_main_arg4 m c),
     (h c _ (mem_uc main_arg5 (by decide))).trans (W7_main_arg5 m c)⟩) (run_all m ρ)

end Cert.KernelIdeal.Val

end
-- ==== Proof.RefFrob.lean ====
/-
  The reference's two Frobenius norms. Each is the square root of the sum, from zero, over every entry of a
  (4096,512) array of the squared difference of two arrays; the sum over all index pairs is the double sum over the
  rows and the columns, and the initial zero is absorbed.
-/
import proofs.«428835_j7438883356860_1_alg».proof.Proof.RefReadP
import proofs.«428835_j7438883356860_1_alg».proof.Proof.Spec
import Idealize.ShloMosaic.Lib.ValueIdx
import Idealize.ShloMosaic.Lib.Pipeline.Value
import Idealize.ShloMosaic.PureOps.Ideal.Laws

noncomputable section
namespace Cert.RefValue
open Idealize.ShloMosaic Idealize.ShloMosaic.ValueIdx Cert.ReferenceIdeal Cert.ReferenceIdeal.ReadP

/-- A (4096,512) array as a function of its row and column. -/
def ofMat (x : FVec Ideal S4096x512 .f32) : Fin 4096 → Fin 512 → EReal := fun r d => x (ix2 r d)

/-- The sum from zero over every entry of the squared differences is the double sum over rows and columns. -/
theorem sumsq_all (u w : FVec Ideal S4096x512 .f32) :
    Ideal.ofBits .f32 0x00000000#32 + ∑ j : S4096x512.Idx, (u j - w j) * (u j - w j)
      = Cert.Spec.sqDiff (ofMat u) (ofMat w) := by
  rw [Ideal.ofBits_zero_f32, zero_add, sum_idx2]
  rfl

theorem ref_frob42 (x1 x3 : FVec Ideal S4096x512 .f32) (i : S_.Idx) :
    val_main_v39 (F := Ideal) x1 x3 i = Ideal.sqrt (Cert.Spec.sqDiff (ofMat x3) (ofMat x1)) := by
  rw [val_main_v39_apply, val_main_v38_apply, Ideal.hostUnary_sqrt_def, ← sumsq_all x3 x1]
  rfl

theorem ref_frob43 (x2 x3 : FVec Ideal S4096x512 .f32) (i : S_.Idx) :
    val_main_v43 (F := Ideal) x2 x3 i = Ideal.sqrt (Cert.Spec.sqDiff (ofMat x3) (ofMat x2)) := by
  rw [val_main_v43_apply, val_main_v42_apply, Ideal.hostUnary_sqrt_def, ← sumsq_all x3 x2]
  rfl

end Cert.RefValue
end
-- ==== Proof.RefTrip.lean ====
/-
  The reference's triplet part read at an index. The distance matrix at (r, j) is the clipped distance of rows r and
  j: the two broadcasts of the row sums of squares, minus twice the product with the transpose, clipped below at ε,
  under the square root. The label mask at (r, j) tests the labels of r and j, so the two selects are the tables
  with the fills −M and M. A row reduction by the maximum from −∞ (the minimum from +∞) over the columns is the
  supremum (infimum) over the columns. The rest is read elementwise: the difference plus zero, clipped at zero, summed
  from zero over the rows and divided by the number of rows.
-/
import proofs.«428835_j7438883356860_1_alg».proof.Proof.RefReadP
import proofs.«428835_j7438883356860_1_alg».proof.Proof.Spec
import proofs.«428835_j7438883356860_1_alg».proof.Proof.RefFrob
import Idealize.ShloMosaic.Lib.ValueIdx
import Idealize.ShloMosaic.Lib.Pipeline.Value
import Idealize.ShloMosaic.Lib.StableHlo.Predicate
import Idealize.ShloMosaic.PureOps.Ideal.Laws

noncomputable section
namespace Cert.RefValue
open Idealize.ShloMosaic Idealize.ShloMosaic.ValueIdx Cert.ReferenceIdeal Cert.ReferenceIdeal.Gen Cert.ReferenceIdeal.ReadP

/-- The labels as a function of the row. -/
def labels (x5 : IVec S4096 32) : Fin 4096 → BitVec 32 := fun r => x5 (ix1 r)

/-! ## The distance matrix -/

section Dist
variable (x4 : FVec Ideal S4096x512 .f32)

/-- The row sums of squares. -/
theorem v1_at (r : Fin 4096) : val_main_v1 (F := Ideal) x4 (ix1 r) = Cert.Spec.sq (ofMat x4) r := by
  rw [val_main_v1_apply, val_main_cst_apply, Ideal.ofBits_def, Ideal.ofBits_zero_f32, zero_add]
  refine Finset.sum_congr rfl fun k _ => ?_
  rw [val_main_v0_apply, Ideal.mulf_def]
  have e : idx_main_v1 (ix1 r) k = ix2 r k :=
    funext fun a => Fin.ext (by match a with | ⟨0, _⟩ => rfl | ⟨1, _⟩ => rfl)
  rw [e]
  rfl

/-- The two broadcasts of the row sums, added. -/
theorem v6_at (r j : Fin 4096) :
    val_main_v6 (F := Ideal) x4 (ix2 r j) = Cert.Spec.sq (ofMat x4) r + Cert.Spec.sq (ofMat x4) j := by
  have e1 : idx_main_v2 (idx_main_v4 (ix2 r j)) = ix1 r :=
    funext fun a => Fin.ext (by match a with | ⟨0, _⟩ => rfl)
  have e2 : idx_main_v3 (idx_main_v5 (ix2 r j)) = ix1 j :=
    funext fun a => Fin.ext (by match a with | ⟨0, _⟩ => rfl)
  rw [val_main_v6_apply, val_main_v4_apply, val_main_v2_apply, val_main_v5_apply, val_main_v3_apply, e1, e2,
    v1_at, v1_at, Ideal.addf_def]

/-- The product with the transpose: the inner products of the rows. -/
theorem v8_at (r j : Fin 4096) : val_main_v8 (F := Ideal) x4 (ix2 r j) = Cert.Spec.gram (ofMat x4) r j := by
  rw [val_main_v8_apply]
  refine Finset.sum_congr rfl fun k _ => ?_
  rw [val_main_v7_apply]
  have e1 : lidx_main_v8 (ix2 r j) k = ix2 r k :=
    funext fun a => Fin.ext (by match a with | ⟨0, _⟩ => rfl | ⟨1, _⟩ => rfl)
  have e2 : idx_main_v7 (ridx_main_v8 (ix2 r j) k) = ix2 j k :=
    funext fun a => Fin.ext (by match a with | ⟨0, _⟩ => rfl | ⟨1, _⟩ => rfl)
  rw [e1, e2]
  rfl

/-- The clipped distance. -/
theorem v13_at (r j : Fin 4096) : val_main_v13 (F := Ideal) x4 (ix2 r j) = Cert.Spec.dist (ofMat x4) r j := by
  rw [val_main_v13_apply, val_main_v12_apply, val_main_call0_v1_apply, val_main_call0_v0_apply, val_main_cst_1_apply,
    val_main_v11_apply, val_main_v10_apply, val_main_v9_apply, val_main_cst_0_apply, v6_at, v8_at]
  rfl

end Dist

/-! ## The label mask and the two filled tables -/

/-- A select on an equality test is an if-then-else on the equality. -/
theorem select_cmpi_eq {α : Type} (p q : BitVec 32) (u v : α) :
    Scalar.select (IntOp.cmpi .eq p q) u v = if p = q then u else v := by
  by_cases h : p = q
  · rw [if_pos h, StableHlo.Predicate.cmpi_eq_iff.mpr h, select_one]
  · rw [if_neg h, eq_zero_of_ne_one (fun h1 => h (StableHlo.Predicate.cmpi_eq_iff.mp h1)), select_zero]

section Mask
variable (x4 : FVec Ideal S4096x512 .f32) (x5 : IVec S4096 32)

/-- The mask at (r, j) tests the labels of rows r and j. -/
theorem v18_at (r j : Fin 4096) :
    val_main_v18 (F := Ideal) x5 (ix2 r j) = IntOp.cmpi .eq (labels x5 r) (labels x5 j) := by
  have e1 : idx_main_v14 (idx_main_v16 (ix2 r j)) = ix1 r :=
    funext fun a => Fin.ext (by match a with | ⟨0, _⟩ => rfl)
  have e2 : idx_main_v15 (idx_main_v17 (ix2 r j)) = ix1 j :=
    funext fun a => Fin.ext (by match a with | ⟨0, _⟩ => rfl)
  rw [val_main_v18_apply, val_main_v16_apply, val_main_v14_apply, val_main_v17_apply, val_main_v15_apply, e1, e2]
  rfl

/-- The table for the hardest positive: the distance where the labels agree, else −M. -/
theorem v20_at (r j : Fin 4096) :
    val_main_v20 (F := Ideal) x4 x5 (ix2 r j)
      = Cert.Spec.posEntry (ofMat x4) (labels x5) (-Cert.Spec.big) r j := by
  rw [val_main_v20_apply, v18_at, v13_at, val_main_call1_v0_apply, val_main_v19_apply, val_main_cst_2_apply,
    select_cmpi_eq]
  rfl

/-- The table for the hardest negative: M where the labels agree, else the distance. -/
theorem v22_at (r j : Fin 4096) :
    val_main_v22 (F := Ideal) x4 x5 (ix2 r j)
      = Cert.Spec.negEntry (ofMat x4) (labels x5) Cert.Spec.big r j := by
  rw [val_main_v22_apply, v18_at, v13_at, val_main_call2_v0_apply, val_main_cst_4_apply, select_cmpi_eq]
  rfl

end Mask

/-! ## The row maximum and minimum -/

/-- The word of −∞. -/
theorem ninf_word : Ideal.ofBits .f32 0xFF800000#32 = ⊥ := by
  simp [Ideal.ofBits, Ideal.ieee]

/-- The word of +∞. -/
theorem pinf_word : Ideal.ofBits .f32 0x7F800000#32 = ⊤ := by
  simp [Ideal.ofBits, Ideal.ieee]

/-- A fold of the maximum from −∞ is the supremum. -/
theorem fold_max_bot {ι : Type} [DecidableEq ι] (s : Finset ι) (g : ι → EReal) :
    s.fold (FloatOps.maximumf (F := Ideal) (φ := .f32)) ⊥ g = s.sup g := by
  refine Finset.induction_on s (by simp) ?_
  intro a s ha ih
  rw [Finset.fold_insert ha, Finset.sup_insert, ih]
  rfl

/-- A fold of the minimum from +∞ is the infimum. -/
theorem fold_min_top {ι : Type} [DecidableEq ι] (s : Finset ι) (g : ι → EReal) :
    s.fold (FloatOps.minimumf (F := Ideal) (φ := .f32)) ⊤ g = s.inf g := by
  refine Finset.induction_on s (by simp) ?_
  intro a s ha ih
  rw [Finset.fold_insert ha, Finset.inf_insert, ih]
  rfl

section Rows
variable (x4 : FVec Ideal S4096x512 .f32) (x5 : IVec S4096 32)

theorem v21_at (r : Fin 4096) :
    val_main_v21 (F := Ideal) x4 x5 (ix1 r) = Cert.Spec.hardPos (ofMat x4) (labels x5) r := by
  unfold val_main_v21
  rw [Host.reduce_eq_fold_single FloatOps.maximumf _ _ reducesTo_S4096x4096_S4096_d1 (by decide) h_S_]
  rw [val_main_cst_3_apply, Ideal.ofBits_def, ninf_word, fold_max_bot]
  unfold Cert.Spec.hardPos
  refine Finset.sup_congr rfl fun (k : Fin 4096) _ => ?_
  have e : (by decide : S4096x4096.Reduces [1] S4096).lift (ix1 r) k = ix2 r k :=
    funext fun a => Fin.ext (by match a with | ⟨0, _⟩ => rfl | ⟨1, _⟩ => rfl)
  show val_main_v20 (F := Ideal) x4 x5 ((by decide : S4096x4096.Reduces [1] S4096).lift (ix1 r) k) = _
  rw [e, v20_at]

theorem v23_at (r : Fin 4096) :
    val_main_v23 (F := Ideal) x4 x5 (ix1 r) = Cert.Spec.hardNeg (ofMat x4) (labels x5) r := by
  unfold val_main_v23
  rw [Host.reduce_eq_fold_single FloatOps.minimumf _ _ reducesTo_S4096x4096_S4096_d1 (by decide) h_S_]
  rw [val_main_cst_5_apply, Ideal.ofBits_def, pinf_word, fold_min_top]
  unfold Cert.Spec.hardNeg
  refine Finset.inf_congr rfl fun (k : Fin 4096) _ => ?_
  have e : (by decide : S4096x4096.Reduces [1] S4096).lift (ix1 r) k = ix2 r k :=
    funext fun a => Fin.ext (by match a with | ⟨0, _⟩ => rfl | ⟨1, _⟩ => rfl)
  show val_main_v22 (F := Ideal) x4 x5 ((by decide : S4096x4096.Reduces [1] S4096).lift (ix1 r) k) = _
  rw [e, v22_at]

end Rows

/-! ## The mean hinge -/

/-- A sum over the indices of a vector is the sum over the coordinate. -/
theorem sum_idx1 {M : Type} [AddCommMonoid M] {n : Nat} (f : (⟨1, ![n]⟩ : Shape).Idx → M) :
    ∑ i, f i = ∑ a : Fin n, f (ix1 a) := by
  let e : (⟨1, ![n]⟩ : Shape).Idx ≃ Fin n :=
    ⟨fun i => i 0, fun a => ix1 a, fun i => (eq_ix1 i).symm, fun _ => rfl⟩
  rw [← Equiv.sum_comp e.symm f]
  rfl

section Hinge
variable (x4 : FVec Ideal S4096x512 .f32) (x5 : IVec S4096 32)

/-- A row's hinge: the difference of the hardest positive and negative, plus zero, clipped at zero. -/
theorem v27_at (r : Fin 4096) :
    val_main_v27 (F := Ideal) x4 x5 (ix1 r)
      = max ((Cert.Spec.hardPos (ofMat x4) (labels x5) r - Cert.Spec.hardNeg (ofMat x4) (labels x5) r) + 0) 0 := by
  rw [val_main_v27_apply, val_main_v26_apply, val_main_v24_apply, v21_at, v23_at, val_main_v25_apply,
    val_main_cst_6_apply, val_main_call3_v0_apply, val_main_call3_cst_apply, Ideal.ofBits_def,
    Ideal.ofBits_zero_f32]
  rfl

theorem ref_hinge (i : S_.Idx) :
    val_main_v29 (F := Ideal) x4 x5 i
      = Cert.Spec.hingeMean (Cert.Spec.hardPos (ofMat x4) (labels x5)) (Cert.Spec.hardNeg (ofMat x4) (labels x5)) := by
  rw [val_main_v29_apply, val_main_v28_apply, val_main_cst_7_apply, val_main_cst_8_apply, Ideal.hostDivf_def,
    Ideal.ofBits_def, Ideal.ofBits_def, Ideal.ofBits_zero_f32, sum_idx1,
    Finset.sum_congr rfl (fun r _ => v27_at x4 x5 r)]
  rfl

end Hinge

end Cert.RefValue
end
-- ==== Proof.RefXent.lean ====
/-
  The reference's cross-entropy, read as mathematics.

  log_softmax: the row maximum m_r is a reduction of the binary maximum over the 1024 classes from the word of −∞; a fold
  of max from the bottom of the extended reals over a finite type is the supremum, so m_r = sup_k c_{r,k}. A second
  maximum against a broadcast −∞ changes nothing (max ⊥ m = m). Then s_{r,k} = c_{r,k} − m_r, the row sum
  S_r = 0 + Σ_k exp s_{r,k} = Σ_k exp s_{r,k}, and the result s_{r,k} − log S_r: the log-probability of class k in row r.

  take_along_axis: a label t with 0 ≤ t < 1024 is, as a signed 32-bit word, not below 0 (its value is below 2³¹), so the
  wrap-around select keeps it; the range test 0 ≤ t ≤ 1023 holds, and its conjunction over a unit axis from 1 is 1.
  The gather batches over the rows (operand axis 0 with start-indices axis 0) and collapses the class axis, whose start
  is the row's start index read signed and clamped into [0, 1023]; with t in range the clamp and the signed reading
  are the identity, so element (r, 0) is the log-probability of class t_r in row r, and the select on the range test
  keeps it (the not-a-number fill is never chosen).

  The mean: the sum over all (row, 0) positions from the zero word is 0 + Σ_r (the sum over the unit column is its one
  term), divided by the word of 4096 and negated.
-/
import proofs.«428835_j7438883356860_1_alg».proof.Proof.RefReadP
import proofs.«428835_j7438883356860_1_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.Lib.StableHlo.Predicate

noncomputable section
namespace Cert.RefValue
open Cert.ReferenceIdeal Cert.ReferenceIdeal.Gen Idealize.ShloMosaic Idealize.ShloMosaic.ValueIdx
open Cert.ReferenceIdeal.ReadP

namespace Xent

/-! ## The two words of log_softmax -/

/-- The word 0xFF800000 denotes −∞, the bottom of the extended reals. -/
theorem negInf_word : Ideal.ofBits .f32 0xFF800000#32 = (⊥ : EReal) := by
  simp [Ideal.ofBits, Ideal.ieee]

/-! ## The row maximum -/

/-- The logits as a table of rows and classes. -/
abbrev tbl (x0 : FVec Ideal S4096x1024 .f32) : Fin 4096 → Fin 1024 → EReal := fun r k => x0 (ix2 r k)

/-- A fold of the binary maximum from −∞ over a finite type is the supremum. -/
theorem fold_max_bot {ι : Type} [Fintype ι] (f : ι → EReal) :
    (Finset.univ : Finset ι).fold max (⊥ : EReal) f = Finset.univ.sup f := rfl

/-- Row j's index with class k put back on the dropped axis is (j, k). -/
theorem lift_row (h : S4096x1024.Reduces [1] S4096) (j : S4096.Idx) (k : Fin (S4096x1024.size 1)) :
    h.lift j k = ix2 (j 0) (⟨k.val, k.isLt⟩ : Fin 1024) := by
  funext c; apply Fin.ext
  fin_cases c <;> rfl

/-- The reduction of the maximum over the classes, from the word of −∞, is at row j the supremum of the row. -/
theorem rowMax_read (x0 : FVec Ideal S4096x1024 .f32) (j : S4096.Idx) :
    val_main_call4_v0 (F := Ideal) x0 j = Cert.Spec.rowMax (tbl x0) (j 0) := by
  unfold val_main_call4_v0
  rw [Host.reduce_eq_fold_single FloatOps.maximumf x0 _ reducesTo_S4096x1024_S4096_d1 (by decide) h_S_]
  rw [val_main_call4_cst_apply]
  show Finset.fold max (Ideal.ofBits .f32 0xFF800000#32) _ _ = _
  rw [negInf_word]
  unfold Cert.Spec.rowMax
  rw [← fold_max_bot]
  refine congrArg (fun f => Finset.fold max (⊥ : EReal) f (Finset.univ : Finset (Fin 1024))) ?_
  funext k
  exact congrArg x0 (lift_row _ j k)

/-! ## log_softmax read at an element -/

/-- The second maximum, against a broadcast −∞, changes nothing: the stage after it is still the row's supremum. -/
theorem rowMax2_read (x0 : FVec Ideal S4096x1024 .f32) (j : S4096.Idx) :
    val_main_call4_v2 (F := Ideal) x0 j = Cert.Spec.rowMax (tbl x0) (j 0) := by
  rw [val_main_call4_v2_apply, val_main_call4_v1_apply, val_main_call4_cst_0_apply, rowMax_read]
  show max (Ideal.ofBits .f32 0xFF800000#32) _ = _
  rw [negInf_word]
  exact max_eq_right bot_le

/-- The shifted logit at (r, k): the logit minus its row's supremum. -/
theorem shifted_read (x0 : FVec Ideal S4096x1024 .f32) (i : S4096x1024.Idx) :
    val_main_call4_v5 (F := Ideal) x0 i = x0 i - Cert.Spec.rowMax (tbl x0) (i 0) := by
  rw [val_main_call4_v5_apply, val_main_call4_v4_apply, val_main_call4_v3_apply, rowMax2_read]
  rfl

/-- The row's sum of exponentials, from the zero word. -/
theorem sumExp_read (x0 : FVec Ideal S4096x1024 .f32) (j : S4096.Idx) :
    val_main_call4_v7 (F := Ideal) x0 j = Cert.Spec.sumExp (tbl x0) (j 0) := by
  rw [val_main_call4_v7_apply, val_main_call4_cst_1_apply]
  show Ideal.ofBits .f32 0x00000000#32 + _ = _
  rw [Ideal.ofBits_zero_f32, zero_add]
  unfold Cert.Spec.sumExp
  refine Finset.sum_congr rfl fun k _ => ?_
  have e : idx_main_call4_v7 j k = ix2 (j 0) k := by
    funext a; match a with | ⟨0, _⟩ => rfl | ⟨1, _⟩ => rfl
  rw [val_main_call4_v6_apply, shifted_read, e]
  rfl

/-- log_softmax's result at (r, k) is the log-probability of class k in row r. -/
theorem logProb_read (x0 : FVec Ideal S4096x1024 .f32) (i : S4096x1024.Idx) :
    val_main_v30 (F := Ideal) x0 i = Cert.Spec.logProb (tbl x0) (i 0) (i 1) := by
  rw [val_main_v30_apply, shifted_read, val_main_call4_v10_apply, val_main_call4_v9_apply, val_main_call4_v8_apply,
    sumExp_read]
  unfold Cert.Spec.logProb
  rw [eq_ix2 i]
  rfl

/-! ## take_along_axis -/

section Take
variable (x5 : IVec S4096 32) (hrange : ∀ i : S4096.Idx, (x5 i).toNat < 1024)
include hrange

/-- A label in range is not negative as a signed word, so the wrap-around select keeps it. -/
theorem label_read (j : S4096x1.Idx) : val_main_call5_v4 (F := Ideal) x5 j = x5 (idx_main_v31 j) := by
  rw [val_main_call5_v4_apply, val_main_call5_v1_apply, val_main_v31_apply, val_main_call5_v0_apply,
    val_main_call5_c_apply]
  have hlt : IntOp.cmpi .slt (x5 (idx_main_v31 j)) 0#32 = 0#1 := by
    refine eq_zero_of_ne_one fun h => ?_
    have := (StableHlo.Predicate.slt_iff_toNat (by have := hrange (idx_main_v31 j); omega) (by decide)).1 h
    simp at this
  rw [hlt, select_zero]

/-- The range test 0 ≤ label ≤ 1023 holds at every position. -/
theorem inRange_read (j : S4096x1x1.Idx) : val_main_call5_v11 (F := Ideal) x5 j = 1#1 := by
  rw [val_main_call5_v11_apply, val_main_call5_v7_apply, val_main_call5_v10_apply, val_main_call5_v5_apply,
    label_read x5 hrange, val_main_call5_v6_apply, val_main_call5_c_2_apply, val_main_call5_v9_apply,
    val_main_call5_v8_apply, val_main_call5_c_1_apply]
  have hr := hrange (idx_main_v31 (idx_main_call5_v5 j))
  have hge : IntOp.cmpi .sge (x5 (idx_main_v31 (idx_main_call5_v5 j))) 0#32 = 1#1 :=
    (StableHlo.Predicate.sge_iff_toNat (by omega) (by decide)).2 (Nat.zero_le _)
  have hle : IntOp.cmpi .sle (x5 (idx_main_v31 (idx_main_call5_v5 j))) 1023#32 = 1#1 :=
    (StableHlo.Predicate.sle_iff_toNat (by omega) (by decide)).2 (by show _ ≤ 1023; omega)
  rw [hge, hle]
  rfl

omit hrange in
/-- A left fold of the conjunction from 1 over words that are all 1 is 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a]
    exact foldl_andi_ones f hf l

/-- The range test and-reduced over its unit axis is still true. -/
theorem allInRange_read (j : S4096x1.Idx) : val_main_call5_v12 (F := Ideal) x5 j = 1#1 := by
  unfold val_main_call5_v12
  rw [Host.reduce_eq_foldl, val_main_call5_c_3_apply]
  exact foldl_andi_ones _ (inRange_read x5 hrange) _

end Take

/-! ## The gather: element (r, 0) of the result is the operand at (r, start index of row r) -/

section Gather
variable {α : Type}

/-- The printed gather's dimension numbers. -/
local notation "G" => gather_S4096x1024_S4096x1x1_S4096x1_n_1_0_0_1_2_11

/-- Whatever component of the start index is asked for (there is one), result position (r, c) reads the start
    indices at (r, c, 0). -/
theorem siIdx_read (j : S4096x1.Idx) (c : Fin (G).startIndexMap.length) : (G).siIdx j c = takeIdx j := by
  funext b
  refine Fin.ext ?_
  match b with
  | ⟨0, _⟩ => rfl
  | ⟨1, _⟩ => rfl
  | ⟨2, _⟩ =>
    show c.val = 0
    have hc : c.val < 1 := c.isLt
    omega

/-- The printed gather read at a result position: the batching axis carries the row across, the collapsed axis
    reads the start index of that row, signed and clamped into the classes. -/
theorem gather_read (x : S4096x1024.Idx → α) (idx : IVec S4096x1x1 32) (j : S4096x1.Idx) :
    Host.gather G x idx j
      = x (ix2 (j 0) (⟨min (idx (takeIdx j)).toInt.toNat 1023, by omega⟩ : Fin 1024)) := by
  unfold Host.gather
  congr 1
  funext a
  refine Fin.ext ?_
  match a with
  | ⟨0, h0⟩ =>
    show (G).start j idx ⟨0, h0⟩ + (G).batchCoord j ⟨0, h0⟩ + (G).offCoord j ⟨0, h0⟩ = (j 0).val
    have hb : (⟨0, h0⟩ : Fin S4096x1024.rank) ∈ (G).operandBatchingDims := List.mem_singleton.mpr rfl
    rw [(G).start_batching j idx _ hb, (G).offCoord_eq_zero j _ (fun h => (((G).mem_sKept _).mp h).2 hb)]
    simp only [Nat.zero_add, Nat.add_zero]
    unfold GatherDims.batchCoord
    rw [dif_pos hb]
    rfl
  | ⟨1, h1⟩ =>
    show (G).start j idx ⟨1, h1⟩ + (G).batchCoord j ⟨1, h1⟩ + (G).offCoord j ⟨1, h1⟩ = min (idx (takeIdx j)).toInt.toNat 1023
    have hc : (⟨1, h1⟩ : Fin S4096x1024.rank) ∈ (G).collapsedSliceDims := List.mem_singleton.mpr rfl
    have hs : (⟨1, h1⟩ : Fin S4096x1024.rank) ∈ (G).startIndexMap := List.mem_singleton.mpr rfl
    have hnb : (⟨1, h1⟩ : Fin S4096x1024.rank) ∉ (G).operandBatchingDims := by
      intro h; exact Nat.one_ne_zero (congrArg Fin.val (List.mem_singleton.mp h))
    rw [(G).batchCoord_eq_zero j _ hnb, (G).offCoord_eq_zero j _ (fun h => (((G).mem_sKept _).mp h).1 hc)]
    simp only [Nat.add_zero]
    unfold GatherDims.start
    rw [dif_pos hs, siIdx_read]
    rfl

end Gather

/-! ## take_along_axis's result, and the mean -/

section Pick
variable (x0 : FVec Ideal S4096x1024 .f32) (x5 : IVec S4096 32) (hrange : ∀ i : S4096.Idx, (x5 i).toNat < 1024)
include hrange

/-- The label the gather's start index at (r, c, 0) carries is row r's. -/
theorem start_read (j : S4096x1.Idx) : val_main_call5_v5 (F := Ideal) x5 (takeIdx j) = x5 (ix1 (j 0)) := by
  rw [val_main_call5_v5_apply, label_read x5 hrange]
  refine congrArg x5 ?_
  funext a
  refine Fin.ext ?_
  match a with
  | ⟨0, _⟩ =>
    show (((j 0).val * 1 + (j 1).val) * 1 + 0) / 1 = (j 0).val
    have := idx2_lt1 j
    omega

/-- take_along_axis at (r, c): the log-probability of row r's label. -/
theorem take_read (j : S4096x1.Idx) :
    val_main_v32 (F := Ideal) x0 x5 j
      = Cert.Spec.logProb (tbl x0) (j 0) ⟨(x5 (ix1 (j 0))).toNat, hrange _⟩ := by
  rw [val_main_v32_apply, allInRange_read x5 hrange, select_one]
  unfold val_main_call5_v13
  rw [gather_read, logProb_read]
  have ht := hrange (ix1 (j 0))
  have hi : (val_main_call5_v5 (F := Ideal) x5 (takeIdx j)).toInt.toNat = (x5 (ix1 (j 0))).toNat := by
    rw [start_read x5 hrange, StableHlo.Predicate.toInt_eq_toNat_of_lt (by omega), Int.toNat_natCast]
  refine congrArg (Cert.Spec.logProb (tbl x0) (j 0)) (Fin.ext ?_)
  show min (val_main_call5_v5 (F := Ideal) x5 (takeIdx j)).toInt.toNat 1023 = (x5 (ix1 (j 0))).toNat
  rw [hi]
  omega

end Pick

end Xent

open Xent in
/-- THE REFERENCE'S CROSS-ENTROPY: the sum over all (row, 0) entries from the zero word, divided by the word of 4096
    and negated, is the negated mean of the picked log-probabilities. -/
theorem ref_xent (x0 : FVec Ideal S4096x1024 .f32) (x5 : IVec S4096 32) (hrange : ∀ i : S4096.Idx, (x5 i).toNat < 1024) (i : S_.Idx) :
    Cert.ReferenceIdeal.ReadP.val_main_v35 (F := Ideal) x0 x5 i = Cert.Spec.xentR (fun r k => x0 (ValueIdx.ix2 r k)) (fun r => ⟨(x5 (ValueIdx.ix1 r)).toNat, hrange _⟩) := by
  rw [val_main_v35_apply, val_main_v34_apply, val_main_v33_apply, val_main_cst_9_apply, val_main_cst_10_apply]
  show -(Ideal.div (Ideal.ofBits .f32 0x00000000#32 + _) (Ideal.ofBits .f32 0x45800000#32)) = _
  rw [Ideal.ofBits_zero_f32, sum_idx2]
  unfold Cert.Spec.xentR
  refine congrArg (fun s => -(Ideal.div (0 + s) Cert.Spec.n4096)) ?_
  refine Finset.sum_congr rfl fun r _ => ?_
  rw [Fin.sum_univ_one, take_read x0 x5 hrange]

end Cert.RefValue
end
-- ==== Proof.RefRead.lean ====
/-
  The reference program's result is the loss in the reference's forms: its last stages are 1·T + ½·X + (1/10)·(√A + √B)
  with T the hinge mean of the hardest positives and negatives, X the negated mean of the picked log-probabilities,
  A and B the two sums of squared differences.
-/
import proofs.«428835_j7438883356860_1_alg».proof.Proof.RefTrip
import proofs.«428835_j7438883356860_1_alg».proof.Proof.RefFrob
import proofs.«428835_j7438883356860_1_alg».proof.Proof.RefXent
import proofs.«428835_j7438883356860_1_alg».proof.Proof.Spec

noncomputable section

namespace Cert.RefValue

open Idealize.ShloMosaic Idealize.ShloMosaic.ValueIdx Cert.ReferenceIdeal

/-- The reference's loss as a function of its argument arrays. -/
def lossR (x0 : FVec Ideal S4096x1024 .f32) (x1 x2 x3 x4 : FVec Ideal S4096x512 .f32) (x5 : IVec S4096 32)
    (hrange : ∀ i : S4096.Idx, (x5 i).toNat < 1024) : EReal :=
  Cert.Spec.loss
    (Cert.Spec.hingeMean (Cert.Spec.hardPos (fun r d => x4 (ix2 r d)) (fun r => x5 (ix1 r))) (Cert.Spec.hardNeg (fun r d => x4 (ix2 r d)) (fun r => x5 (ix1 r))))
    (Cert.Spec.xentR (fun r k => x0 (ix2 r k)) (fun r => ⟨(x5 (ix1 r)).toNat, hrange _⟩))
    (Cert.Spec.sqDiff (fun r d => x3 (ix2 r d)) (fun r d => x1 (ix2 r d)))
    (Cert.Spec.sqDiff (fun r d => x3 (ix2 r d)) (fun r d => x2 (ix2 r d)))

theorem ref_eq (x0 : FVec Ideal S4096x1024 .f32) (x1 x2 x3 x4 : FVec Ideal S4096x512 .f32) (x5 : IVec S4096 32)
    (hrange : ∀ i : S4096.Idx, (x5 i).toNat < 1024) (i : S_.Idx) :
    Cert.ReferenceIdeal.ReadP.val_main_v49 (F := Ideal) x0 x1 x2 x3 x4 x5 i = lossR x0 x1 x2 x3 x4 x5 hrange := by
  rw [Cert.ReferenceIdeal.ReadP.val_main_v49_apply, Cert.ReferenceIdeal.ReadP.val_main_v46_apply, Cert.ReferenceIdeal.ReadP.val_main_v44_apply,
    Cert.ReferenceIdeal.ReadP.val_main_v45_apply, Cert.ReferenceIdeal.ReadP.val_main_v48_apply, Cert.ReferenceIdeal.ReadP.val_main_v47_apply,
    ref_hinge, ref_xent x0 x5 hrange, ref_frob42, ref_frob43]
  rfl

end Cert.RefValue

end
-- ==== Proof.RefRun.lean ====
/-
  The reference's run with its result given as the last stage of the program read one operation at a time: the run's
  composed term of the arguments is that stage.
-/
import proofs.«428835_j7438883356860_1_alg».proof.Proof.RefRunP
import proofs.«428835_j7438883356860_1_alg».proof.Proof.RefReadP

noncomputable section

namespace Cert.RefValue

open Cert.ReferenceIdeal Idealize.ShloMosaic Idealize.ShloMosaic.TcCoe Idealize.SL.Sem

variable {F : FTy → Type} [FloatOps F]

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v49) = Cert.ReferenceIdeal.ReadP.val_main_v49 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (Cert.ReferenceIdeal.ValueP.val_main_v49_eq m c), (h c).2⟩)
    (Cert.ReferenceIdeal.ValueP.run m ρ)

end Cert.RefValue

end
-- ==== Proof.PreRead.lean ====
/-
  The input precondition, read back. The printed predicate is the conjunction of seven tests, each a conjunction over
  every entry of one argument: |entry| < +∞ for the five real arrays, and 0 ≤ label and label < 1024 (both signed) for the
  labels. That the whole is true gives, entry by entry: each logit is a real (neither infinity), and each label, read
  as an unsigned word, is below 1024.
-/
import proofs.«428835_j7438883356860_1_alg».proof.Proof.Gen.Pre_finite_inputs
import Idealize.ShloMosaic.PureOps.Ideal
import Idealize.ShloMosaic.Lib.ReduceAll
import Idealize.ShloMosaic.Lib.StableHlo.Predicate

noncomputable section

namespace Cert.PreRead

open Idealize.ShloMosaic Cert.Pre_finite_inputs

/-- The scalar shape has exactly one index. -/
instance : Subsingleton S_.Idx := ⟨fun a b => funext fun d => d.elim0⟩

/-- The word 0x7F800000 denotes +∞. -/
theorem inf_word : Ideal.ofBits .f32 0x7F800000#32 = (⊤ : EReal) := by simp [Ideal.ofBits, Ideal.ieee]

/-- An extended real whose absolute value max(x, −x) is strictly below +∞ is neither infinity. -/
theorem real_of_abs_lt_inf (x : EReal)
    (h : Ideal.cmp .olt (max x (-x)) (Ideal.ofBits .f32 0x7F800000#32) = 1#1) : x ≠ ⊤ ∧ x ≠ ⊥ := by
  rw [inf_word] at h
  induction x using EReal.rec with
  | bot => simp [Ideal.cmp] at h
  | top => simp [Ideal.cmp] at h
  | coe r => exact ⟨EReal.coe_ne_top r, EReal.coe_ne_bot r⟩

/-- A 32-bit word that is ≥ 0 and < 1024 as a signed number is below 1024 as an unsigned one:
    0 ≤ signed value forces the top bit clear, so signed and unsigned values agree. -/
theorem toNat_lt_1024 (w : BitVec 32) (h0 : IntOp.cmpi .sge w 0#32 = 1#1) (h1 : IntOp.cmpi .slt w 1024#32 = 1#1) :
    w.toNat < 1024 := by
  have hm : w.msb = false := by
    by_contra hc
    have hneg : w.toInt < 0 := BitVec.toInt_neg_iff.mpr (by
      have := (BitVec.msb_eq_false_iff_two_mul_lt (x := w)).not.mp hc
      omega)
    have hge : (0#32 : BitVec 32).toInt ≤ w.toInt := by
      unfold IntOp.cmpi at h0
      exact BitVec.sle_iff_toInt_le.mp ((StableHlo.Predicate.ofBool_eq_one_iff _).mp h0)
    have hz : (0#32 : BitVec 32).toInt = 0 := by decide
    omega
  have hw : w.toNat < 2 ^ 31 := by
    have := BitVec.msb_eq_false_iff_two_mul_lt.mp hm
    omega
  exact (StableHlo.Predicate.slt_iff_toNat hw (by decide)).mp h1

section
variable (a0 : FVec Ideal S4096x1024 .f32) (a1 a2 a3 a4 : FVec Ideal S4096x512 .f32) (a5 : IVec S4096 32)
  (h : Cert.Pre_finite_inputs.fn (F := Ideal) a0 a1 a2 a3 a4 a5 = fun _ => 1#1)
include h

/-- Every logit is a real number. -/
theorem finite_arg0 : ∀ i : S4096x1024.Idx, a0 i ≠ ⊤ ∧ a0 i ≠ ⊥ := by
  have e := congrFun h (fun d => d.elim0)
  dsimp only [fn, fn_part1] at e
  simp only [andi, IntOp.andi_eq_one] at e
  obtain ⟨⟨⟨⟨⟨⟨h0, -⟩, -⟩, -⟩, -⟩, -⟩, -⟩ := e
  intro i
  exact real_of_abs_lt_inf (a0 i) (Host.reduce_andi_all _ _ _ _ _ h0 i)

/-- Every entry of the first side feature is a real number. -/
theorem finite_arg1 : ∀ i : S4096x512.Idx, a1 i ≠ ⊤ ∧ a1 i ≠ ⊥ := by
  have e := congrFun h (fun d => d.elim0)
  dsimp only [fn, fn_part1] at e
  simp only [andi, IntOp.andi_eq_one] at e
  obtain ⟨⟨⟨⟨⟨⟨-, h1⟩, -⟩, -⟩, -⟩, -⟩, -⟩ := e
  intro i
  exact real_of_abs_lt_inf (a1 i) (Host.reduce_andi_all _ _ _ _ _ h1 i)

/-- Every entry of the second side feature is a real number. -/
theorem finite_arg2 : ∀ i : S4096x512.Idx, a2 i ≠ ⊤ ∧ a2 i ≠ ⊥ := by
  have e := congrFun h (fun d => d.elim0)
  dsimp only [fn, fn_part1] at e
  simp only [andi, IntOp.andi_eq_one] at e
  obtain ⟨⟨⟨⟨⟨-, h2⟩, -⟩, -⟩, -⟩, -⟩ := e
  intro i
  exact real_of_abs_lt_inf (a2 i) (Host.reduce_andi_all _ _ _ _ _ h2 i)

/-- Every entry of the third side feature is a real number. -/
theorem finite_arg3 : ∀ i : S4096x512.Idx, a3 i ≠ ⊤ ∧ a3 i ≠ ⊥ := by
  have e := congrFun h (fun d => d.elim0)
  dsimp only [fn, fn_part1] at e
  simp only [andi, IntOp.andi_eq_one] at e
  obtain ⟨⟨⟨⟨-, h3⟩, -⟩, -⟩, -⟩ := e
  intro i
  exact real_of_abs_lt_inf (a3 i) (Host.reduce_andi_all _ _ _ _ _ h3 i)

/-- Every entry of the embeddings is a real number. -/
theorem finite_arg4 : ∀ i : S4096x512.Idx, a4 i ≠ ⊤ ∧ a4 i ≠ ⊥ := by
  have e := congrFun h (fun d => d.elim0)
  dsimp only [fn, fn_part1] at e
  simp only [andi, IntOp.andi_eq_one] at e
  obtain ⟨⟨⟨-, h4⟩, -⟩, -⟩ := e
  intro i
  exact real_of_abs_lt_inf (a4 i) (Host.reduce_andi_all _ _ _ _ _ h4 i)

/-- Every label, as an unsigned word, is below 1024. -/
theorem label_range : ∀ i : S4096.Idx, (a5 i).toNat < 1024 := by
  have e := congrFun h (fun d => d.elim0)
  dsimp only [fn, fn_part1] at e
  simp only [andi, IntOp.andi_eq_one] at e
  obtain ⟨⟨-, h5⟩, h6⟩ := e
  intro i
  exact toNat_lt_1024 (a5 i) (Host.reduce_andi_all _ _ _ _ _ h5 i) (Host.reduce_andi_all _ _ _ _ _ h6 i)

end

end Cert.PreRead

end
-- ==== Proof.Bridge.lean ====
/-
  The algebra that joins the kernel's forms of the loss's parts to the reference's, over abstract arguments.

  Hard mining: the word of −M denotes −M; every entry of a row of the distance table is a distance (nonnegative, the
  square root of a number at least ε ≥ 0) or the fill, and the row's own entry has equal labels; so the supremum over
  all rows is at least −M and the infimum at most M, and a start value −M (resp. M) changes nothing. The rows are
  the disjoint union of eight tiles of 512, so a supremum, infimum or sum over the rows is that of the tiles' ones.

  Cross-entropy: with real logits the row maximum m is one of the logits, S = Σ exp(c − m) is a positive real and
  log S is real; the one-hot sum picks the label's logit; (log S + m) − c_t = −((c_t − m) − log S) in ℝ, and the mean
  of the negatives is the negative of the mean.
-/
import proofs.«428835_j7438883356860_1_alg».proof.Proof.Spec
import Idealize.ShloMosaic.PureOps.Ideal
import Mathlib.Data.EReal.Basic
import Mathlib.Order.Fin.Basic
import Mathlib.Algebra.BigOperators.Fin
import Mathlib.Data.Fintype.BigOperators
import Mathlib.Analysis.SpecialFunctions.Log.Basic

noncomputable section
namespace Cert.Spec
open Idealize.ShloMosaic

/-! ## The literals as real numbers -/

theorem big_eq : big = ((16777215 * 2 ^ 104 : ℝ) : EReal) := by
  simp [big, Ideal.ofBits, Ideal.ieee, -EReal.coe_mul]

theorem nbig_eq_real : nbig = ((-(16777215 * 2 ^ 104) : ℝ) : EReal) := by
  simp [nbig, Ideal.ofBits, Ideal.ieee, -EReal.coe_mul]

/-- The word of −M denotes the negation of the word of M. -/
theorem nbig_eq : nbig = -big := by
  rw [nbig_eq_real, big_eq, EReal.coe_neg]

theorem big_nonneg : 0 ≤ big := by
  rw [big_eq]; exact_mod_cast (by positivity : (0 : ℝ) ≤ 16777215 * 2 ^ 104)

theorem nbig_nonpos : nbig ≤ 0 := by
  rw [nbig_eq_real]; exact_mod_cast (by norm_num : (-(16777215 * 2 ^ 104) : ℝ) ≤ 0)

theorem n4096_eq : n4096 = ((4096 : ℝ) : EReal) := by
  simp [n4096, Ideal.ofBits, Ideal.ieee, -EReal.coe_mul]; norm_num

theorem eps_nonneg : 0 ≤ eps := by
  simp [eps, Ideal.ofBits, Ideal.ieee, -EReal.coe_mul]

/-! ## Rows as (tile, row in tile) -/

/-- Every row is a row of exactly one tile. -/
theorem tileRow_div_mod (j : Fin 4096) :
    tileRow ⟨j.val / 512, by have := j.isLt; omega⟩ ⟨j.val % 512, Nat.mod_lt _ (by norm_num)⟩ = j := by
  apply Fin.ext; simp only [tileRow]; omega

/-- Rows as pairs (tile, row in the tile). -/
def tileEquiv : Fin 8 × Fin 512 ≃ Fin 4096 where
  toFun p := tileRow p.1 p.2
  invFun j := (⟨j.val / 512, by have := j.isLt; omega⟩, ⟨j.val % 512, Nat.mod_lt _ (by norm_num)⟩)
  left_inv p := by
    obtain ⟨k, q⟩ := p
    have := k.isLt; have := q.isLt
    apply Prod.ext <;> apply Fin.ext <;> simp only [tileRow] <;> omega
  right_inv j := tileRow_div_mod j

/-- A supremum over all rows is the supremum over the tiles of the tile suprema. -/
theorem sup_tiles (f : Fin 4096 → EReal) :
    Finset.univ.sup f = Finset.univ.sup fun k : Fin 8 => Finset.univ.sup fun q : Fin 512 => f (tileRow k q) := by
  apply le_antisymm
  · apply Finset.sup_le; intro j _
    have h1 : f j ≤ Finset.univ.sup fun q : Fin 512 => f (tileRow ⟨j.val / 512, by have := j.isLt; omega⟩ q) := by
      have := Finset.le_sup (f := fun q : Fin 512 => f (tileRow ⟨j.val / 512, by have := j.isLt; omega⟩ q))
        (Finset.mem_univ ⟨j.val % 512, Nat.mod_lt _ (by norm_num)⟩)
      simpa only [tileRow_div_mod] using this
    exact le_trans h1 (Finset.le_sup (f := fun k : Fin 8 => Finset.univ.sup fun q : Fin 512 => f (tileRow k q)) (Finset.mem_univ _))
  · apply Finset.sup_le; intro k _; apply Finset.sup_le; intro q _
    exact Finset.le_sup (Finset.mem_univ _)

/-- An infimum over all rows is the infimum over the tiles of the tile infima. -/
theorem inf_tiles (f : Fin 4096 → EReal) :
    Finset.univ.inf f = Finset.univ.inf fun k : Fin 8 => Finset.univ.inf fun q : Fin 512 => f (tileRow k q) := by
  apply le_antisymm
  · apply Finset.le_inf; intro k _; apply Finset.le_inf; intro q _
    exact Finset.inf_le (Finset.mem_univ _)
  · apply Finset.le_inf; intro j _
    have h1 : (Finset.univ.inf fun q : Fin 512 => f (tileRow ⟨j.val / 512, by have := j.isLt; omega⟩ q)) ≤ f j := by
      have := Finset.inf_le (f := fun q : Fin 512 => f (tileRow ⟨j.val / 512, by have := j.isLt; omega⟩ q))
        (Finset.mem_univ ⟨j.val % 512, Nat.mod_lt _ (by norm_num)⟩)
      simpa only [tileRow_div_mod] using this
    exact le_trans (Finset.inf_le (f := fun k : Fin 8 => Finset.univ.inf fun q : Fin 512 => f (tileRow k q)) (Finset.mem_univ _)) h1

/-- A sum over all rows is the sum over the tiles of the tile sums. -/
theorem sum_tiles (f : Fin 4096 → EReal) :
    ∑ j, f j = ∑ k : Fin 8, ∑ q : Fin 512, f (tileRow k q) := by
  rw [← Equiv.sum_comp tileEquiv f, Fintype.sum_prod_type]
  rfl

/-- The tiles before the n+1-st are the n-th and those before it. -/
theorem tiles_lt_succ (n : ℕ) (h : n < 8) :
    (Finset.univ.filter fun k : Fin 8 => k.val < n + 1) = insert ⟨n, h⟩ (Finset.univ.filter fun k : Fin 8 => k.val < n) := by
  ext k
  simp only [Finset.mem_filter, Finset.mem_univ, true_and, Finset.mem_insert, Fin.ext_iff]
  omega

theorem tiles_lt_zero : (Finset.univ.filter fun k : Fin 8 => k.val < 0) = ∅ := by
  ext k; simp

theorem tiles_lt_eight : (Finset.univ.filter fun k : Fin 8 => k.val < 8) = Finset.univ :=
  Finset.filter_true_of_mem fun k _ => k.isLt

/-! ## The distance is nonnegative -/

/-- The square root of a nonnegative extended real is nonnegative. -/
theorem sqrt_nonneg {z : EReal} (hz : 0 ≤ z) : 0 ≤ Ideal.sqrt z := by
  induction z using EReal.rec with
  | bot => simp at hz
  | top => simp
  | coe r =>
    have hr : 0 ≤ r := by exact_mod_cast hz
    rw [Ideal.sqrt_coe, if_neg (not_lt.mpr hr)]
    exact_mod_cast Real.sqrt_nonneg r

theorem dist_nonneg (x : Fin 4096 → Fin 512 → EReal) (r j : Fin 4096) : 0 ≤ dist x r j :=
  sqrt_nonneg (le_trans eps_nonneg (le_max_left _ _))

/-! ## The hardest positive -/

section Pos
variable (x : Fin 4096 → Fin 512 → EReal) (t : Fin 4096 → BitVec 32) (r : Fin 4096)

/-- After n tiles the running maximum is the start value joined with the suprema of the tiles before the n-th. -/
theorem runPos_prefix (n : ℕ) (hn : n ≤ 8) :
    runPos x t r n = max nbig ((Finset.univ.filter fun k : Fin 8 => k.val < n).sup
      fun k => Finset.univ.sup fun q : Fin 512 => posEntry x t nbig r (tileRow k q)) := by
  induction n with
  | zero => rw [runPos, tiles_lt_zero, Finset.sup_empty, max_bot_right]
  | succ n ih =>
    have h : n < 8 := by omega
    rw [runPos, dif_pos h, ih (by omega), tiles_lt_succ n h, Finset.sup_insert, max_assoc]
    congr 1
    exact max_comm _ _

/-- The start value −M is below the row's own entry, a distance. -/
theorem nbig_le_hardPos : nbig ≤ Finset.univ.sup fun j : Fin 4096 => posEntry x t nbig r j := by
  have h : posEntry x t nbig r r ≤ Finset.univ.sup fun j : Fin 4096 => posEntry x t nbig r j :=
    Finset.le_sup (f := fun j : Fin 4096 => posEntry x t nbig r j) (Finset.mem_univ r)
  refine le_trans ?_ h
  rw [posEntry, if_pos rfl]
  exact le_trans nbig_nonpos (dist_nonneg x r r)

theorem runPos_eq : runPos x t r 8 = hardPos x t r := by
  rw [runPos_prefix x t r 8 le_rfl, tiles_lt_eight, ← sup_tiles (fun j => posEntry x t nbig r j),
    max_eq_right (nbig_le_hardPos x t r), hardPos, nbig_eq]

end Pos

/-! ## The hardest negative -/

section Neg
variable (x : Fin 4096 → Fin 512 → EReal) (t : Fin 4096 → BitVec 32) (r : Fin 4096)

/-- After n tiles the running minimum is the start value met with the infima of the tiles before the n-th. -/
theorem runNeg_prefix (n : ℕ) (hn : n ≤ 8) :
    runNeg x t r n = min big ((Finset.univ.filter fun k : Fin 8 => k.val < n).inf
      fun k => Finset.univ.inf fun q : Fin 512 => negEntry x t big r (tileRow k q)) := by
  induction n with
  | zero => rw [runNeg, tiles_lt_zero, Finset.inf_empty, min_top_right]
  | succ n ih =>
    have h : n < 8 := by omega
    rw [runNeg, dif_pos h, ih (by omega), tiles_lt_succ n h, Finset.inf_insert, min_assoc]
    congr 1
    exact min_comm _ _

/-- The row's own entry is the fill M, so the infimum is at most the start value M. -/
theorem hardNeg_le_big : (Finset.univ.inf fun j : Fin 4096 => negEntry x t big r j) ≤ big := by
  have h : (Finset.univ.inf fun j : Fin 4096 => negEntry x t big r j) ≤ negEntry x t big r r :=
    Finset.inf_le (f := fun j : Fin 4096 => negEntry x t big r j) (Finset.mem_univ r)
  refine le_trans h ?_
  rw [negEntry, if_pos rfl]

theorem runNeg_eq : runNeg x t r 8 = hardNeg x t r := by
  rw [runNeg_prefix x t r 8 le_rfl, tiles_lt_eight, ← inf_tiles (fun j => negEntry x t big r j),
    min_eq_right (hardNeg_le_big x t r), hardNeg]

end Neg

/-! ## The sums of squared differences -/

section Frob
variable (a b : Fin 4096 → Fin 512 → EReal)

/-- After n tiles the accumulator is the sum of the shares of the tiles before the n-th. -/
theorem accSq_prefix (n : ℕ) (hn : n ≤ 8) :
    accSq a b n = ∑ k ∈ Finset.univ.filter (fun k : Fin 8 => k.val < n), sqDiffTile a b k := by
  induction n with
  | zero => rw [accSq, tiles_lt_zero, Finset.sum_empty]
  | succ n ih =>
    have h : n < 8 := by omega
    rw [accSq, dif_pos h, ih (by omega), tiles_lt_succ n h, Finset.sum_insert (by simp), add_comm]

theorem accSq_eq : accSq a b 8 = sqDiff a b := by
  rw [accSq_prefix a b 8 le_rfl, tiles_lt_eight, sqDiff,
    sum_tiles (fun r => ∑ d : Fin 512, (a r d - b r d) * (a r d - b r d))]
  rfl

end Frob

/-! ## Cross-entropy -/

/-- The cast of a finite sum of reals is the sum of the casts. -/
theorem coe_sum {ι : Type} (s : Finset ι) (f : ι → ℝ) : ((∑ i ∈ s, f i : ℝ) : EReal) = ∑ i ∈ s, (f i : EReal) := by
  classical
  refine Finset.induction_on s (by simp) ?_
  intro i s hi ih
  rw [Finset.sum_insert hi, Finset.sum_insert hi, EReal.coe_add, ih]

section Xent
variable (a : Fin 4096 → Fin 1024 → ℝ) (t : Fin 4096 → BitVec 32)

/-- The row maximum of real logits is one of them. -/
theorem rowMax_real (r : Fin 4096) : ∃ k0 : Fin 1024, rowMax (fun r k => (a r k : EReal)) r = (a r k0 : EReal) := by
  obtain ⟨k0, _, h⟩ := Finset.exists_mem_eq_sup (Finset.univ : Finset (Fin 1024)) Finset.univ_nonempty
    (fun k => (a r k : EReal))
  exact ⟨k0, h⟩

/-- With a real row maximum m, Σ exp(c − m) is the real sum of the real exponentials. -/
theorem sumExp_real (r : Fin 4096) (m : ℝ) (hm : rowMax (fun r k => (a r k : EReal)) r = (m : EReal)) :
    sumExp (fun r k => (a r k : EReal)) r = ((∑ k, Real.exp (a r k - m) : ℝ) : EReal) := by
  rw [sumExp, coe_sum]
  apply Finset.sum_congr rfl
  intro k _
  rw [hm, ← EReal.coe_sub, Ideal.exp_coe]

/-- The one-hot sum picks the label's logit. -/
theorem pick_real (r : Fin 4096) (h : (t r).toNat < 1024) :
    (∑ k : Fin 1024, (if BitVec.ofNat 32 k.val = t r then ((a r k : ℝ) : EReal) else 0))
      = (a r ⟨(t r).toNat, h⟩ : EReal) := by
  rw [Finset.sum_eq_single (⟨(t r).toNat, h⟩ : Fin 1024)]
  · rw [if_pos]
    simp
  · intro k _ hk
    rw [if_neg]
    intro he
    apply hk
    apply Fin.ext
    have h2 := congrArg BitVec.toNat he
    have hk' := k.isLt
    simp only [BitVec.toNat_ofNat] at h2
    show k.val = (t r).toNat
    omega
  · intro h'
    exact absurd (Finset.mem_univ _) h'

/-- A row's two losses are a real number and its negative. -/
theorem row_real (r : Fin 4096) (h : (t r).toNat < 1024) :
    ∃ v : ℝ, rowLossK (fun r k => (a r k : EReal)) t r = (v : EReal)
      ∧ logProb (fun r k => (a r k : EReal)) r ⟨(t r).toNat, h⟩ = ((-v : ℝ) : EReal) := by
  obtain ⟨k0, hm⟩ := rowMax_real a r
  have hS := sumExp_real a r (a r k0) hm
  have hpos : 0 < ∑ k, Real.exp (a r k - a r k0) :=
    Finset.sum_pos (fun k _ => Real.exp_pos _) Finset.univ_nonempty
  have hlog : Ideal.log (sumExp (fun r k => (a r k : EReal)) r)
      = (Real.log (∑ k, Real.exp (a r k - a r k0)) : EReal) := by
    rw [hS, Ideal.log_coe, if_neg (not_le.mpr hpos)]
  refine ⟨Real.log (∑ k, Real.exp (a r k - a r k0)) + a r k0 - a r ⟨(t r).toNat, h⟩, ?_, ?_⟩
  · rw [rowLossK, hlog, hm, pick_real a t r h, EReal.coe_sub, EReal.coe_add]
  · have hring : -(Real.log (∑ k, Real.exp (a r k - a r k0)) + a r k0 - a r ⟨(t r).toNat, h⟩)
        = (a r ⟨(t r).toNat, h⟩ - a r k0) - Real.log (∑ k, Real.exp (a r k - a r k0)) := by ring
    rw [logProb, hlog, hm, hring, EReal.coe_sub, EReal.coe_sub]

/-- The mean of the negatives is the negative of the mean. -/
theorem mean_neg (v : Fin 4096 → ℝ) :
    Ideal.div (0 + ∑ r, (v r : EReal)) n4096 = -(Ideal.div (0 + ∑ r, ((-v r : ℝ) : EReal)) n4096) := by
  rw [n4096_eq, Ideal.div_coe (by norm_num), Ideal.div_coe (by norm_num), zero_add, zero_add, ← coe_sum, ← coe_sum,
    ← EReal.coe_mul, ← EReal.coe_mul, ← EReal.coe_neg, Finset.sum_neg_distrib]
  congr 1
  ring

end Xent

theorem xent_eq (c : Fin 4096 → Fin 1024 → EReal) (t : Fin 4096 → BitVec 32)
    (hfin : ∀ r k, c r k ≠ ⊤ ∧ c r k ≠ ⊥) (hrange : ∀ r, (t r).toNat < 1024) :
    xentK c t = xentR c (fun r => ⟨(t r).toNat, hrange r⟩) := by
  obtain ⟨a, rfl⟩ : ∃ a : Fin 4096 → Fin 1024 → ℝ, c = fun r k => (a r k : EReal) :=
    ⟨fun r k => (c r k).toReal,
      funext fun r => funext fun k => (EReal.coe_toReal (hfin r k).1 (hfin r k).2).symm⟩
  choose v hv using fun r => row_real a t r (hrange r)
  rw [xentK, xentR, Finset.sum_congr rfl (fun r _ => (hv r).1), Finset.sum_congr rfl (fun r _ => (hv r).2)]
  exact mean_neg v

end Cert.Spec
end
-- ==== Proof.lean ====
/-
  The certificate: the kernel (three TensorCore regions: pairwise distances with hard mining over resident embeddings,
  cross-entropy rows, two Frobenius accumulators; then host arithmetic) and the jnp reference compute the same loss

      1·T + ½·X + (1/10)·(√A + √B)

  over the extended reals, whenever every float input is a real number and every label lies in 0 … 1023 (outside that
  range the reference's take_along_axis wraps or fills, the kernel's one-hot sum picks nothing: the two differ).

  Frames. Each program terminates without a fault and leaves its arguments unchanged: for the kernel's two programs by
  the run through its seven items (Run, Walk: the same text at the word level and at the exact level), for the
  reference by its run.

  Values. The kernel's result is the loss with T the hinge mean of the running maximum / minimum of the masked distances
  folded tile by tile from −M / M, X the mean of (log Σ exp(c − max) + max) − (one-hot-picked logit), A and B accumulated
  tile by tile (KValue). The reference's result is the loss with T from the suprema / infima over all rows from ∓∞, X the
  negated mean of the picked log-probabilities, A and B whole sums (RefRead). The two agree (Bridge): a maximum from −M
  equals the one from −∞ because every entry is ≥ −M; a minimum from M equals the one from +∞ because the diagonal entry
  is M; the suprema over 4096 rows split into 8 tiles of 512; with real logits (log S + m) − c_t = −((c_t − m) − log S)
  row by row and the mean of negatives is the negative of the mean; sums regroup freely.
  The precondition is used twice: real logits for the cross-entropy law, labels in range to read the reference's
  gather and the kernel's one-hot sum as the same entry (PreRead).
-/
import proofs.«428835_j7438883356860_1_alg».proof.Defs
import proofs.«428835_j7438883356860_1_alg».proof.Proof.Gen.Kernel
import proofs.«428835_j7438883356860_1_alg».proof.Proof.Gen.KernelIdeal
import proofs.«428835_j7438883356860_1_alg».proof.Proof.Gen.ReferenceIdeal
import proofs.«428835_j7438883356860_1_alg».proof.Proof.Gen.Pre_finite_inputs
import proofs.«428835_j7438883356860_1_alg».proof.Proof.KWalk
import proofs.«428835_j7438883356860_1_alg».proof.Proof.Walk
import proofs.«428835_j7438883356860_1_alg».proof.Proof.KValue
import proofs.«428835_j7438883356860_1_alg».proof.Proof.RefRead
import proofs.«428835_j7438883356860_1_alg».proof.Proof.RefRun
import proofs.«428835_j7438883356860_1_alg».proof.Proof.PreRead
import proofs.«428835_j7438883356860_1_alg».proof.Proof.Bridge
import Idealize.ShloMosaic.Adequacy
import Idealize.ShloMosaic.Init

set_option maxRecDepth 16384

noncomputable section

namespace Cert.Proof

open Idealize.ShloMosaic Idealize.SL.Sem Idealize.ShloMosaic.ValueIdx

theorem frame_k : Cert.frame_Kernel := fun m ρ _ => Cert.Kernel.Fr.frame m ρ
theorem frame_ki : Cert.frame_KernelIdeal := fun m ρ _ => Cert.KernelIdeal.Fr.frame m ρ
theorem frame_ri : Cert.frame_ReferenceIdeal := fun m ρ _ =>
  (θ_run Cert.ReferenceIdeal.defs _ _).mono (fun _ h c => (h c).2) (Cert.RefValue.run (F := Ideal) m ρ)

/-- The loss in the kernel's forms is the loss in the reference's forms, under the precondition's two facts. -/
theorem loss_eq (x0 : FVec Ideal Cert.ReferenceIdeal.S4096x1024 .f32) (x1 x2 x3 x4 : FVec Ideal Cert.ReferenceIdeal.S4096x512 .f32)
    (x5 : IVec Cert.ReferenceIdeal.S4096 32)
    (hfin : ∀ i : Cert.ReferenceIdeal.S4096x1024.Idx, x0 i ≠ ⊤ ∧ x0 i ≠ ⊥)
    (hrange : ∀ i : Cert.ReferenceIdeal.S4096.Idx, (x5 i).toNat < 1024) :
    Cert.Spec.loss
      (Cert.Spec.hingeMean (fun r => Cert.Spec.runPos (fun r d => x4 (ix2 r d)) (fun r => x5 (ix1 r)) r 8)
        (fun r => Cert.Spec.runNeg (fun r d => x4 (ix2 r d)) (fun r => x5 (ix1 r)) r 8))
      (Cert.Spec.xentK (fun r k => x0 (ix2 r k)) (fun r => x5 (ix1 r)))
      (Cert.Spec.accSq (fun r d => x3 (ix2 r d)) (fun r d => x1 (ix2 r d)) 8)
      (Cert.Spec.accSq (fun r d => x3 (ix2 r d)) (fun r d => x2 (ix2 r d)) 8)
    = Cert.RefValue.lossR x0 x1 x2 x3 x4 x5 hrange := by
  unfold Cert.RefValue.lossR
  rw [show (fun r => Cert.Spec.runPos (fun r d => x4 (ix2 r d)) (fun r => x5 (ix1 r)) r 8)
        = Cert.Spec.hardPos (fun r d => x4 (ix2 r d)) (fun r => x5 (ix1 r)) from funext fun r => Cert.Spec.runPos_eq _ _ r,
      show (fun r => Cert.Spec.runNeg (fun r d => x4 (ix2 r d)) (fun r => x5 (ix1 r)) r 8)
        = Cert.Spec.hardNeg (fun r d => x4 (ix2 r d)) (fun r => x5 (ix1 r)) from funext fun r => Cert.Spec.runNeg_eq _ _ r,
      Cert.Spec.xent_eq (fun r k => x0 (ix2 r k)) (fun r => x5 (ix1 r)) (fun r k => hfin _) (fun r => hrange _),
      Cert.Spec.accSq_eq, Cert.Spec.accSq_eq]

theorem algebraic : Cert.algebraic_KernelIdeal_ReferenceIdeal := by
  intro m ρ m' ρ' hpre hagree
  refine ⟨fun c _ => Cert.KernelIdeal.Val.lossK m c, Cert.KernelIdeal.Val.run_value m ρ, ?_⟩
  refine (θ_run Cert.ReferenceIdeal.defs _ _).mono (fun _ h c => ⟨(h c).1.trans ?_, (h c).2⟩) (Cert.RefValue.run (F := Ideal) m' ρ')
  obtain ⟨h0, h1, h2, h3, h4, h5⟩ := hagree c
  rw [h0, h1, h2, h3, h4, h5]
  funext i
  have hr := Cert.PreRead.label_range _ _ _ _ _ _ (hpre c)
  have hf := Cert.PreRead.finite_arg0 _ _ _ _ _ _ (hpre c)
  rw [Cert.RefValue.ref_eq _ _ _ _ _ _ hr i]
  exact (loss_eq _ _ _ _ _ _ hf hr).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
